-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512 : Shape := ⟨3, ![16, 512, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel

variable [Facts]

def fn {F : FTy → Type} [FloatOps F] (main_arg0 : FVec F S16x512x512 .f32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  main_v3
-- ==== Kernel.lean ====
abbrev S16x512x512 : Shape := ⟨3, ![16, 512, 512]⟩
abbrev S6 : Shape := ⟨1, ![6]⟩
abbrev S16x262144 : Shape := ⟨2, ![16, 262144]⟩
abbrev S_ : Shape := ⟨0, ![]⟩
abbrev S4194304 : Shape := ⟨1, ![4194304]⟩
abbrev S4194304x1 : Shape := ⟨2, ![4194304, 1]⟩
abbrev S1 : Shape := ⟨1, ![1]⟩
abbrev S8x524288 : Shape := ⟨2, ![8, 524288]⟩
abbrev S5x8x524288 : Shape := ⟨3, ![5, 8, 524288]⟩
abbrev S8x32768 : Shape := ⟨2, ![8, 32768]⟩
abbrev S5x8x32768 : Shape := ⟨3, ![5, 8, 32768]⟩
abbrev S8x2048 : Shape := ⟨2, ![8, 2048]⟩
abbrev S1x8x2048 : Shape := ⟨3, ![1, 8, 2048]⟩
abbrev S5x4194304 : Shape := ⟨2, ![5, 4194304]⟩
abbrev S6x1 : Shape := ⟨2, ![6, 1]⟩
abbrev S6x4194304 : Shape := ⟨2, ![6, 4194304]⟩
abbrev S4194304x6 : Shape := ⟨2, ![4194304, 6]⟩
abbrev S4194304x2x3 : Shape := ⟨3, ![4194304, 2, 3]⟩

abbrev nBuf : Space → Nat
  | .hbm => 97
  | .vmem => 4
  | .smem => 1
  | _ => 0

abbrev bufTy : (tb : Table) → Fin (tcTables nBuf tb) → BufTy
  | .hbm, ⟨0, _⟩ => ⟨S16x512x512, .f32⟩
  | .hbm, ⟨1, _⟩ => ⟨S6, .i32⟩
  | .hbm, ⟨2, _⟩ => ⟨S16x262144, .f32⟩
  | .hbm, ⟨3, _⟩ => ⟨S_, .f32⟩
  | .hbm, ⟨4, _⟩ => ⟨S16x262144, .f32⟩
  | .hbm, ⟨5, _⟩ => ⟨S16x262144, .i1⟩
  | .hbm, ⟨6, _⟩ => ⟨S4194304, .i1⟩
  | .hbm, ⟨7, _⟩ => ⟨S4194304, .i32⟩
  | .hbm, ⟨8, _⟩ => ⟨S_, .i32⟩
  | .hbm, ⟨9, _⟩ => ⟨S_, .i32⟩
  | .hbm, ⟨10, _⟩ => ⟨S4194304, .i32⟩
  | .hbm, ⟨11, _⟩ => ⟨S_, .i32⟩
  | .hbm, ⟨12, _⟩ => ⟨S4194304, .i32⟩
  | .hbm, ⟨13, _⟩ => ⟨S_, .i32⟩
  | .hbm, ⟨14, _⟩ => ⟨S_, .i32⟩
  | .hbm, ⟨15, _⟩ => ⟨S4194304, .i32⟩
  | .hbm, ⟨16, _⟩ => ⟨S4194304, .i32⟩
  | .hbm, ⟨17, _⟩ => ⟨S_, .i32⟩
  | .hbm, ⟨18, _⟩ => ⟨S4194304, .i32⟩
  | .hbm, ⟨19, _⟩ => ⟨S4194304, .i1⟩
  | .hbm, ⟨20, _⟩ => ⟨S_, .i32⟩
  | .hbm, ⟨21, _⟩ => ⟨S4194304, .i32⟩
  | .hbm, ⟨22, _⟩ => ⟨S4194304, .i32⟩
  | .hbm, ⟨23, _⟩ => ⟨S4194304, .i32⟩
  | .hbm, ⟨24, _⟩ => ⟨S4194304x1, .i32⟩
  | .hbm, ⟨25, _⟩ => ⟨S_, .i32⟩
  | .hbm, ⟨26, _⟩ => ⟨S4194304, .i32⟩
  | .hbm, ⟨27, _⟩ => ⟨S4194304, .i32⟩
  | .hbm, ⟨28, _⟩ => ⟨S_, .i32⟩
  | .hbm, ⟨29, _⟩ => ⟨S_, .i32⟩
  | .hbm, ⟨30, _⟩ => ⟨S4194304, .i32⟩
  | .hbm, ⟨31, _⟩ => ⟨S_, .i32⟩
  | .hbm, ⟨32, _⟩ => ⟨S4194304, .i32⟩
  | .hbm, ⟨33, _⟩ => ⟨S4194304, .i32⟩
  | .hbm, ⟨34, _⟩ => ⟨S4194304, .i32⟩
  | .hbm, ⟨35, _⟩ => ⟨S_, .i32⟩
  | .hbm, ⟨36, _⟩ => ⟨S4194304, .i32⟩
  | .hbm, ⟨37, _⟩ => ⟨S4194304, .i1⟩
  | .hbm, ⟨38, _⟩ => ⟨S4194304, .i32⟩
  | .hbm, ⟨39, _⟩ => ⟨S4194304, .i32⟩
  | .hbm, ⟨40, _⟩ => ⟨S_, .i32⟩
  | .hbm, ⟨41, _⟩ => ⟨S4194304, .i32⟩
  | .hbm, ⟨42, _⟩ => ⟨S4194304, .i1⟩
  | .hbm, ⟨43, _⟩ => ⟨S4194304, .i1⟩
  | .hbm, ⟨44, _⟩ => ⟨S_, .i32⟩
  | .hbm, ⟨45, _⟩ => ⟨S4194304, .i32⟩
  | .hbm, ⟨46, _⟩ => ⟨S4194304, .i32⟩
  | .hbm, ⟨47, _⟩ => ⟨S4194304, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S4194304, .i32⟩
  | .hbm, ⟨55, _⟩ => ⟨S4194304, .i32⟩
  | .hbm, ⟨56, _⟩ => ⟨S_, .i32⟩
  | .hbm, ⟨57, _⟩ => ⟨S4194304, .i32⟩
  | .hbm, ⟨58, _⟩ => ⟨S4194304, .i1⟩
  | .hbm, ⟨59, _⟩ => ⟨S_, .i32⟩
  | .hbm, ⟨60, _⟩ => ⟨S4194304, .i32⟩
  | .hbm, ⟨61, _⟩ => ⟨S4194304, .i1⟩
  | .hbm, ⟨62, _⟩ => ⟨S_, .i32⟩
  | .hbm, ⟨63, _⟩ => ⟨S_, .i1⟩
  | .hbm, ⟨64, _⟩ => ⟨S4194304, .i1⟩
  | .hbm, ⟨65, _⟩ => ⟨S4194304, .i1⟩
  | .hbm, ⟨66, _⟩ => ⟨S4194304, .i1⟩
  | .hbm, ⟨67, _⟩ => ⟨S4194304, .i32⟩
  | .hbm, ⟨68, _⟩ => ⟨S4194304, .i32⟩
  | .hbm, ⟨69, _⟩ => ⟨S4194304, .i32⟩
  | .hbm, ⟨70, _⟩ => ⟨S4194304, .i32⟩
  | .hbm, ⟨71, _⟩ => ⟨S4194304, .i32⟩
  | .hbm, ⟨72, _⟩ => ⟨S_, .i32⟩
  | .hbm, ⟨73, _⟩ => ⟨S_, .i32⟩
  | .hbm, ⟨74, _⟩ => ⟨S4194304, .i32⟩
  | .hbm, ⟨75, _⟩ => ⟨S4194304, .i1⟩
  | .hbm, ⟨76, _⟩ => ⟨S_, .i32⟩
  | .hbm, ⟨77, _⟩ => ⟨S_, .i32⟩
  | .hbm, ⟨78, _⟩ => ⟨S4194304, .i32⟩
  | .hbm, ⟨79, _⟩ => ⟨S4194304, .i32⟩
  | .hbm, ⟨80, _⟩ => ⟨S16x262144, .i32⟩
  | .hbm, ⟨81, _⟩ => ⟨S_, .i32⟩
  | .hbm, ⟨82, _⟩ => ⟨S_, .i32⟩
  | .hbm, ⟨83, _⟩ => ⟨S8x524288, .i32⟩
  | .hbm, ⟨84, _⟩ => ⟨S5x8x524288, .i32⟩
  | .hbm, ⟨85, _⟩ => ⟨S5x4194304, .i32⟩
  | .hbm, ⟨86, _⟩ => ⟨S_, .i32⟩
  | .hbm, ⟨87, _⟩ => ⟨S6, .i32⟩
  | .hbm, ⟨88, _⟩ => ⟨S6, .i1⟩
  | .hbm, ⟨89, _⟩ => ⟨S_, .i32⟩
  | .hbm, ⟨90, _⟩ => ⟨S6, .i32⟩
  | .hbm, ⟨91, _⟩ => ⟨S6, .i32⟩
  | .hbm, ⟨92, _⟩ => ⟨S6, .i32⟩
  | .hbm, ⟨93, _⟩ => ⟨S6x1, .i32⟩
  | .hbm, ⟨94, _⟩ => ⟨S6x4194304, .i32⟩
  | .hbm, ⟨95, _⟩ => ⟨S4194304x6, .i32⟩
  | .hbm, ⟨96, _⟩ => ⟨S4194304x2x3, .i32⟩
  | .local _ .vmem, ⟨0, _⟩ => ⟨S8x32768, .i32⟩
  | .local _ .vmem, ⟨1, _⟩ => ⟨S8x32768, .i32⟩
  | .local _ .vmem, ⟨2, _⟩ => ⟨S5x8x32768, .i32⟩
  | .local _ .vmem, ⟨3, _⟩ => ⟨S5x8x32768, .i32⟩
  | .local _ .smem, ⟨0, _⟩ => ⟨S1, .i32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_call2_call0_c : Ref sig .tc := ⟨.hbm, 28, rfl⟩
abbrev main_call2_call0_v0 : Ref sig .tc := ⟨.hbm, 29, rfl⟩
abbrev main_v15 : Ref sig .tc := ⟨.hbm, 30, rfl⟩
abbrev main_c_5 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_call3_v5 : Ref sig .tc := ⟨.hbm, 37, rfl⟩
abbrev main_call3_v6 : Ref sig .tc := ⟨.hbm, 38, rfl⟩
abbrev main_call3_v7 : Ref sig .tc := ⟨.hbm, 39, rfl⟩
abbrev main_call3_c : Ref sig .tc := ⟨.hbm, 40, rfl⟩
abbrev main_call3_v8 : Ref sig .tc := ⟨.hbm, 41, rfl⟩
abbrev main_call3_v9 : Ref sig .tc := ⟨.hbm, 42, rfl⟩
abbrev main_call3_v10 : Ref sig .tc := ⟨.hbm, 43, rfl⟩
abbrev main_call3_c_0 : Ref sig .tc := ⟨.hbm, 44, rfl⟩
abbrev main_call3_v11 : Ref sig .tc := ⟨.hbm, 45, rfl⟩
abbrev main_call3_v12 : Ref sig .tc := ⟨.hbm, 46, rfl⟩
abbrev main_v16 : Ref sig .tc := ⟨.hbm, 47, rfl⟩
abbrev main_c_6 : Ref sig .tc := ⟨.hbm, 48, rfl⟩
abbrev main_call4_v0 : Ref sig .tc := ⟨.hbm, 49, rfl⟩
abbrev main_call4_c : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_c_1 : Ref sig .tc := ⟨.hbm, 56, rfl⟩
abbrev main_call4_v5 : Ref sig .tc := ⟨.hbm, 57, rfl⟩
abbrev main_call4_v6 : Ref sig .tc := ⟨.hbm, 58, rfl⟩
abbrev main_call4_c_2 : Ref sig .tc := ⟨.hbm, 59, rfl⟩
abbrev main_call4_v7 : Ref sig .tc := ⟨.hbm, 60, rfl⟩
abbrev main_call4_v8 : Ref sig .tc := ⟨.hbm, 61, rfl⟩
abbrev main_call4_c_3 : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_v12 : Ref sig .tc := ⟨.hbm, 66, rfl⟩
abbrev main_call4_v13 : Ref sig .tc := ⟨.hbm, 67, rfl⟩
abbrev main_call4_v14 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_c_7 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_c_8 : Ref sig .tc := ⟨.hbm, 76, rfl⟩
abbrev main_call5_v0 : Ref sig .tc := ⟨.hbm, 77, rfl⟩
abbrev main_call5_v1 : Ref sig .tc := ⟨.hbm, 78, rfl⟩
abbrev main_v23 : Ref sig .tc := ⟨.hbm, 79, rfl⟩
abbrev main_v24 : Ref sig .tc := ⟨.hbm, 80, rfl⟩
abbrev main_c_9 : Ref sig .tc := ⟨.hbm, 81, rfl⟩
abbrev main_v25 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_c_10 : Ref sig .tc := ⟨.hbm, 86, rfl⟩
abbrev main_v30 : Ref sig .tc := ⟨.hbm, 87, rfl⟩
abbrev main_v31 : Ref sig .tc := ⟨.hbm, 88, rfl⟩
abbrev main_c_11 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v26 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v26.idx], fun | 0 => main_v26.names | ⟨_ + 1, h⟩ => absurd h (Nat.not_lt.2 (Nat.le_add_left _ _)), fun | 0 => rfl | ⟨_ + 1, h⟩ => absurd h (Nat.not_lt.2 (Nat.le_add_left _ _))⟩

def k0_mult1 : BitVec 32 :=
  let c0_i32 : BitVec 32 := 0#32
  let c2048_i32 : BitVec 32 := 2048#32
  let v1 : BitVec 32 := Scalar.muli c0_i32 c2048_i32
  v1
def k0_off1 (c0_i32 : BitVec 32) : Fin 2 → Nat :=
  let c0_0 : Index := 0#32
  let c2048_i32 : BitVec 32 := 2048#32
  let v1 : BitVec 32 := Scalar.muli c0_i32 c2048_i32
  let v2 : BitVec 32 := v1
  let v3 : Index := Scalar.indexCast v2
  ![0, v3.toNat]
def k0_off2 (c0_i32 : BitVec 32) : Fin 3 → Nat :=
  let c0_11 : Index := 0#32
  let c0_12 : Index := 0#32
  let c2048_i32 : BitVec 32 := 2048#32
  let v1 : BitVec 32 := Scalar.muli c0_i32 c2048_i32
  let v2 : BitVec 32 := v1
  let v49 : Index := Scalar.indexCast v2
  ![0, 0, v49.toNat]
def k0_off3 (c0_i32 : BitVec 32) : Fin 3 → Nat :=
  let c1 : Index := 1#32
  let c0_13 : Index := 0#32
  let c2048_i32 : BitVec 32 := 2048#32
  let v1 : BitVec 32 := Scalar.muli c0_i32 c2048_i32
  let v2 : BitVec 32 := v1
  let v53 : Index := Scalar.indexCast v2
  ![1, 0, v53.toNat]
def k0_off4 (c0_i32 : BitVec 32) : Fin 3 → Nat :=
  let c2 : Index := 2#32
  let c0_14 : Index := 0#32
  let c2048_i32 : BitVec 32 := 2048#32
  let v1 : BitVec 32 := Scalar.muli c0_i32 c2048_i32
  let v2 : BitVec 32 := v1
  let v57 : Index := Scalar.indexCast v2
  ![2, 0, v57.toNat]
def k0_off5 (c0_i32 : BitVec 32) : Fin 3 → Nat :=
  let c3 : Index := 3#32
  let c0_15 : Index := 0#32
  let c2048_i32 : BitVec 32 := 2048#32
  let v1 : BitVec 32 := Scalar.muli c0_i32 c2048_i32
  let v2 : BitVec 32 := v1
  let v61 : Index := Scalar.indexCast v2
  ![3, 0, v61.toNat]
def k0_off6 (c0_i32 : BitVec 32) : Fin 3 → Nat :=
  let c4 : Index := 4#32
  let c0_16 : Index := 0#32
  let c2048_i32 : BitVec 32 := 2048#32
  let v1 : BitVec 32 := Scalar.muli c0_i32 c2048_i32
  let v2 : BitVec 32 := v1
  let v65 : Index := Scalar.indexCast v2
  ![4, 0, v65.toNat]
def k0_mult2 : BitVec 32 :=
  let c1_i32 : BitVec 32 := 1#32
  let c2048_i32_17 : BitVec 32 := 2048#32
  let v69 : BitVec 32 := Scalar.muli c1_i32 c2048_i32_17
  v69
def k0_mult3 : BitVec 32 :=
  let c2_i32 : BitVec 32 := 2#32
  let c2048_i32_47 : BitVec 32 := 2048#32
  let v137 : BitVec 32 := Scalar.muli c2_i32 c2048_i32_47
  v137
def k0_mult4 : BitVec 32 :=
  let c3_i32 : BitVec 32 := 3#32
  let c2048_i32_77 : BitVec 32 := 2048#32
  let v205 : BitVec 32 := Scalar.muli c3_i32 c2048_i32_77
  v205
def k0_mult5 : BitVec 32 :=
  let c4_i32 : BitVec 32 := 4#32
  let c2048_i32_107 : BitVec 32 := 2048#32
  let v273 : BitVec 32 := Scalar.muli c4_i32 c2048_i32_107
  v273
def k0_mult6 : BitVec 32 :=
  let c5_i32 : BitVec 32 := 5#32
  let c2048_i32_137 : BitVec 32 := 2048#32
  let v341 : BitVec 32 := Scalar.muli c5_i32 c2048_i32_137
  v341
def k0_mult7 : BitVec 32 :=
  let c6_i32 : BitVec 32 := 6#32
  let c2048_i32_167 : BitVec 32 := 2048#32
  let v409 : BitVec 32 := Scalar.muli c6_i32 c2048_i32_167
  v409
def k0_mult8 : BitVec 32 :=
  let c7_i32 : BitVec 32 := 7#32
  let c2048_i32_197 : BitVec 32 := 2048#32
  let v477 : BitVec 32 := Scalar.muli c7_i32 c2048_i32_197
  v477
def k0_mult9 : BitVec 32 :=
  let c8_i32 : BitVec 32 := 8#32
  let c2048_i32_227 : BitVec 32 := 2048#32
  let v545 : BitVec 32 := Scalar.muli c8_i32 c2048_i32_227
  v545
def k0_mult10 : BitVec 32 :=
  let c9_i32_257 : BitVec 32 := 9#32
  let c2048_i32_258 : BitVec 32 := 2048#32
  let v613 : BitVec 32 := Scalar.muli c9_i32_257 c2048_i32_258
  v613
def k0_mult11 : BitVec 32 :=
  let c10_i32 : BitVec 32 := 10#32
  let c2048_i32_288 : BitVec 32 := 2048#32
  let v681 : BitVec 32 := Scalar.muli c10_i32 c2048_i32_288
  v681
def k0_mult12 : BitVec 32 :=
  let c11_i32 : BitVec 32 := 11#32
  let c2048_i32_318 : BitVec 32 := 2048#32
  let v749 : BitVec 32 := Scalar.muli c11_i32 c2048_i32_318
  v749
def k0_mult13 : BitVec 32 :=
  let c12_i32 : BitVec 32 := 12#32
  let c2048_i32_348 : BitVec 32 := 2048#32
  let v817 : BitVec 32 := Scalar.muli c12_i32 c2048_i32_348
  v817
def k0_mult14 : BitVec 32 :=
  let c13_i32 : BitVec 32 := 13#32
  let c2048_i32_378 : BitVec 32 := 2048#32
  let v885 : BitVec 32 := Scalar.muli c13_i32 c2048_i32_378
  v885
def k0_mult15 : BitVec 32 :=
  let c14_i32 : BitVec 32 := 14#32
  let c2048_i32_408 : BitVec 32 := 2048#32
  let v953 : BitVec 32 := Scalar.muli c14_i32 c2048_i32_408
  v953
def k0_mult16 : BitVec 32 :=
  let c15_i32 : BitVec 32 := 15#32
  let c2048_i32_438 : BitVec 32 := 2048#32
  let v1021 : BitVec 32 := Scalar.muli c15_i32 c2048_i32_438
  v1021
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x32768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x8x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x512x512_S16x262144 : S16x512x512.ShapeCasts S16x262144
  bcast_S_S16x262144 : S_.BroadcastsInDim S16x262144 (![] : Fin 0 → Fin S16x262144.rank)
  shapeCasts_S16x262144_S4194304 : S16x262144.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S4194304_S_d0 : S4194304.ReducesTo [0] S_
  reducesTo_S16x262144_S_d0_1 : S16x262144.ReducesTo [0, 1] S_
  shapeCasts_S_S1 : S_.ShapeCasts S1
  shapeCasts_S4194304_S8x524288 : S4194304.ShapeCasts S8x524288
  inb_S1_S1_0 : ∀ a, (![0] : Fin 1 → Nat) a + S1.size a ≤ S1.size a
  numel1_S1 : S1.numel = 1
  h_S8x2048 : 0 < S8x2048.numel
  shapeCasts_S8x2048_S8x2048 : S8x2048.ShapeCasts S8x2048
  iota_S8x2048_d0_w32 : S8x2048.Iotas .tc 32 [0]
  iota_S8x2048_d1_w32 : S8x2048.Iotas .tc 32 [1]
  h_S1x8x2048 : 0 < S1x8x2048.numel
  shapeCasts_S1x8x2048_S8x2048 : S1x8x2048.ShapeCasts S8x2048
  shapeCasts_S8x2048_S1x8x2048 : S8x2048.ShapeCasts S1x8x2048
  shapeCasts_S5x8x524288_S5x4194304 : S5x8x524288.ShapeCasts S5x4194304
  bcast_S_S6 : S_.BroadcastsInDim S6 (![] : Fin 0 → Fin S6.rank)
  bcast_S6_S6x1_0 : S6.BroadcastsInDim S6x1 (![0] : Fin 1 → Fin S6x1.rank)
  transposes_S6x4194304_S4194304x6_1_0 : S6x4194304.Transposes [1, 0] S4194304x6
  shapeCasts_S4194304x6_S4194304x2x3 : S4194304x6.ShapeCasts S4194304x2x3
  scatter_S4194304_S4194304x1_S4194304_n_0_0_1_wf : ScatterDims.WF S4194304 S4194304x1 S4194304 [] [0] [0] 1
  gather_S5x4194304_S6x1_S6x4194304_1_0_n_n_0_1_14194304_wf : GatherDims.WF S5x4194304 S6x1 S6x4194304 [1] [0] [] [0] [] 1 ![1, 4194304]
  hrank0 : 0 < grid0.rank
  k0_mult1_dvd : 2048 ∣ k0_mult1.toNat
  k0_off1_inb : ∀ (r : Fin 16), ∀ a, (k0_off1 (BitVec.ofNat 32 r.val)) a + S8x2048.size a ≤ S8x32768.size a
  k0_off2_inb : ∀ (r : Fin 16), ∀ a, (k0_off2 (BitVec.ofNat 32 r.val)) a + S1x8x2048.size a ≤ S5x8x32768.size a
  k0_off3_inb : ∀ (r : Fin 16), ∀ a, (k0_off3 (BitVec.ofNat 32 r.val)) a + S1x8x2048.size a ≤ S5x8x32768.size a
  k0_off4_inb : ∀ (r : Fin 16), ∀ a, (k0_off4 (BitVec.ofNat 32 r.val)) a + S1x8x2048.size a ≤ S5x8x32768.size a
  k0_off5_inb : ∀ (r : Fin 16), ∀ a, (k0_off5 (BitVec.ofNat 32 r.val)) a + S1x8x2048.size a ≤ S5x8x32768.size a
  k0_off6_inb : ∀ (r : Fin 16), ∀ a, (k0_off6 (BitVec.ofNat 32 r.val)) a + S1x8x2048.size a ≤ S5x8x32768.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  k0_mult9_dvd : 2048 ∣ k0_mult9.toNat
  k0_mult10_dvd : 2048 ∣ k0_mult10.toNat
  k0_mult11_dvd : 2048 ∣ k0_mult11.toNat
  k0_mult12_dvd : 2048 ∣ k0_mult12.toNat
  k0_mult13_dvd : 2048 ∣ k0_mult13.toNat
  k0_mult14_dvd : 2048 ∣ k0_mult14.toNat
  k0_mult15_dvd : 2048 ∣ k0_mult15.toNat
  k0_mult16_dvd : 2048 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32768.size a ≤ S8x524288.size a
  hwx0_0 : ∀ i : grid0.Coords, EltTy.bits .i32 = 32 ∨ (Rect.block (s := S8x524288) S8x32768.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x8x32768.size a ≤ S5x8x524288.size a
  hwx0_1 : ∀ i : grid0.Coords, EltTy.bits .i32 = 32 ∨ (Rect.block (s := S5x8x524288) S5x8x32768.size (cc0_transform_1 i) (hinb0_1 i)).WholeWords (EltTy.packing .i32)

variable [Facts₀]

def scatter_S4194304_S4194304x1_S4194304_n_0_0_1 : ScatterDims S4194304 S4194304x1 S4194304 where
  updateWindowDims := []
  insertedWindowDims := [0]
  scatterDimsToOperandDims := [0]
  indexVectorDim := 1
  wf := scatter_S4194304_S4194304x1_S4194304_n_0_0_1_wf
def gather_S5x4194304_S6x1_S6x4194304_1_0_n_n_0_1_14194304 : GatherDims S5x4194304 S6x1 S6x4194304 where
  offsetDims := [1]
  collapsedSliceDims := [0]
  operandBatchingDims := []
  startIndicesBatchingDims := []
  startIndexMap := [0]
  indexVectorDim := 1
  sliceSizes := ![1, 4194304]
  wf := gather_S5x4194304_S6x1_S6x4194304_1_0_n_n_0_1_14194304_wf

abbrev spec0_0 : Pipeline.WinSpec sig grid0.rank :=
  Pipeline.WinSpec.ofSpec (Memref.whole main_v27) S8x32768.size reads0_0 false false 2 stage0_0 sem0_0 nbuf0_0 hstage0_0

abbrev spec0_1 : Pipeline.WinSpec sig grid0.rank :=
  Pipeline.WinSpec.ofSpec (Memref.whole main_v28) S5x8x32768.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S16x512x512 : Shape := ⟨3, ![16, 512, 512]⟩
abbrev S16x262144 : Shape := ⟨2, ![16, 262144]⟩
abbrev S_ : Shape := ⟨0, ![]⟩
abbrev S4194304 : Shape := ⟨1, ![4194304]⟩
abbrev S4194304x1 : Shape := ⟨2, ![4194304, 1]⟩
abbrev S4194304x2 : Shape := ⟨2, ![4194304, 2]⟩
abbrev S4194304x1x2 : Shape := ⟨3, ![4194304, 1, 2]⟩
abbrev S4194304x2x2 : Shape := ⟨3, ![4194304, 2, 2]⟩
abbrev S4194304x1x1 : Shape := ⟨3, ![4194304, 1, 1]⟩
abbrev S4194304x2x1 : Shape := ⟨3, ![4194304, 2, 1]⟩
abbrev S4194304x2x3 : Shape := ⟨3, ![4194304, 2, 3]⟩

abbrev nBuf : Space → Nat
  | .hbm => 195
  | .vmem => 0
  | .smem => 0
  | _ => 0

abbrev hbmTy0_0 (i : Nat) : BufTy := match i % 128 with
  | 0 => ⟨S16x512x512, .f32⟩
  | 1 => ⟨S16x262144, .f32⟩
  | 2 => ⟨S_, .f32⟩
  | 3 => ⟨S16x262144, .f32⟩
  | 4 => ⟨S16x262144, .i1⟩
  | 5 => ⟨S4194304, .i1⟩
  | 6 => ⟨S4194304, .i32⟩
  | 7 => ⟨S_, .i32⟩
  | 8 => ⟨S_, .i32⟩
  | 9 => ⟨S4194304, .i32⟩
  | 10 => ⟨S_, .i32⟩
  | 11 => ⟨S4194304, .i32⟩
  | 12 => ⟨S_, .i32⟩
  | 13 => ⟨S_, .i32⟩
  | 14 => ⟨S4194304, .i32⟩
  | 15 => ⟨S4194304, .i32⟩
  | 16 => ⟨S_, .i32⟩
  | 17 => ⟨S4194304, .i32⟩
  | 18 => ⟨S4194304, .i1⟩
  | 19 => ⟨S_, .i32⟩
  | 20 => ⟨S4194304, .i32⟩
  | 21 => ⟨S4194304, .i32⟩
  | 22 => ⟨S4194304, .i32⟩
  | 23 => ⟨S4194304x1, .i32⟩
  | 24 => ⟨S_, .i32⟩
  | 25 => ⟨S4194304, .i32⟩
  | 26 => ⟨S4194304, .i32⟩
  | 27 => ⟨S_, .i32⟩
  | 28 => ⟨S_, .i32⟩
  | 29 => ⟨S4194304, .i32⟩
  | 30 => ⟨S_, .i32⟩
  | 31 => ⟨S4194304, .i32⟩
  | 32 => ⟨S4194304, .i32⟩
  | 33 => ⟨S4194304, .i32⟩
  | 34 => ⟨S_, .i32⟩
  | 35 => ⟨S4194304, .i32⟩
  | 36 => ⟨S4194304, .i1⟩
  | 37 => ⟨S4194304, .i32⟩
  | 38 => ⟨S4194304, .i32⟩
  | 39 => ⟨S_, .i32⟩
  | 40 => ⟨S4194304, .i32⟩
  | 41 => ⟨S4194304, .i1⟩
  | 42 => ⟨S4194304, .i1⟩
  | 43 => ⟨S_, .i32⟩
  | 44 => ⟨S4194304, .i32⟩
  | 45 => ⟨S4194304, .i32⟩
  | 46 => ⟨S4194304, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S4194304, .i32⟩
  | 54 => ⟨S4194304, .i32⟩
  | 55 => ⟨S_, .i32⟩
  | 56 => ⟨S4194304, .i32⟩
  | 57 => ⟨S4194304, .i1⟩
  | 58 => ⟨S_, .i32⟩
  | 59 => ⟨S4194304, .i32⟩
  | 60 => ⟨S4194304, .i1⟩
  | 61 => ⟨S_, .i32⟩
  | 62 => ⟨S_, .i1⟩
  | 63 => ⟨S4194304, .i1⟩
  | 64 => ⟨S4194304, .i1⟩
  | 65 => ⟨S4194304, .i1⟩
  | 66 => ⟨S4194304, .i32⟩
  | 67 => ⟨S4194304, .i32⟩
  | 68 => ⟨S4194304, .i32⟩
  | 69 => ⟨S_, .i32⟩
  | 70 => ⟨S4194304, .i32⟩
  | 71 => ⟨S4194304, .i32⟩
  | 72 => ⟨S4194304, .i32⟩
  | 73 => ⟨S_, .i32⟩
  | 74 => ⟨S4194304, .i32⟩
  | 75 => ⟨S4194304, .i1⟩
  | 76 => ⟨S4194304, .i32⟩
  | 77 => ⟨S4194304, .i32⟩
  | 78 => ⟨S_, .i32⟩
  | 79 => ⟨S4194304, .i32⟩
  | 80 => ⟨S4194304, .i1⟩
  | 81 => ⟨S4194304, .i1⟩
  | 82 => ⟨S_, .i32⟩
  | 83 => ⟨S4194304, .i32⟩
  | 84 => ⟨S4194304, .i32⟩
  | 85 => ⟨S4194304, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S4194304, .i32⟩
  | 93 => ⟨S4194304, .i32⟩
  | 94 => ⟨S_, .i32⟩
  | 95 => ⟨S4194304, .i32⟩
  | 96 => ⟨S4194304, .i1⟩
  | 97 => ⟨S_, .i32⟩
  | 98 => ⟨S4194304, .i32⟩
  | 99 => ⟨S4194304, .i1⟩
  | 100 => ⟨S_, .i32⟩
  | 101 => ⟨S_, .i1⟩
  | 102 => ⟨S4194304, .i1⟩
  | 103 => ⟨S4194304, .i1⟩
  | 104 => ⟨S4194304, .i1⟩
  | 105 => ⟨S4194304, .i32⟩
  | 106 => ⟨S4194304, .i32⟩
  | 107 => ⟨S4194304, .i32⟩
  | 108 => ⟨S4194304, .i32⟩
  | 109 => ⟨S16x262144, .i32⟩
  | 110 => ⟨S_, .i32⟩
  | 111 => ⟨S_, .i32⟩
  | 112 => ⟨S4194304, .i32⟩
  | 113 => ⟨S4194304, .i1⟩
  | 114 => ⟨S_, .i32⟩
  | 115 => ⟨S_, .i32⟩
  | 116 => ⟨S4194304, .i32⟩
  | 117 => ⟨S4194304, .i32⟩
  | 118 => ⟨S_, .i32⟩
  | 119 => ⟨S_, .i32⟩
  | 120 => ⟨S4194304, .i32⟩
  | 121 => ⟨S4194304, .i32⟩
  | 122 => ⟨S_, .i32⟩
  | 123 => ⟨S_, .i32⟩
  | 124 => ⟨S4194304, .i32⟩
  | 125 => ⟨S4194304, .i32⟩
  | 126 => ⟨S4194304, .i32⟩
  | 127 => ⟨S_, .i32⟩
  | _ => ⟨S16x512x512, .f32⟩

abbrev hbmTy0_1 (i : Nat) : BufTy := match i % 128 with
  | 0 => ⟨S4194304, .i32⟩
  | 1 => ⟨S4194304, .i1⟩
  | 2 => ⟨S4194304, .i32⟩
  | 3 => ⟨S4194304, .i32⟩
  | 4 => ⟨S_, .i32⟩
  | 5 => ⟨S4194304, .i32⟩
  | 6 => ⟨S4194304, .i1⟩
  | 7 => ⟨S4194304, .i1⟩
  | 8 => ⟨S_, .i32⟩
  | 9 => ⟨S4194304, .i32⟩
  | 10 => ⟨S4194304, .i32⟩
  | 11 => ⟨S4194304, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S4194304, .i32⟩
  | 19 => ⟨S4194304, .i32⟩
  | 20 => ⟨S_, .i32⟩
  | 21 => ⟨S4194304, .i32⟩
  | 22 => ⟨S4194304, .i1⟩
  | 23 => ⟨S_, .i32⟩
  | 24 => ⟨S4194304, .i32⟩
  | 25 => ⟨S4194304, .i1⟩
  | 26 => ⟨S_, .i32⟩
  | 27 => ⟨S_, .i1⟩
  | 28 => ⟨S4194304, .i1⟩
  | 29 => ⟨S4194304, .i1⟩
  | 30 => ⟨S4194304, .i1⟩
  | 31 => ⟨S4194304, .i32⟩
  | 32 => ⟨S4194304, .i32⟩
  | 33 => ⟨S4194304, .i32⟩
  | 34 => ⟨S4194304x1, .i32⟩
  | 35 => ⟨S4194304x1, .i32⟩
  | 36 => ⟨S4194304x2, .i32⟩
  | 37 => ⟨S_, .i32⟩
  | 38 => ⟨S4194304x2, .i32⟩
  | 39 => ⟨S4194304x2, .i32⟩
  | 40 => ⟨S_, .i32⟩
  | 41 => ⟨S4194304x2, .i32⟩
  | 42 => ⟨S4194304x2, .i32⟩
  | 43 => ⟨S_, .i32⟩
  | 44 => ⟨S4194304x2, .i32⟩
  | 45 => ⟨S4194304x2, .i32⟩
  | 46 => ⟨S4194304x1x2, .i32⟩
  | 47 => ⟨S4194304x1x2, .i32⟩
  | 48 => ⟨S4194304x2x2, .i32⟩
  | 49 => ⟨S4194304x1, .i32⟩
  | 50 => ⟨S4194304x1, .i32⟩
  | 51 => ⟨S4194304x1x1, .i32⟩
  | 52 => ⟨S4194304x1x1, .i32⟩
  | 53 => ⟨S4194304x2x1, .i32⟩
  | 54 => ⟨S4194304x2x3, .i32⟩
  | 55 => ⟨S16x262144, .i32⟩
  | 56 => ⟨S_, .i32⟩
  | 57 => ⟨S_, .i32⟩
  | 58 => ⟨S4194304, .i32⟩
  | 59 => ⟨S4194304, .i32⟩
  | 60 => ⟨S4194304, .i1⟩
  | 61 => ⟨S4194304x1x1, .i1⟩
  | 62 => ⟨S_, .i32⟩
  | 63 => ⟨S_, .i32⟩
  | 64 => ⟨S4194304x2x3, .i1⟩
  | 65 => ⟨S4194304x2x3, .i32⟩
  | 66 => ⟨S4194304x2x3, .i32⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_call2_call0_c : Ref sig .tc := ⟨.hbm, 27, rfl⟩
abbrev main_call2_call0_v0 : Ref sig .tc := ⟨.hbm, 28, rfl⟩
abbrev main_v14 : Ref sig .tc := ⟨.hbm, 29, rfl⟩
abbrev main_c_4 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_call3_v5 : Ref sig .tc := ⟨.hbm, 36, rfl⟩
abbrev main_call3_v6 : Ref sig .tc := ⟨.hbm, 37, rfl⟩
abbrev main_call3_v7 : Ref sig .tc := ⟨.hbm, 38, rfl⟩
abbrev main_call3_c : Ref sig .tc := ⟨.hbm, 39, rfl⟩
abbrev main_call3_v8 : Ref sig .tc := ⟨.hbm, 40, rfl⟩
abbrev main_call3_v9 : Ref sig .tc := ⟨.hbm, 41, rfl⟩
abbrev main_call3_v10 : Ref sig .tc := ⟨.hbm, 42, rfl⟩
abbrev main_call3_c_0 : Ref sig .tc := ⟨.hbm, 43, rfl⟩
abbrev main_call3_v11 : Ref sig .tc := ⟨.hbm, 44, rfl⟩
abbrev main_call3_v12 : Ref sig .tc := ⟨.hbm, 45, rfl⟩
abbrev main_v15 : Ref sig .tc := ⟨.hbm, 46, rfl⟩
abbrev main_c_5 : Ref sig .tc := ⟨.hbm, 47, rfl⟩
abbrev main_call4_v0 : Ref sig .tc := ⟨.hbm, 48, rfl⟩
abbrev main_call4_c : Ref sig .tc := ⟨.hbm, 49, rfl⟩
abbrev main_call4_v1 : Ref sig .tc := ⟨.hbm, 50, rfl⟩
abbrev main_call4_c_0 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_call4_c_1 : Ref sig .tc := ⟨.hbm, 55, rfl⟩
abbrev main_call4_v5 : Ref sig .tc := ⟨.hbm, 56, rfl⟩
abbrev main_call4_v6 : Ref sig .tc := ⟨.hbm, 57, rfl⟩
abbrev main_call4_c_2 : Ref sig .tc := ⟨.hbm, 58, rfl⟩
abbrev main_call4_v7 : Ref sig .tc := ⟨.hbm, 59, rfl⟩
abbrev main_call4_v8 : Ref sig .tc := ⟨.hbm, 60, rfl⟩
abbrev main_call4_c_3 : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_v12 : Ref sig .tc := ⟨.hbm, 65, rfl⟩
abbrev main_call4_v13 : Ref sig .tc := ⟨.hbm, 66, rfl⟩
abbrev main_call4_v14 : Ref sig .tc := ⟨.hbm, 67, rfl⟩
abbrev main_v16 : Ref sig .tc := ⟨.hbm, 68, rfl⟩
abbrev main_c_6 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_call5_v5 : Ref sig .tc := ⟨.hbm, 75, rfl⟩
abbrev main_call5_v6 : Ref sig .tc := ⟨.hbm, 76, rfl⟩
abbrev main_call5_v7 : Ref sig .tc := ⟨.hbm, 77, rfl⟩
abbrev main_call5_c : Ref sig .tc := ⟨.hbm, 78, rfl⟩
abbrev main_call5_v8 : Ref sig .tc := ⟨.hbm, 79, rfl⟩
abbrev main_call5_v9 : Ref sig .tc := ⟨.hbm, 80, rfl⟩
abbrev main_call5_v10 : Ref sig .tc := ⟨.hbm, 81, rfl⟩
abbrev main_call5_c_0 : Ref sig .tc := ⟨.hbm, 82, rfl⟩
abbrev main_call5_v11 : Ref sig .tc := ⟨.hbm, 83, rfl⟩
abbrev main_call5_v12 : Ref sig .tc := ⟨.hbm, 84, rfl⟩
abbrev main_v17 : Ref sig .tc := ⟨.hbm, 85, rfl⟩
abbrev main_c_7 : Ref sig .tc := ⟨.hbm, 86, rfl⟩
abbrev main_call6_v0 : Ref sig .tc := ⟨.hbm, 87, rfl⟩
abbrev main_call6_c : Ref sig .tc := ⟨.hbm, 88, rfl⟩
abbrev main_call6_v1 : Ref sig .tc := ⟨.hbm, 89, rfl⟩
abbrev main_call6_c_0 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_call6_c_1 : Ref sig .tc := ⟨.hbm, 94, rfl⟩
abbrev main_call6_v5 : Ref sig .tc := ⟨.hbm, 95, rfl⟩
abbrev main_call6_v6 : Ref sig .tc := ⟨.hbm, 96, rfl⟩
abbrev main_call6_c_2 : Ref sig .tc := ⟨.hbm, 97, rfl⟩
abbrev main_call6_v7 : Ref sig .tc := ⟨.hbm, 98, rfl⟩
abbrev main_call6_v8 : Ref sig .tc := ⟨.hbm, 99, rfl⟩
abbrev main_call6_c_3 : Ref sig .tc := ⟨.hbm, 100, rfl⟩
abbrev main_call6_v9 : Ref sig .tc := ⟨.hbm, 101, rfl⟩
abbrev main_call6_v10 : Ref sig .tc := ⟨.hbm, 102, rfl⟩
abbrev main_call6_v11 : Ref sig .tc := ⟨.hbm, 103, rfl⟩
abbrev main_call6_v12 : Ref sig .tc := ⟨.hbm, 104, rfl⟩
abbrev main_call6_v13 : Ref sig .tc := ⟨.hbm, 105, rfl⟩
abbrev main_call6_v14 : Ref sig .tc := ⟨.hbm, 106, rfl⟩
abbrev main_v18 : Ref sig .tc := ⟨.hbm, 107, rfl⟩
abbrev main_v19 : Ref sig .tc := ⟨.hbm, 108, rfl⟩
abbrev main_v20 : Ref sig .tc := ⟨.hbm, 109, rfl⟩
abbrev main_c_8 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_c_9 : Ref sig .tc := ⟨.hbm, 114, rfl⟩
abbrev main_call7_v0 : Ref sig .tc := ⟨.hbm, 115, rfl⟩
abbrev main_call7_v1 : Ref sig .tc := ⟨.hbm, 116, rfl⟩
abbrev main_v24 : Ref sig .tc := ⟨.hbm, 117, rfl⟩
abbrev main_c_10 : Ref sig .tc := ⟨.hbm, 118, rfl⟩
abbrev main_call8_v0 : Ref sig .tc := ⟨.hbm, 119, rfl⟩
abbrev main_call8_v1 : Ref sig .tc := ⟨.hbm, 120, rfl⟩
abbrev main_v25 : Ref sig .tc := ⟨.hbm, 121, rfl⟩
abbrev main_c_11 : Ref sig .tc := ⟨.hbm, 122, rfl⟩
abbrev main_call9_v0 : Ref sig .tc := ⟨.hbm, 123, rfl⟩
abbrev main_call9_v1 : Ref sig .tc := ⟨.hbm, 124, rfl⟩
abbrev main_call9_v2 : Ref sig .tc := ⟨.hbm, 125, rfl⟩
abbrev main_call9_v3 : Ref sig .tc := ⟨.hbm, 126, rfl⟩
abbrev main_call9_v4 : Ref sig .tc := ⟨.hbm, 127, rfl⟩
abbrev main_call9_v5 : Ref sig .tc := ⟨.hbm, 128, rfl⟩
abbrev main_call9_v6 : Ref sig .tc := ⟨.hbm, 129, rfl⟩
abbrev main_call9_v7 : Ref sig .tc := ⟨.hbm, 130, rfl⟩
abbrev main_call9_v8 : Ref sig .tc := ⟨.hbm, 131, rfl⟩
abbrev main_call9_c : Ref sig .tc := ⟨.hbm, 132, rfl⟩
abbrev main_call9_v9 : Ref sig .tc := ⟨.hbm, 133, rfl⟩
abbrev main_call9_v10 : Ref sig .tc := ⟨.hbm, 134, rfl⟩
abbrev main_call9_v11 : Ref sig .tc := ⟨.hbm, 135, rfl⟩
abbrev main_call9_c_0 : Ref sig .tc := ⟨.hbm, 136, rfl⟩
abbrev main_call9_v12 : Ref sig .tc := ⟨.hbm, 137, rfl⟩
abbrev main_call9_v13 : Ref sig .tc := ⟨.hbm, 138, rfl⟩
abbrev main_v26 : Ref sig .tc := ⟨.hbm, 139, rfl⟩
abbrev main_c_12 : Ref sig .tc := ⟨.hbm, 140, rfl⟩
abbrev main_call10_v0 : Ref sig .tc := ⟨.hbm, 141, rfl⟩
abbrev main_call10_c : Ref sig .tc := ⟨.hbm, 142, rfl⟩
abbrev main_call10_v1 : Ref sig .tc := ⟨.hbm, 143, rfl⟩
abbrev main_call10_c_0 : Ref sig .tc := ⟨.hbm, 144, rfl⟩
abbrev main_call10_v2 : Ref sig .tc := ⟨.hbm, 145, rfl⟩
abbrev main_call10_v3 : Ref sig .tc := ⟨.hbm, 146, rfl⟩
abbrev main_call10_v4 : Ref sig .tc := ⟨.hbm, 147, rfl⟩
abbrev main_call10_c_1 : Ref sig .tc := ⟨.hbm, 148, rfl⟩
abbrev main_call10_v5 : Ref sig .tc := ⟨.hbm, 149, rfl⟩
abbrev main_call10_v6 : Ref sig .tc := ⟨.hbm, 150, rfl⟩
abbrev main_call10_c_2 : Ref sig .tc := ⟨.hbm, 151, rfl⟩
abbrev main_call10_v7 : Ref sig .tc := ⟨.hbm, 152, rfl⟩
abbrev main_call10_v8 : Ref sig .tc := ⟨.hbm, 153, rfl⟩
abbrev main_call10_c_3 : Ref sig .tc := ⟨.hbm, 154, rfl⟩
abbrev main_call10_v9 : Ref sig .tc := ⟨.hbm, 155, rfl⟩
abbrev main_call10_v10 : Ref sig .tc := ⟨.hbm, 156, rfl⟩
abbrev main_call10_v11 : Ref sig .tc := ⟨.hbm, 157, rfl⟩
abbrev main_call10_v12 : Ref sig .tc := ⟨.hbm, 158, rfl⟩
abbrev main_call10_v13 : Ref sig .tc := ⟨.hbm, 159, rfl⟩
abbrev main_call10_v14 : Ref sig .tc := ⟨.hbm, 160, rfl⟩
abbrev main_v27 : Ref sig .tc := ⟨.hbm, 161, rfl⟩
abbrev main_v28 : Ref sig .tc := ⟨.hbm, 162, rfl⟩
abbrev main_v29 : Ref sig .tc := ⟨.hbm, 163, rfl⟩
abbrev main_v30 : Ref sig .tc := ⟨.hbm, 164, rfl⟩
abbrev main_c_13 : Ref sig .tc := ⟨.hbm, 165, rfl⟩
abbrev main_v31 : Ref sig .tc := ⟨.hbm, 166, rfl⟩
abbrev main_v32 : Ref sig .tc := ⟨.hbm, 167, rfl⟩
abbrev main_c_14 : Ref sig .tc := ⟨.hbm, 168, rfl⟩
abbrev main_v33 : Ref sig .tc := ⟨.hbm, 169, rfl⟩
abbrev main_v34 : Ref sig .tc := ⟨.hbm, 170, rfl⟩
abbrev main_c_15 : Ref sig .tc := ⟨.hbm, 171, rfl⟩
abbrev main_v35 : Ref sig .tc := ⟨.hbm, 172, rfl⟩
abbrev main_v36 : Ref sig .tc := ⟨.hbm, 173, rfl⟩
abbrev main_v37 : Ref sig .tc := ⟨.hbm, 174, rfl⟩
abbrev main_v38 : Ref sig .tc := ⟨.hbm, 175, rfl⟩
abbrev main_v39 : Ref sig .tc := ⟨.hbm, 176, rfl⟩
abbrev main_v40 : Ref sig .tc := ⟨.hbm, 177, rfl⟩
abbrev main_v41 : Ref sig .tc := ⟨.hbm, 178, rfl⟩
abbrev main_v42 : Ref sig .tc := ⟨.hbm, 179, rfl⟩
abbrev main_v43 : Ref sig .tc := ⟨.hbm, 180, rfl⟩
abbrev main_v44 : Ref sig .tc := ⟨.hbm, 181, rfl⟩
abbrev main_v45 : Ref sig .tc := ⟨.hbm, 182, rfl⟩
abbrev main_v46 : Ref sig .tc := ⟨.hbm, 183, rfl⟩
abbrev main_c_16 : Ref sig .tc := ⟨.hbm, 184, rfl⟩
abbrev main_v47 : Ref sig .tc := ⟨.hbm, 185, rfl⟩
abbrev main_v48 : Ref sig .tc := ⟨.hbm, 186, rfl⟩
abbrev main_v49 : Ref sig .tc := ⟨.hbm, 187, rfl⟩
abbrev main_v50 : Ref sig .tc := ⟨.hbm, 188, rfl⟩
abbrev main_v51 : Ref sig .tc := ⟨.hbm, 189, rfl⟩
abbrev main_c_17 : Ref sig .tc := ⟨.hbm, 190, rfl⟩
abbrev main_call11_v0 : Ref sig .tc := ⟨.hbm, 191, rfl⟩
abbrev main_call11_v1 : Ref sig .tc := ⟨.hbm, 192, rfl⟩
abbrev main_call11_v2 : Ref sig .tc := ⟨.hbm, 193, rfl⟩
abbrev main_v52 : Ref sig .tc := ⟨.hbm, 194, rfl⟩

abbrev nD : Nat := 1
abbrev τ : Topo := Topo.v7x

variable {F : FTy → Type} [FloatOps F]

class Facts₀ : Prop where
  shapeCasts_S16x512x512_S16x262144 : S16x512x512.ShapeCasts S16x262144
  bcast_S_S16x262144 : S_.BroadcastsInDim S16x262144 (![] : Fin 0 → Fin S16x262144.rank)
  shapeCasts_S16x262144_S4194304 : S16x262144.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S16x262144_S_d0_1 : S16x262144.ReducesTo [0, 1] S_
  concatenates_S4194304x1_S4194304x1_S4194304x2_d1 : Shape.Concatenates [S4194304x1, S4194304x1] S4194304x2 1
  bcast_S_S4194304x2 : S_.BroadcastsInDim S4194304x2 (![] : Fin 0 → Fin S4194304x2.rank)
  bcast_S4194304x2_S4194304x1x2_0_2 : S4194304x2.BroadcastsInDim S4194304x1x2 (![0, 2] : Fin 2 → Fin S4194304x1x2.rank)
  concatenates_S4194304x1x2_S4194304x1x2_S4194304x2x2_d1 : Shape.Concatenates [S4194304x1x2, S4194304x1x2] S4194304x2x2 1
  bcast_S4194304x1_S4194304x1x1_0_2 : S4194304x1.BroadcastsInDim S4194304x1x1 (![0, 2] : Fin 2 → Fin S4194304x1x1.rank)
  concatenates_S4194304x1x1_S4194304x1x1_S4194304x2x1_d1 : Shape.Concatenates [S4194304x1x1, S4194304x1x1] S4194304x2x1 1
  concatenates_S4194304x2x1_S4194304x2x2_S4194304x2x3_d2 : Shape.Concatenates [S4194304x2x1, S4194304x2x2] S4194304x2x3 2
  bcast_S4194304_S4194304x1x1_0 : S4194304.BroadcastsInDim S4194304x1x1 (![0] : Fin 1 → Fin S4194304x1x1.rank)
  bcast_S4194304x1x1_S4194304x2x3_0_1_2 : S4194304x1x1.BroadcastsInDim S4194304x2x3 (![0, 1, 2] : Fin 3 → Fin S4194304x2x3.rank)
  bcast_S_S4194304x2x3 : S_.BroadcastsInDim S4194304x2x3 (![] : Fin 0 → Fin S4194304x2x3.rank)
  scatter_S4194304_S4194304x1_S4194304_n_0_0_1_wf : ScatterDims.WF S4194304 S4194304x1 S4194304 [] [0] [0] 1

variable [Facts₀]

def scatter_S4194304_S4194304x1_S4194304_n_0_0_1 : ScatterDims S4194304 S4194304x1 S4194304 where
  updateWindowDims := []
  insertedWindowDims := [0]
  scatterDimsToOperandDims := [0]
  indexVectorDim := 1
  wf := scatter_S4194304_S4194304x1_S4194304_n_0_0_1_wf

class Facts : Prop extends Facts₀ where

variable [Facts]
-- ==== Proof.Spec.lean ====
/-
  The mathematics both programs share, stated once over literal shapes and free of either program's names.

  From the mask `x : f32[16,512,512]` both programs form the hit bits `x > 1/2` (as a [16, 262144] array, and
  flattened row-major to 4194304 bits), a word array `W x` (the stream compaction's index array: a running sum of
  the hit bits, clipped and normalised, scattered as a histogram, summed again: position `k` of `W x` is the flat
  index of the k-th hit while `k` is below the number of hits), and the number of hits. Nothing below the
  definition of `W` is ever opened: both programs apply the same chain, and only its value at a position is used.

  A row `k` of the result holds, while `k` is below the count, the image index `b` and the two corners
  `(x - 16, y - 16)`, `(x + 16, y + 16)` of the 32-wide box centred at pixel `(x, y)`; `b`, `x`, `y` are bit
  fields of the word `W x k` (bits 18-21, 9-17, 0-8: the flat index is `b * 2^18 + x * 2^9 + y`); a row at or past
  the count holds `-1` everywhere.
-/
import Idealize.ShloMosaic.PureOps
import Idealize.ShloMosaic.Lib.ValueIdx

noncomputable section

namespace Cert.Spec

open Idealize.ShloMosaic

abbrev S16x512x512 : Shape := ⟨3, ![16, 512, 512]⟩
abbrev S16x262144 : Shape := ⟨2, ![16, 262144]⟩
abbrev S_ : Shape := ⟨0, ![]⟩
abbrev S4194304 : Shape := ⟨1, ![4194304]⟩
abbrev S4194304x1 : Shape := ⟨2, ![4194304, 1]⟩
abbrev S4194304x2x3 : Shape := ⟨3, ![4194304, 2, 3]⟩

theorem shapeCasts_a : S16x512x512.ShapeCasts S16x262144 := by decide
theorem shapeCasts_b : S16x262144.ShapeCasts S4194304 := by decide
theorem bcast_a : S_.BroadcastsInDim S16x262144 (![] : Fin 0 → Fin S16x262144.rank) := by decide
theorem bcast_b : S_.BroadcastsInDim S_ (![] : Fin 0 → Fin S_.rank) := by decide
theorem bcast_c : S_.BroadcastsInDim S4194304 (![] : Fin 0 → Fin S4194304.rank) := by decide
theorem bcast_d : S4194304.BroadcastsInDim S4194304x1 (![0] : Fin 1 → Fin S4194304x1.rank) := by decide
theorem rw_a : S4194304.ReduceWindows (![4194304] : Fin 1 → Nat) ![1] ![4194303] ![0] S4194304 := by decide
theorem h_S_ : 0 < S_.numel := by decide
theorem red2 : S16x262144.ReducesTo [0, 1] S_ := by decide
theorem red1 : S4194304.ReducesTo [0] S_ := by decide
theorem scat_wf : ScatterDims.WF S4194304 S4194304x1 S4194304 [] [0] [0] 1 := by decide

/-- The histogram scatter's dimension numbers: one index per update, into axis 0. -/
def scat : ScatterDims S4194304 S4194304x1 S4194304 where
  updateWindowDims := []
  insertedWindowDims := [0]
  scatterDimsToOperandDims := [0]
  indexVectorDim := 1
  wf := scat_wf

variable {F : FTy → Type} [FloatOps F]

/-- The hit bits, one per pixel, image by image: `x > 1/2`. -/
def hits2 (x : FVec F S16x512x512 .f32) : IVec S16x262144 1 :=
  cmpf .ogt (shapeCast S16x262144 x shapeCasts_a) (broadcastInDim S16x262144 ![] bcast_a (constant S_ .f32 0x3F000000#32))

/-- The same bits flattened row-major. -/
def hits1 (x : FVec F S16x512x512 .f32) : IVec S4194304 1 := shapeCast S4194304 (hits2 x) shapeCasts_b

/-- A running sum along the one axis (a window of the whole length, padded on the left). -/
def runSum (a : IVec S4194304 32) : IVec S4194304 32 :=
  Host.reduceWindow IntOp.addi ![4194304] ![1] ![4194303] ![0] a (broadcastInDim S_ ![] bcast_b (constantI S_ 32 0#32)) rw_a h_S_

/-- The running sum of the hits, clipped below at zero and with a negative entry moved up by the length. -/
def binIdx (x : FVec F S16x512x512 .f32) : IVec S4194304 32 :=
  let c : IVec S4194304 32 := maxsi (broadcastInDim S4194304 ![] bcast_c (id (constantI S_ 32 0#32))) (runSum (extui 32 (hits1 x) (by decide)))
  select (cmpi .slt c (broadcastInDim S4194304 ![] bcast_c (constantI S_ 32 0#32)))
    (addi c (broadcastInDim S4194304 ![] bcast_c (constantI S_ 32 4194304#32))) c

/-- The compaction's index array: the running sum of the histogram of `binIdx`. -/
def W (x : FVec F S16x512x512 .f32) : IVec S4194304 32 :=
  runSum (Host.scatter scat IntOp.addi (broadcastInDim S4194304 ![] bcast_c (constantI S_ 32 0#32))
    (broadcastInDim S4194304x1 ![0] bcast_d (binIdx x)) (broadcastInDim S4194304 ![] bcast_c (constantI S_ 32 1#32)))

/-- The number of hits, summed over the [16, 262144] array. -/
def cnt2 (x : FVec F S16x512x512 .f32) : IVec S_ 32 :=
  Host.reduce IntOp.addi (extui 32 (hits2 x) (by decide)) (constantI S_ 32 0#32) red2 h_S_

/-- The number of hits, summed over the flattened array. -/
def cnt1 (x : FVec F S16x512x512 .f32) : IVec S_ 32 :=
  Host.reduce IntOp.addi (extui 32 (hits1 x) (by decide)) (constantI S_ 32 0#32) red1 h_S_

/-! ## A row's words -/

/-- The image index: bits 18 and up of the word, kept to four bits. -/
def bOf (w : BitVec 32) : BitVec 32 := (w.sshiftRight 18) &&& 15#32
/-- The pixel's row: bits 9 to 17. -/
def xOf (w : BitVec 32) : BitVec 32 := (w &&& 262143#32) >>> 9
/-- The pixel's column: bits 0 to 8. -/
def yOf (w : BitVec 32) : BitVec 32 := w &&& 511#32

/-- Entry `(c, d)` of a live row whose word is `w`: the image index, then the corner `c` of the box. -/
def entry (w : BitVec 32) (c : Fin 2) (d : Fin 3) : BitVec 32 :=
  match d, c with
  | ⟨0, _⟩, _ => bOf w
  | ⟨1, _⟩, ⟨0, _⟩ => xOf w - 16#32
  | ⟨1, _⟩, ⟨_ + 1, _⟩ => xOf w + 16#32
  | ⟨_ + 2, _⟩, ⟨0, _⟩ => yOf w - 16#32
  | ⟨_ + 2, _⟩, ⟨_ + 1, _⟩ => yOf w + 16#32

/-- Entry `(c, d)` of row `k`: the live entry while `k` is below the count (read signed), else `-1`. -/
def rowWord (w cnt : BitVec 32) (k : Nat) (c : Fin 2) (d : Fin 3) : BitVec 32 :=
  if (BitVec.ofNat 32 k).slt cnt then entry w c d else 4294967295#32

/-- The result both programs compute, entry by entry. -/
def out (x : FVec F S16x512x512 .f32) : IVec S4194304x2x3 32 := fun j =>
  rowWord (W x (ValueIdx.ix1 (j 0))) (cnt2 x ValueIdx.ix0) (j 0).val (j 1) (j 2)

end Cert.Spec

end
-- ==== Proof.KSpec.lean ====
/-
  What the kernel's region computes, as a function on words.

  The region reads the compacted index array laid out as [8, 524288] (row-major: entry `(s, j)` is position
  `s * 524288 + j` of the flat array) and the count, and writes five planes [5, 8, 524288]: at `(p, s, j)` the
  field of the index word that plane `p` holds — the image index; the pixel's row less 16; its column less 16; the row
  plus 16; the column plus 16 — while the position `s * 524288 + j` is below the count (read signed), and `-1`
  otherwise. The fields are taken from the word clamped below at zero: bits 18 and up, bits 9 to 17, bits 0 to 8.
  After the region the planes are flattened to [5, 4194304], the rows 0, 1, 2, 0, 3, 4 of that are gathered,
  and the [6, 4194304] array is transposed and regrouped as [4194304, 2, 3]: entry `(k, c, d)` of the result is plane
  `planeOf c d` at position `k`.
-/
import proofs.«422792_j8924942041139_3_alg».proof.Proof.Spec

noncomputable section

namespace Cert.Spec

open Idealize.ShloMosaic

abbrev S8x524288 : Shape := ⟨2, ![8, 524288]⟩
abbrev S5x8x524288 : Shape := ⟨3, ![5, 8, 524288]⟩
abbrev S1 : Shape := ⟨1, ![1]⟩

/-- The live value of plane `p` for an index word `idx`: the fields of the word clamped at zero. -/
def planeLive (p : Fin 5) (idx : BitVec 32) : BitVec 32 :=
  match p with
  | ⟨0, _⟩ => IntOp.shrsi .vector (IntOp.maxsi idx 0#32) 18#32
  | ⟨1, _⟩ => IntOp.subi (IntOp.shrsi .vector (IntOp.andi (IntOp.maxsi idx 0#32) 262143#32) 9#32) 16#32
  | ⟨2, _⟩ => IntOp.subi (IntOp.andi (IntOp.andi (IntOp.maxsi idx 0#32) 262143#32) 511#32) 16#32
  | ⟨3, _⟩ => IntOp.addi (IntOp.addi (IntOp.shrsi .vector (IntOp.andi (IntOp.maxsi idx 0#32) 262143#32) 9#32) 16#32) 0#32
  | ⟨_ + 4, _⟩ => IntOp.addi (IntOp.addi (IntOp.andi (IntOp.andi (IntOp.maxsi idx 0#32) 262143#32) 511#32) 16#32) 0#32

/-- Plane `p` at flat position `row`: the live value while the position is below the count, else `-1`. -/
def planeWord (p : Fin 5) (idx cnt : BitVec 32) (row : Nat) : BitVec 32 :=
  Scalar.select (IntOp.cmpi .slt (BitVec.ofNat 32 row) cnt) (planeLive p idx) 4294967295#32

/-- The five planes from the index array and the count. -/
def kArr (A : IVec S8x524288 32) (cnt : IVec S1 32) : IVec S5x8x524288 32 := fun j =>
  planeWord (j 0) (A (ValueIdx.ix2 (j 1) (j 2))) (cnt (ValueIdx.ix1 0)) ((j 1).val * 524288 + (j 2).val)

/-- Which plane entry `(c, d)` of a row is read from: rows 0, 1, 2, 0, 3, 4 of the planes, in the order `3 c + d`. -/
def planeOf (c : Fin 2) (d : Fin 3) : Fin 5 :=
  match c, d with
  | _, ⟨0, _⟩ => 0
  | ⟨0, _⟩, ⟨1, _⟩ => 1
  | ⟨0, _⟩, ⟨_ + 2, _⟩ => 2
  | ⟨_ + 1, _⟩, ⟨1, _⟩ => 3
  | ⟨_ + 1, _⟩, ⟨_ + 2, _⟩ => 4

end Cert.Spec

end
-- ==== Proof.KBody.lean ====
/-
  What one grid point of the region leaves in the output's staging buffer.

  At grid point `t` the body walks its [8, 32768] input block in sixteen chunks of 2048 columns. For the chunk at
  column offset `o` it loads the [8, 2048] words, clamps them below at zero, forms the flat position of every
  entry — `s * 524288 + (t * 32768 + o) + q` at `(s, q)` — compares it (signed) with the count, and stores five
  [1, 8, 2048] pieces at planes 0 to 4, columns `o` to `o + 2047`: the field of the clamped word the plane holds
  where the position is below the count, `-1` elsewhere. The eighty pieces tile the [5, 8, 32768] buffer, and each
  is the restriction of ONE function of the buffer's index: `pointOut`.
-/
import proofs.«422792_j8924942041139_3_alg».proof.Proof.Gen.KernelIdeal.Frame
import proofs.«422792_j8924942041139_3_alg».proof.Proof.KSpec
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen
open ValueIdx

variable {F : FTy → Type} [FloatOps F]

/-! ## One chunk, as the body computes it -/

/-- The flat positions of a chunk's entries: row `s` of the block starts `524288` positions after row `s - 1`; the
    chunk starts at `a0 * 32768 + st`. -/
def rowVec (a0 st : BitVec 32) : IVec S8x2048 32 :=
  addi (addi (muli (iota .tc S8x2048 32 [0] Facts₀.iota_S8x2048_d0_w32) (broadcast S8x2048 524288#32))
    (broadcast S8x2048 (Scalar.addi (Scalar.muli a0 32768#32) st))) (iota .tc S8x2048 32 [1] Facts₀.iota_S8x2048_d1_w32)

/-- The field plane `p` holds, of every word of the chunk clamped below at zero. -/
def liveVec (p : Fin 5) (v5 : IVec S8x2048 32) : IVec S8x2048 32 :=
  match p with
  | ⟨0, _⟩ => shrsi (maxsi v5 (broadcast S8x2048 0#32)) (broadcast S8x2048 18#32)
  | ⟨1, _⟩ => subi (shrsi (andi (maxsi v5 (broadcast S8x2048 0#32)) (broadcast S8x2048 262143#32)) (broadcast S8x2048 9#32)) (broadcast S8x2048 16#32)
  | ⟨2, _⟩ => subi (andi (andi (maxsi v5 (broadcast S8x2048 0#32)) (broadcast S8x2048 262143#32)) (broadcast S8x2048 511#32)) (broadcast S8x2048 16#32)
  | ⟨3, _⟩ => addi (addi (shrsi (andi (maxsi v5 (broadcast S8x2048 0#32)) (broadcast S8x2048 262143#32)) (broadcast S8x2048 9#32)) (broadcast S8x2048 16#32)) (broadcast S8x2048 0#32)
  | ⟨_ + 4, _⟩ => addi (addi (andi (andi (maxsi v5 (broadcast S8x2048 0#32)) (broadcast S8x2048 262143#32)) (broadcast S8x2048 511#32)) (broadcast S8x2048 16#32)) (broadcast S8x2048 0#32)

/-- The piece stored at plane `p` for a chunk: the field where the position is below the count, `-1` elsewhere. -/
def chunkVal (p : Fin 5) (a0 st cnt : BitVec 32) (v5 : IVec S8x2048 32) : IVec S1x8x2048 32 :=
  shapeCast S1x8x2048 (select (cmpi .slt (rowVec a0 st) (broadcast S8x2048 cnt)) (liveVec p v5) (broadcast S8x2048 4294967295#32))
    Facts₀.shapeCasts_S8x2048_S1x8x2048

/-- The field at one entry is `planeLive` of the word there. -/
theorem liveVec_apply (p : Fin 5) (v5 : IVec S8x2048 32) (j : S8x2048.Idx) : liveVec p v5 j = Cert.Spec.planeLive p (v5 j) := by
  match p with
  | ⟨0, _⟩ => rfl
  | ⟨1, _⟩ => rfl
  | ⟨2, _⟩ => rfl
  | ⟨3, _⟩ => rfl
  | ⟨4, _⟩ => rfl

/-- The position of entry `(s, q)` of a chunk, as the body computes it on words. -/
theorem rowVec_apply (a0 st : BitVec 32) (s : Fin 8) (q : Fin 2048) :
    rowVec a0 st (ix2 s q) = BitVec.ofNat 32 s.val * 524288#32 + (a0 * 32768#32 + st) + BitVec.ofNat 32 q.val := by
  unfold rowVec
  show IntOp.addi (IntOp.addi (IntOp.muli (iota .tc S8x2048 32 [0] Facts₀.iota_S8x2048_d0_w32 (ix2 s q)) 524288#32) (Scalar.addi (Scalar.muli a0 32768#32) st))
      (iota .tc S8x2048 32 [1] Facts₀.iota_S8x2048_d1_w32 (ix2 s q)) = _
  rw [iota_single_apply, iota_single_apply]
  rfl

/-- The chunk's piece at `(0, s, q)`. -/
theorem chunkVal_apply (p : Fin 5) (a0 st cnt : BitVec 32) (v5 : IVec S8x2048 32) (s : Fin 8) (q : Fin 2048) :
    chunkVal p a0 st cnt v5 (ix3 (0 : Fin 1) s q)
      = Scalar.select (IntOp.cmpi .slt (BitVec.ofNat 32 s.val * 524288#32 + (a0 * 32768#32 + st) + BitVec.ofNat 32 q.val) cnt)
          (Cert.Spec.planeLive p (v5 (ix2 s q))) 4294967295#32 := by
  have e : (fun a : Fin 2 => (ix3 (0 : Fin 1) s q) a.succ) = ix2 s q :=
    funext fun a => by match a with | ⟨0, _⟩ => rfl | ⟨1, _⟩ => rfl
  calc chunkVal p a0 st cnt v5 (ix3 (0 : Fin 1) s q)
      = select (cmpi .slt (rowVec a0 st) (broadcast S8x2048 cnt)) (liveVec p v5) (broadcast S8x2048 4294967295#32)
          (fun a : Fin 2 => (ix3 (0 : Fin 1) s q) a.succ) := shapeCast_addUnit_apply _ _ _ _
    _ = select (cmpi .slt (rowVec a0 st) (broadcast S8x2048 cnt)) (liveVec p v5) (broadcast S8x2048 4294967295#32) (ix2 s q) :=
        congrArg _ e
    _ = Scalar.select (IntOp.cmpi .slt (rowVec a0 st (ix2 s q)) cnt) (liveVec p v5 (ix2 s q)) 4294967295#32 := rfl
    _ = _ := by rw [liveVec_apply, rowVec_apply]

/-! ## The grid point's one function -/

/-- What the grid point with first coordinate `t` leaves at the staging buffer's index `y`, from its input block
    `x0` and the count word: plane `y 0` of the word at `(y 1, y 2)`, at flat position `y 1 * 524288 + t * 32768 + y 2`. -/
def pointOut (t : Nat) (x0 : IVec S8x32768 32) (cnt : BitVec 32) : IVec S5x8x32768 32 := fun y =>
  Cert.Spec.planeWord (y 0) (x0 (ix2 (y 1) (y 2))) cnt ((y 1).val * 524288 + t * 32768 + (y 2).val)

/-- The position on words is the position on numbers. -/
theorem rowWord_eq (s t off q : Nat) :
    BitVec.ofNat 32 s * 524288#32 + (BitVec.ofNat 32 t * 32768#32 + BitVec.ofNat 32 off) + BitVec.ofNat 32 q
      = BitVec.ofNat 32 (s * 524288 + t * 32768 + (off + q)) := by
  rw [BitVec.ofNat_add, BitVec.ofNat_add, BitVec.ofNat_add, BitVec.ofNat_mul, BitVec.ofNat_mul]
  ac_rfl

/-- A chunk's load reads the block's words at the chunk's columns. -/
theorem load_apply (arg2 : Memref sig .tc .vmem S8x32768 .i32) (harg2 : arg2.IsWhole) (x0 : Vec F S8x32768 .i32)
    (off : Nat) (inb : ∀ a, (![0, off] : Fin 2 → Nat) a + S8x2048.size a ≤ S8x32768.size a) (h : S8x2048.ShapeCasts S8x2048)
    (s : Fin 8) (q : Fin 2048) (hq : off + q.val < 32768) :
    shapeCast S8x2048 (View.readAt (Elt F) arg2.view (Rect.unit (s := S8x32768) ![0, off] S8x2048.size inb).toLoadRect (harg2.unread x0)) h (ix2 s q)
      = x0 (ix2 s ⟨off + q.val, hq⟩) := by
  refine (congrFun (shapeCast_self (s := S8x2048) _ h) (ix2 s q)).trans ?_
  rw [View.readAt_eq_ld, harg2.read_unread]
  show x0 ((Rect.unit (s := S8x32768) ![0, off] S8x2048.size inb).idx (ix2 s q)) = _
  congr 1
  funext a
  match a with
  | ⟨0, _⟩ => exact Fin.ext (by show 0 + 1 * s.val = s.val; omega)
  | ⟨1, _⟩ => exact Fin.ext (by show off + 1 * q.val = off + q.val; omega)

/-- One stored piece is the restriction of `pointOut` to its rectangle: plane `p`, columns `off` to `off + 2047`. -/
theorem piece_ok (p : Fin 5) (off t : Nat) (st : BitVec 32) (hst : st = BitVec.ofNat 32 off) (hoff : off + 2048 ≤ 32768)
    (x0 : IVec S8x32768 32) (cnt : BitVec 32) (v5 : IVec S8x2048 32)
    (hv5 : ∀ (s : Fin 8) (q : Fin 2048), v5 (ix2 s q) = x0 (ix2 s ⟨off + q.val, by have := q.isLt; omega⟩))
    (inb : ∀ a, (![p.val, 0, off] : Fin 3 → Nat) a + (![1, 8, 2048] : Fin 3 → Nat) a ≤ S5x8x32768.size a)
    (x : (Rect.unit (s := S5x8x32768) ![p.val, 0, off] ![1, 8, 2048] inb).shape.Idx) :
    chunkVal p (BitVec.ofNat 32 t) st cnt v5 x
      = pointOut t x0 cnt ((Rect.unit (s := S5x8x32768) ![p.val, 0, off] ![1, 8, 2048] inb).emb x) := by
  obtain ⟨z, s, q, rfl⟩ : ∃ (z : Fin 1) (s : Fin 8) (q : Fin 2048), x = ix3 z s q := ⟨x 0, x 1, x 2, eq_ix3 x⟩
  obtain rfl : z = 0 := Subsingleton.elim _ _
  have hemb : (Rect.unit (s := S5x8x32768) ![p.val, 0, off] ![1, 8, 2048] inb).emb (ix3 (0 : Fin 1) s q)
      = ix3 p s (⟨off + q.val, by have := q.isLt; omega⟩ : Fin 32768) := by
    funext a
    match a with
    | ⟨0, _⟩ => exact Fin.ext (by show p.val + 1 * 0 = p.val; omega)
    | ⟨1, _⟩ => exact Fin.ext (by show 0 + 1 * s.val = s.val; omega)
    | ⟨2, _⟩ => exact Fin.ext (by show off + 1 * q.val = off + q.val; omega)
  rw [hemb, chunkVal_apply, hv5, hst, rowWord_eq]
  rfl

/-! ## The eighty pieces -/

-- the two abbreviations below name the theorem's own variables (`i`, `x0`, `arg2`, `harg2`)
set_option hygiene false

/-- One piece: plane `p` of the chunk at column offset `off`. -/
local macro "piece_at" p:num off:num : tactic =>
  `(tactic| (intro x; exact piece_ok ($p : Fin 5) $off (i 0).val _ rfl (by decide) x0 _ _ (fun s q => load_apply arg2 harg2 x0 $off (by decide) _ s q _) (by decide) x))

/-- One chunk: its five pieces, last stored first. -/
local macro "chunk_at" off:num : tactic =>
  `(tactic| (
    rw [List.forall_mem_cons]; refine ⟨by piece_at 4 $off, ?_⟩
    rw [List.forall_mem_cons]; refine ⟨by piece_at 3 $off, ?_⟩
    rw [List.forall_mem_cons]; refine ⟨by piece_at 2 $off, ?_⟩
    rw [List.forall_mem_cons]; refine ⟨by piece_at 1 $off, ?_⟩
    rw [List.forall_mem_cons]; refine ⟨by piece_at 0 $off, ?_⟩))

set_option hygiene true

set_option maxHeartbeats 8000000 in
/-- What the body leaves in the output's staging buffer at a grid point, index by index: the stores tile the buffer
    and every piece is `pointOut` on its rectangle. -/
theorem run_apply (c : Dev nD) (i : grid0.Coords) (arg2 : Memref sig .tc .vmem S8x32768 .i32) (harg2 : arg2.IsWhole)
    (arg3 : Memref sig .tc .vmem S5x8x32768 .i32) (harg3 : arg3.IsWhole) (x0 : Vec F S8x32768 .i32) (xt0 : TbBuf0 (F := F) c tbM0_0)
    (y : S5x8x32768.Idx) :
    out0_A_1 c i arg2 harg2 arg3 harg3 x0 xt0 y = pointOut (i 0).val x0 (kernelRun0_A.sl.r c xt0) y := by
  unfold out0_A_1
  rw [View.read_writes_eq_canon _ _ _ (cover0_A_1 c i arg2 harg2 arg3 harg3 x0 xt0)]
  refine View.canon_apply_of_pieces (pointOut (i 0).val x0 (kernelRun0_A.sl.r c xt0)) _ ?_ y (cover0_A_1 c i arg2 harg2 arg3 harg3 x0 xt0 y)
  unfold kernelRun0_A
  dsimp only
  chunk_at 30720
  chunk_at 28672
  chunk_at 26624
  chunk_at 24576
  chunk_at 22528
  chunk_at 20480
  chunk_at 18432
  chunk_at 16384
  chunk_at 14336
  chunk_at 12288
  chunk_at 10240
  chunk_at 8192
  chunk_at 6144
  chunk_at 4096
  chunk_at 2048
  chunk_at 0
  exact fun p hp => absurd hp List.not_mem_nil

/-! ## At a grid point of the pipeline -/

/-- The grid has one axis: the point's coordinate is its number. -/
theorem coords_zero : ∀ t : Fin grid0.N, (grid0.coords t 0).val = t.val := by decide

/-- The body's scalar read of the one-word table is its entry. -/
theorem count_read (c : Dev nD) (xt0 : TbBuf0 (F := F) c tbM0_0) : kernelRun0_A.sl.r c xt0 = xt0 (ix1 0) := by
  show xt0 _ = xt0 (ix1 0)
  congr 1
  funext a
  match a with
  | ⟨0, _⟩ => rfl

/-- The staging buffer after the body, at `(p, s, q)`, over any input block, table and coordinate. -/
theorem out_apply_gen (c : Dev nD) (i : grid0.Coords) (arg2 : Memref sig .tc .vmem S8x32768 .i32) (harg2 : arg2.IsWhole)
    (arg3 : Memref sig .tc .vmem S5x8x32768 .i32) (harg3 : arg3.IsWhole) (x0 : Vec F S8x32768 .i32) (xt0 : TbBuf0 (F := F) c tbM0_0)
    (p : Fin 5) (s : Fin 8) (q : Fin 32768) (tn : Nat) (ht : (i 0).val = tn) :
    out0_A_1 c i arg2 harg2 arg3 harg3 x0 xt0 (ix3 p s q)
      = Cert.Spec.planeWord p (x0 (ix2 s q)) (xt0 (ix1 0)) (s.val * 524288 + tn * 32768 + q.val) := by
  rw [run_apply, count_read]
  subst ht
  rfl

variable (m : (ℓ : Loc nD τ sig) → Buf (Elt F) ℓ)

/-- What grid point `t` leaves in the output's staging buffer at `(p, s, q)`: plane `p` of the index word its input
    block holds at `(s, q)`, at flat position `s * 524288 + t * 32768 + q`, against the count the table holds. -/
theorem outs_apply (hO : Ok m) (c : Dev nD) (t : Fin (cfgM m hO).N) (p : Fin 5) (s : Fin 8) (q : Fin 32768) :
    outsAt0 m hO c t (ix3 p s q)
      = Cert.Spec.planeWord p (iblk m hO c 0 t (ix2 s q)) (tbl m 0 (ix1 0)) (s.val * 524288 + t.val * 32768 + q.val) := by
  unfold outsAt0
  exact out_apply_gen c (grid0.coords t) (ms0_0 m hO t) (hs0_0 m hO t) (ms0_1 m hO t) (hs0_1 m hO t) (iblk m hO c 0 t) (tbl m 0)
    p s q t.val (coords_zero t)

end Cert.KernelIdeal.Hand

end
-- ==== Proof.KArray.lean ====
/-
  From the grid points' blocks to the whole array of planes.

  The region runs over sixteen grid points. At point t the input window holds block (0, t) of the index array
  [8, 524288], the columns t * 32768 ... t * 32768 + 32767 of every row, and the output window writes back block
  (0, 0, t) of the planes' array [5, 8, 524288], the same columns of every plane and row. Sixteen blocks of 32768
  columns tile the 524288 columns exactly, so no block is cut and every entry of the planes' array lies in the
  block of exactly the point (its column) / 32768.

  Given the per-point fact (what point t leaves at (p, s, q) of its output block is plane p of the index word the
  input block holds at (s, q), at the flat position s * 524288 + t * 32768 + q), each point writes back its block
  of ONE function of the whole arrays, the five planes of the index array and the count, and so the planes' array
  ends holding that function everywhere.

  The facts about the windows (their block indices, what a block reads off an array, which entries a block
  covers) are stated over ANY contents of the array and ANY contents of the count table: they depend on neither.
-/
import proofs.«422792_j8924942041139_3_alg».proof.Proof.Gen.KernelIdeal.Frame
import proofs.«422792_j8924942041139_3_alg».proof.Proof.KSpec
import Idealize.ShloMosaic.Shape
import Idealize.ShloMosaic.Signature.View
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## The index maps and the blocks, at any contents of the count table -/

section Blocks

variable (a : (pcfg0 (F := F)).Adm)

/-- The two index maps over the sixteen grid points: the input window's block index at point t is (0, t), the
    output window's (0, 0, t). -/
theorem block_index : ∀ t : Fin (cfg0 a).N,
    ((cfg0 a).win 0).index t (0 : Fin 2) = 0 ∧ ((cfg0 a).win 0).index t (1 : Fin 2) = t.val
    ∧ ((cfg0 a).win 1).index t (0 : Fin 3) = 0 ∧ ((cfg0 a).win 1).index t (1 : Fin 3) = 0
    ∧ ((cfg0 a).win 1).index t (2 : Fin 3) = t.val ∧ t.val < 16 :=
  (by decide +kernel : ∀ t : Fin grid0.N, cc0_transform_0 (grid0.coords t) (0 : Fin 2) = 0 ∧ cc0_transform_0 (grid0.coords t) (1 : Fin 2) = t.val
    ∧ cc0_transform_1 (grid0.coords t) (0 : Fin 3) = 0 ∧ cc0_transform_1 (grid0.coords t) (1 : Fin 3) = 0
    ∧ cc0_transform_1 (grid0.coords t) (2 : Fin 3) = t.val ∧ t.val < 16)

/-- The input window's block at point t, read off any contents A of the [8, 524288] array, holds at (s, q) the
    entry (s, t * 32768 + q) of A: a block's coordinate is the block index times the block's size plus the
    coordinate inside the block. -/
theorem in_block_read (t : Fin (cfg0 a).N) (A : S8x524288.Idx → Elt F .i32) (s : Fin 8) (q : Fin 32768) (k : S8x524288.Idx)
    (h0 : (k 0).val = s.val) (h1 : (k 1).val = t.val * 32768 + q.val) :
    (((cfg0 a).win 0).blk t).view.read (Elt F) A (ix2 s q) = A k := by
  obtain ⟨e0, e1, -, -, -, -⟩ := block_index a t
  show A ((((cfg0 a).win 0).blk t).view.emb (ix2 s q)) = A k
  congr 1
  funext d
  apply Fin.ext
  match d with
  | ⟨0, _⟩ => show ((cfg0 a).win 0).index t (0 : Fin 2) * 8 + 1 * s.val = (k 0).val; rw [e0, h0]; omega
  | ⟨1, _⟩ => show ((cfg0 a).win 0).index t (1 : Fin 2) * 32768 + 1 * q.val = (k 1).val; rw [e1, h1]; omega

/-- The output window's block at point t, read off any contents G of the [5, 8, 524288] array, holds at (p, s, q)
    the entry (p, s, t * 32768 + q) of G. -/
theorem out_block_read (t : Fin (cfg0 a).N) (G : S5x8x524288.Idx → Elt F .i32) (p : Fin 5) (s : Fin 8) (q : Fin 32768)
    (i : S5x8x524288.Idx) (h0 : (i 0).val = p.val) (h1 : (i 1).val = s.val) (h2 : (i 2).val = t.val * 32768 + q.val) :
    (((cfg0 a).win 1).blk t).view.read (Elt F) G (ix3 p s q) = G i := by
  obtain ⟨-, -, e0, e1, e2, -⟩ := block_index a t
  show G ((((cfg0 a).win 1).blk t).view.emb (ix3 p s q)) = G i
  congr 1
  funext d
  apply Fin.ext
  match d with
  | ⟨0, _⟩ => show ((cfg0 a).win 1).index t (0 : Fin 3) * 5 + 1 * p.val = (i 0).val; rw [e0, h0]; omega
  | ⟨1, _⟩ => show ((cfg0 a).win 1).index t (1 : Fin 3) * 8 + 1 * s.val = (i 1).val; rw [e1, h1]; omega
  | ⟨2, _⟩ => show ((cfg0 a).win 1).index t (2 : Fin 3) * 32768 + 1 * q.val = (i 2).val; rw [e2, h2]; omega

/-- An entry of the [5, 8, 524288] array lies in point t's block iff each coordinate lies in the block's range on
    its axis. -/
theorem mem_out_block (t : Fin (cfg0 a).N) (i : S5x8x524288.Idx) :
    i ∈ (((cfg0 a).win 1).blk t).view.set ↔ ∀ d : Fin 3, ((cfg0 a).win 1).index t d * S5x8x32768.size d ≤ (i d).val
      ∧ (i d).val < ((cfg0 a).win 1).index t d * S5x8x32768.size d + S5x8x32768.size d := by
  have e : (((cfg0 a).win 1).blk t).view.set = (((cfg0 a).win 1).rect t).set := View.set_slice_whole main_v28 _
  rw [e]
  exact Rect.mem_set_unit

/-- Sixteen blocks of 32768 columns tile the 524288 columns: the entry in column j lies in the block of point
    j / 32768, and every point writes its block back. -/
theorem out_covered (i : S5x8x524288.Idx) :
    ∃ t : Fin (cfg0 a).N, ((cfg0 a).win 1).flush t = true ∧ i ∈ (((cfg0 a).win 1).blk t).view.set := by
  have hi0 : (i 0).val < 5 := (i 0).isLt
  have hi1 : (i 1).val < 8 := (i 1).isLt
  have hi2 : (i 2).val < 524288 := (i 2).isLt
  have hN : (cfg0 a).N = 16 := (by decide : grid0.N = 16)
  have ht : (i 2).val / 32768 < (cfg0 a).N := by rw [hN]; omega
  obtain ⟨-, -, e0, e1, e2, -⟩ := block_index a ⟨(i 2).val / 32768, ht⟩
  refine ⟨⟨(i 2).val / 32768, ht⟩, flush0_1 a _, ?_⟩
  rw [mem_out_block]
  intro d
  match d with
  | ⟨0, _⟩ =>
    show ((cfg0 a).win 1).index ⟨(i 2).val / 32768, ht⟩ (0 : Fin 3) * 5 ≤ (i 0).val
      ∧ (i 0).val < ((cfg0 a).win 1).index ⟨(i 2).val / 32768, ht⟩ (0 : Fin 3) * 5 + 5
    rw [e0]; omega
  | ⟨1, _⟩ =>
    show ((cfg0 a).win 1).index ⟨(i 2).val / 32768, ht⟩ (1 : Fin 3) * 8 ≤ (i 1).val
      ∧ (i 1).val < ((cfg0 a).win 1).index ⟨(i 2).val / 32768, ht⟩ (1 : Fin 3) * 8 + 8
    rw [e1]; omega
  | ⟨2, _⟩ =>
    show ((cfg0 a).win 1).index ⟨(i 2).val / 32768, ht⟩ (2 : Fin 3) * 32768 ≤ (i 2).val
      ∧ (i 2).val < ((cfg0 a).win 1).index ⟨(i 2).val / 32768, ht⟩ (2 : Fin 3) * 32768 + 32768
    rw [e2]; show (i 2).val / 32768 * 32768 ≤ (i 2).val ∧ (i 2).val < (i 2).val / 32768 * 32768 + 32768; omega

/-- What the output window writes back at point t when its staging buffer holds X, and X is entry by entry the
    block of G at t: the block of G read through the window (the window is never cut, so all of X is written). -/
theorem cut_eq_read (t : Fin (cfg0 a).N) (X : S5x8x32768.Idx → Elt F .i32) (G : S5x8x524288.Idx → Elt F .i32)
    (h : ∀ (p : Fin 5) (s : Fin 8) (q : Fin 32768) (i : S5x8x524288.Idx), (i 0).val = p.val → (i 1).val = s.val →
      (i 2).val = t.val * 32768 + q.val → X (ix3 p s q) = G i) :
    ((cfg0 a).win 1).cut (grid0.coords t) X = (((cfg0 a).win 1).blk t).view.read (Elt F) G := by
  refine funext fun (j : S5x8x32768.Idx) => ?_
  obtain ⟨p, s, q, rfl⟩ : ∃ (p : Fin 5) (s : Fin 8) (q : Fin 32768), j = ix3 p s q := ⟨j 0, j 1, j 2, eq_ix3 j⟩
  have hq : q.val < 32768 := q.isLt
  obtain ⟨-, -, -, -, -, ht⟩ := block_index a t
  rw [out_block_read a t G p s q (ix3 p s ⟨t.val * 32768 + q.val, by omega⟩) rfl rfl rfl]
  exact h p s q _ rfl rfl rfl

end Blocks

/-! ## The planes at a position -/

/-- Plane p of the word the [8, 524288] array holds at (s, t * 32768 + q), at the flat position
    s * 524288 + t * 32768 + q, is the entry (p, s, t * 32768 + q) of the five planes: row-major, entry (s, j) of
    the [8, 524288] array is position s * 524288 + j of the flat one. -/
theorem planes_at (A : IVec Cert.Spec.S8x524288 32) (cnt : IVec Cert.Spec.S1 32) (t : Nat) (p : Fin 5) (s : Fin 8) (q : Fin 32768)
    (i : Cert.Spec.S5x8x524288.Idx) (h0 : (i 0).val = p.val) (h1 : (i 1).val = s.val) (h2 : (i 2).val = t * 32768 + q.val) :
    Cert.Spec.planeWord p (A (ix2 (i 1) (i 2))) (cnt (ix1 0)) (s.val * 524288 + t * 32768 + q.val) = Cert.Spec.kArr A cnt i := by
  have e0 : (i 0 : Fin 5) = p := Fin.ext h0
  show _ = Cert.Spec.planeWord (i 0) (A (ix2 (i 1) (i 2))) (cnt (ix1 0)) ((i 1).val * 524288 + (i 2).val)
  rw [e0, h1, h2, Nat.add_assoc]

/-! ## From the grid points' blocks to the array -/

/-- The per-point fact the array's closed form rests on: what grid point t leaves in the output's staging buffer at
    (p, s, q) is plane p of the index word the input block holds at (s, q), at the flat position
    s * 524288 + t * 32768 + q. -/
abbrev PointPlanes (hO : Gen.Ok m) (c : Dev nD) : Prop :=
  ∀ (t : Fin (Gen.cfgM m hO).N) (p : Fin 5) (s : Fin 8) (q : Fin 32768),
    Gen.outsAt0 m hO c t (ix3 p s q)
      = Cert.Spec.planeWord p (Gen.iblk m hO c 0 t (ix2 s q)) (Gen.tbl m 0 (ix1 0)) (s.val * 524288 + t.val * 32768 + q.val)

/-- The input block at point t holds, at (s, q), the index array's entry (s, t * 32768 + q). -/
theorem index_block_apply (hO : Gen.Ok m) (c : Dev nD) (t : Fin (Gen.cfgM m hO).N) (s : Fin 8) (q : Fin 32768) (k : S8x524288.Idx)
    (h0 : (k 0).val = s.val) (h1 : (k 1).val = t.val * 32768 + q.val) :
    Gen.iblk m hO c 0 t (ix2 s q) = Gen.V m c main_v27 k :=
  in_block_read (Gen.adm m hO) t (Gen.V m c main_v27) s q k h0 h1

/-- What grid point t writes back to the planes' array is its block of the five planes of the index array and
    the count. -/
theorem point_writes_planes (hO : Gen.Ok m) (c : Dev nD) (houts : PointPlanes m hO c) (t : Fin (Gen.cfgM m hO).N) :
    (Gen.dats m hO 0 c).flushed 1 t
      = (((Gen.cfgM m hO).win 1).blk t).view.read (Elt F) (Cert.Spec.kArr (Gen.V m c main_v27) (Gen.tbl m 0)) := by
  show ((Gen.cfgM m hO).win 1).cut (grid0.coords t) ((Gen.dats m hO 0 c).after 1 t) = _
  rw [Gen.after0_1]
  refine cut_eq_read (Gen.adm m hO) t (Gen.outsAt0 m hO c t) _ fun p s q i h0 h1 h2 => ?_
  rw [houts t p s q, index_block_apply m hO c t s q (ix2 (i 1) (i 2)) h1 h2]
  exact planes_at (Gen.V m c main_v27) (Gen.tbl m 0) t.val p s q i h0 h1 h2

/-- The planes' array after the region: the five planes of the index array and the count, everywhere. -/
theorem arr_final (hO : Gen.Ok m) (c : Dev nD) (houts : PointPlanes m hO c) :
    (Gen.dats m hO 0 c).arrAt 1 (Gen.cfgM m hO).N = Cert.Spec.kArr (Gen.V m c main_v27) (Gen.tbl m 0) :=
  (Gen.dats m hO 0 c).arrAt_eq_of_cover 1 (Cert.Spec.kArr (Gen.V m c main_v27) (Gen.tbl m 0))
    (fun t _ => point_writes_planes m hO c houts t) (out_covered (Gen.adm m hO))

end Cert.KernelIdeal.Hand

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.KTail.lean ====
/-
  The program's last lines, after the region.

  The region leaves five planes `A : [5, 8, 524288]`. The remaining lines flatten them to `[5, 4194304]`, gather the
  rows `0, 1, 2, 0, 3, 4` of that (a constant index vector, first normalised: a negative entry would be moved up by 5,
  and none is negative), transpose the `[6, 4194304]` array and regroup it as `[4194304, 2, 3]`. `kOut A` is that
  composition; `tail_eq` says the result buffer holds it, and `kOut_apply` reads it at an index: entry `(k, c, d)` is
  plane `planeOf c d` at the flat position `k`, that is at `(k / 524288, k % 524288)`.
-/
import proofs.«422792_j8924942041139_3_alg».proof.Proof.Gen.KernelIdeal.Frame
import proofs.«422792_j8924942041139_3_alg».proof.Proof.KSpec
import Idealize.ShloMosaic.Lib.StableHlo.Run
import Idealize.ShloMosaic.Lib.Pipeline.Value
import Idealize.ShloMosaic.Lib.Pipeline.FrameSuffix
import Idealize.ShloMosaic.Lib.ValueIdx
import Idealize.ShloMosaic.Lib.ValueLayout
import proofs.«422792_j8924942041139_3_alg».proof.Proof.LibGatherScatter

noncomputable section

namespace Cert.KernelIdeal.Hand

open Idealize.ShloMosaic Idealize.ShloMosaic.TcCoe Idealize.ShloMosaic.Tactic
open Idealize.ShloMosaic.ValueIdx
open Cert.KernelIdeal
open Idealize.ShloMosaic.GatherScatter (rowGatherDims rowGather_apply)

variable {F : FTy → Type} [FloatOps F]

/-- The constant index vector: the rows 0, 1, 2, 0, 3, 4. -/
def rowsC : IVec S6 32 := fun i => lit0 (S6.rowMajor i)

/-- An index vector with each negative entry moved up by the number of rows. -/
def rowsN (r : IVec S6 32) : IVec S6 32 :=
  select (cmpi .slt r (broadcastInDim S6 ![] Gen.bcast_S_S6 (constantI S_ 32 0#32)))
    (addi r (broadcastInDim S6 ![] Gen.bcast_S_S6 (constantI S_ 32 5#32))) r

/-- The lines after the region, from the index vector `r` and the five planes `A`: the planes flattened to
    [5, 4194304], its rows at the normalised indices gathered, the [6, 4194304] array transposed and regrouped. -/
def kOutG (r : IVec S6 32) (A : IVec S5x8x524288 32) : IVec S4194304x2x3 32 :=
  shapeCast S4194304x2x3
    (transpose S4194304x6 [1, 0]
      (Host.gather gather_S5x4194304_S6x1_S6x4194304_1_0_n_n_0_1_14194304
        (shapeCast S5x4194304 A Gen.shapeCasts_S5x8x524288_S5x4194304)
        (broadcastInDim S6x1 ![0] Gen.bcast_S6_S6x1_0 (rowsN r)))
      Gen.transposes_S6x4194304_S4194304x6_1_0)
    Gen.shapeCasts_S4194304x6_S4194304x2x3

/-- The same at the program's constant index vector. -/
def kOut (A : IVec S5x8x524288 32) : IVec S4194304x2x3 32 := kOutG rowsC A

/-- The lines after the region, folded over any contents: the result buffer holds `kOutG` of the index vector's and
    the planes' buffers. -/
theorem tail_fold (W : Valuation τ sig (Elt F)) :
    StableHlo.after Gen.hostOps1 W (Proc.devRef .tc main_v38)
      = kOutG (W (Proc.devRef .tc main_c)) (W (Proc.devRef .tc main_v28)) := by
  after_results
  rfl

variable (m : (ℓ : Loc nD τ sig) → Buf (Elt F) ℓ)

/-- The index vector is written once, by the program's first line, and by no later line before the region. -/
theorem V0_main_c (c : Dev nD) : Gen.V0 m c (Proc.devRef .tc main_c) = rowsC := by
  dsimp only [Gen.V0]
  simp only [Gen.hostOps0, List.flatten_cons, List.cons_append, StableHlo.after_cons]
  rw [StableHlo.after_of_forall_not_mem (b := Proc.devRef .tc main_c) _ _ (List.forall_iff_forall_mem.mp (by
    simp only [Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  repeat (first
    | rw [StableHlo.nullary_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  rfl

/-- The result buffer after the program's last lines is `kOut` of the array the region leaves: the lines read the
    region's output array and the constant index vector, which the region does not touch. -/
theorem tail_eq (hO : Gen.Ok m) (c : Dev nD) :
    Pipeline.afterTail pcfgs (fun _ => Gen.adm m hO) (Gen.dats m hO) 0 (Gen.V0 m) [Gen.hostOps1] c main_v38
      = kOut ((Gen.dats m hO 0 c).arrAt 1 (Gen.cfgM m hO).N) := by
  unfold Pipeline.afterTail
  show StableHlo.after Gen.hostOps1 _ (Proc.devRef .tc main_v38) = _
  rw [tail_fold]
  have hA := Pipeline.withArrays_arr spec0 (Gen.launch0 (F := F)).win.arr_inj c (Gen.V0 m c)
    (fun w => (Gen.dats m hO 0 c).arrAt w (Gen.cfgM m hO).N) 1
  have hC := Pipeline.withArrays_of_ne spec0 c (Gen.V0 m c)
    (fun w => (Gen.dats m hO 0 c).arrAt w (Gen.cfgM m hO).N) main_c (by exact (by decide : ∀ w, Pipeline.arrRef spec0 w ≠ main_c))
  exact congrArg₂ kOutG (hC.trans (V0_main_c m c)) hA

/-! ## The lines after the region, read at an index -/

/-- The normalisation leaves the constant index vector as it is: none of its entries is negative. -/
theorem rowsN_rowsC (e : Fin 6) : rowsN rowsC (ix1 e) = lit0 e := by
  unfold rowsN rowsC
  rw [select_apply]
  show Scalar.select (IntOp.cmpi .slt (lit0 (S6.rowMajor (ix1 e))) 0#32) (IntOp.addi (lit0 (S6.rowMajor (ix1 e))) 5#32) (lit0 (S6.rowMajor (ix1 e))) = _
  rw [show S6.rowMajor (ix1 e) = e from Fin.ext (Shape.rowMajor_val_one _)]
  fin_cases e <;> rfl

/-- Entry `(k, c, d)` of the result, for any index vector `r`: with `e = 3 c + d` the position in the gathered
    rows, and `p` the row index `r e` (normalised, read signed, clamped into the five planes), it is plane `p` at
    flat position `k`, that is at `(k / 524288, k % 524288)`. -/
theorem kOutG_apply (r : IVec S6 32) (A : IVec S5x8x524288 32) (k : Fin 4194304) (c : Fin 2) (d : Fin 3)
    (e : Fin 6) (he : e.val = 3 * c.val + d.val) (p : Fin 5) (hp : p.val = min (rowsN r (ix1 e)).toInt.toNat 4) :
    kOutG r A (ix3 k c d) = A (ix3 p ⟨k.val / 524288, by omega⟩ ⟨k.val % 524288, Nat.mod_lt _ (by decide)⟩) := by
  unfold kOutG
  rw [shapeCast_apply _ _ (ix3 k c d) (ix2 k e) (by
    rw [Shape.rowMajor_val_two, Shape.rowMajor_val_three]
    show k.val * 6 + e.val = (k.val * 2 + c.val) * 3 + d.val
    omega)]
  rw [transpose_apply [1, 0] _ _ (ix2 k e) (ix2 e k) (by
    intro b
    match b with
    | ⟨0, _⟩ => rfl
    | ⟨1, _⟩ => rfl)]
  refine (rowGather_apply (N := 5) (C := 4194304) (M := 6) (by decide)
    Gen.gather_S5x4194304_S6x1_S6x4194304_1_0_n_n_0_1_14194304_wf _ _ e k).trans ?_
  have hidx : broadcastInDim S6x1 ![0] Gen.bcast_S6_S6x1_0 (rowsN r) (ix2 e 0) = rowsN r (ix1 e) :=
    broadcastInDim_apply _ _ _ (ix2 e 0) (ix1 e) (by
      intro a
      obtain rfl : a = 0 := Subsingleton.elim _ _
      rfl)
  have hrow : min (broadcastInDim S6x1 ![0] Gen.bcast_S6_S6x1_0 (rowsN r) (ix2 e 0)).toInt.toNat (5 - 1) = p.val := by
    rw [hidx]; exact hp.symm
  refine shapeCast_apply _ _ _ (ix3 p ⟨k.val / 524288, by omega⟩ ⟨k.val % 524288, Nat.mod_lt _ (by decide)⟩) ?_
  rw [Shape.rowMajor_val_two, Shape.rowMajor_val_three]
  show (p.val * 8 + k.val / 524288) * 524288 + k.val % 524288
    = min (broadcastInDim S6x1 ![0] Gen.bcast_S6_S6x1_0 (rowsN r) (ix2 e 0)).toInt.toNat (5 - 1) * 4194304 + k.val
  rw [hrow]
  omega

/-- Entry `(k, c, d)` of the result is plane `planeOf c d` at flat position `k`: the constant rows 0, 1, 2, 0, 3, 4
    are the planes of the entries `3 c + d`. -/
theorem kOut_apply (A : IVec S5x8x524288 32) (k : Fin 4194304) (c : Fin 2) (d : Fin 3) :
    kOut A (ix3 k c d)
      = A (ix3 (Cert.Spec.planeOf c d) ⟨k.val / 524288, by omega⟩ ⟨k.val % 524288, Nat.mod_lt _ (by decide)⟩) := by
  unfold kOut
  match c, d with
  | ⟨0, _⟩, ⟨0, _⟩ => exact kOutG_apply rowsC A k _ _ ⟨0, by decide⟩ rfl _ (by rw [rowsN_rowsC]; rfl)
  | ⟨0, _⟩, ⟨1, _⟩ => exact kOutG_apply rowsC A k _ _ ⟨1, by decide⟩ rfl _ (by rw [rowsN_rowsC]; rfl)
  | ⟨0, _⟩, ⟨2, _⟩ => exact kOutG_apply rowsC A k _ _ ⟨2, by decide⟩ rfl _ (by rw [rowsN_rowsC]; rfl)
  | ⟨1, _⟩, ⟨0, _⟩ => exact kOutG_apply rowsC A k _ _ ⟨3, by decide⟩ rfl _ (by rw [rowsN_rowsC]; rfl)
  | ⟨1, _⟩, ⟨1, _⟩ => exact kOutG_apply rowsC A k _ _ ⟨4, by decide⟩ rfl _ (by rw [rowsN_rowsC]; rfl)
  | ⟨1, _⟩, ⟨2, _⟩ => exact kOutG_apply rowsC A k _ _ ⟨5, by decide⟩ rfl _ (by rw [rowsN_rowsC]; rfl)

end Cert.KernelIdeal.Hand

end
-- ==== Proof.WordMath.lean ====
/-
  Word identities at one element: floor division and floor remainder of a 32-bit word by a positive power of two, as
  composites of the truncated quotient and remainder with a sign correction, are the arithmetic shift and the mask on
  EVERY word; and from them the three bit fields of a flat index (image, row, column) read either way.

  The road: the truncated quotient q and remainder r of a by a positive c, read as integers, satisfy c*q + r = a with
  |r| < c and r of a's sign (sdiv_srem_spec). The composites test exactly "a is not positive and r is not zero"
  (floor division) and "r is negative" (floor remainder), so each is a case split after which the claim is linear
  integer arithmetic with division by a numeral.
-/
import proofs.«422792_j8924942041139_3_alg».proof.Proof.Spec
import Idealize.ShloMosaic.Lib.WordArith
import Mathlib.Data.BitVec

noncomputable section

namespace Cert.WordMath

open Idealize.ShloMosaic

/-- The sign of a word read signed: 0, -1 or 1. -/
def sgn (a : BitVec 32) : BitVec 32 := if a = 0 then 0 else if a.msb then -1 else 1

/-- Floor division: the truncated quotient, less one when the signs differ and the remainder is not zero. -/
def fdiv (a c : BitVec 32) : BitVec 32 :=
  Scalar.select (IntOp.andi (IntOp.cmpi .ne (sgn a) (sgn c)) (IntOp.cmpi .ne (IntOp.remsi .host a c) 0#32)) (IntOp.subi (IntOp.divsi .host a c) 1#32) (IntOp.divsi .host a c)

/-- Floor remainder: the truncated remainder, plus the divisor when it is nonzero and its sign differs from the
divisor's (a zero divisor is replaced by one first). -/
def frem (a c : BitVec 32) : BitVec 32 :=
  let c' := Scalar.select (IntOp.cmpi .eq c 0#32) 1#32 c
  let r := IntOp.remsi .host a c'
  Scalar.select (IntOp.andi (IntOp.cmpi .ne (IntOp.cmpi .slt r 0#32) (IntOp.cmpi .slt c' 0#32)) (IntOp.cmpi .ne r 0#32)) (IntOp.addi r c') r

/-! ## Signed and unsigned readings of a word -/

/-- A word's signed reading is its unsigned one below 2^31, and that less 2^32 from there on. -/
theorem toInt_cases (x : BitVec 32) :
    (x.toInt = (x.toNat : Int) ∧ x.toNat < 2147483648) ∨
      (x.toInt = (x.toNat : Int) - 4294967296 ∧ 2147483648 ≤ x.toNat ∧ x.toNat < 4294967296) := by
  have e := BitVec.toInt_eq_toNat_cond x
  have hl := x.isLt
  split at e <;> omega

/-- The bitwise and with 2^k - 1 is the remainder modulo 2^k. -/
theorem toNat_and_mask (a m : BitVec 32) (k : Nat) (hm : m.toNat = 2 ^ k - 1) : (a &&& m).toNat = a.toNat % 2 ^ k := by
  rw [BitVec.toNat_and, hm]; exact Nat.and_two_pow_sub_one_eq_mod _ _

/-- A select on a Boolean made a bit is the if on the Boolean. -/
theorem select_ofBool {α : Type} (p : Bool) (x y : α) : Scalar.select (BitVec.ofBool p) x y = if p = true then x else y := by
  cases p
  · exact if_neg (by decide)
  · exact if_pos rfl

/-! ## The truncated quotient and remainder by a positive word -/

theorem ne_zero_of_pos (c : BitVec 32) (hc : 0 < c.toInt) : c ≠ 0 := by
  intro h; rw [h] at hc; exact absurd hc (by decide)

theorem ne_neg_one_of_pos (c : BitVec 32) (hc : 0 < c.toInt) : c ≠ -1#32 := by
  intro h; rw [h] at hc; exact absurd hc (by decide)

theorem not_corner_of_pos (a c : BitVec 32) (hc : 0 < c.toInt) : ¬ IntOp.SDivCorner a c := by
  rintro (h | ⟨_, h⟩)
  · exact ne_zero_of_pos c hc h
  · exact ne_neg_one_of_pos c hc h

theorem divsi_of_pos (a c : BitVec 32) (hc : 0 < c.toInt) : IntOp.divsi .host a c = a.sdiv c := by
  unfold IntOp.divsi; exact if_neg (not_corner_of_pos a c hc)

theorem remsi_of_pos (a c : BitVec 32) (hc : 0 < c.toInt) : IntOp.remsi .host a c = a.srem c := by
  unfold IntOp.remsi; exact if_neg (not_corner_of_pos a c hc)

/-- The truncated quotient q and remainder r of a by a positive c, as integers: c*q + r = a, |r| < c, and r has a's
sign. -/
theorem sdiv_srem_spec (a c : BitVec 32) (hc : 0 < c.toInt) :
    ∃ q r : Int, (a.sdiv c).toInt = q ∧ (a.srem c).toInt = r ∧ c.toInt * q + r = a.toInt ∧
      -c.toInt < r ∧ r < c.toInt ∧ (0 ≤ a.toInt → 0 ≤ r) ∧ (a.toInt ≤ 0 → r ≤ 0) := by
  refine ⟨a.toInt.tdiv c.toInt, a.toInt.tmod c.toInt, ?_, BitVec.toInt_srem a c, Int.mul_tdiv_add_tmod _ _,
    Int.lt_tmod_of_pos _ hc, Int.tmod_lt_of_pos _ hc, Int.tmod_nonneg _, ?_⟩
  · exact BitVec.toInt_sdiv_of_ne_or_ne a c (Or.inr (ne_neg_one_of_pos c hc))
  · intro h
    have h2 := Int.tmod_nonneg c.toInt (show 0 ≤ -a.toInt by omega)
    rw [Int.neg_tmod] at h2; omega

/-! ## The sign -/

theorem sgn_of_pos (c : BitVec 32) (hc : 0 < c.toInt) : sgn c = 1#32 := by
  unfold sgn
  rw [if_neg (ne_zero_of_pos c hc)]
  have hm : c.msb = false := by rw [BitVec.msb_eq_toInt]; exact decide_eq_false (by omega)
  rw [hm]; rfl

/-- The sign differs from one exactly when the word is not positive. -/
theorem sgn_ne_one_iff (a : BitVec 32) : (sgn a != 1#32) = true ↔ a.toInt ≤ 0 := by
  unfold sgn
  by_cases h0 : a = 0
  · subst h0; rw [if_pos rfl]; decide
  · rw [if_neg h0]
    have hne : a.toInt ≠ 0 := fun h => h0 (BitVec.eq_of_toInt_eq (by rw [h]; rfl))
    by_cases hm : a.msb = true
    · rw [if_pos hm]
      rw [BitVec.msb_eq_toInt, decide_eq_true_eq] at hm
      constructor
      · intro _; omega
      · intro _; decide
    · rw [if_neg hm]
      rw [BitVec.msb_eq_toInt, decide_eq_true_eq] at hm
      constructor
      · intro h; exact absurd h (by decide)
      · intro h; omega

/-- A word is zero exactly when its signed reading is. -/
theorem toInt_ne_zero_iff (x : BitVec 32) : (x != 0#32) = true ↔ x.toInt ≠ 0 := by
  rw [bne_iff_ne]
  constructor
  · intro h h'; exact h (BitVec.eq_of_toInt_eq (by rw [h']; rfl))
  · intro h h'; rw [h'] at h; exact h (by decide)

/-! ## The two composites by a positive word -/

/-- Floor division by a positive word: the truncated quotient, less one when the dividend is not positive and the
remainder is not zero. -/
theorem fdiv_of_pos (a c : BitVec 32) (hc : 0 < c.toInt) :
    fdiv a c = if a.toInt ≤ 0 ∧ (a.srem c).toInt ≠ 0 then a.sdiv c - 1#32 else a.sdiv c := by
  unfold fdiv
  rw [divsi_of_pos a c hc, remsi_of_pos a c hc, sgn_of_pos c hc]
  show Scalar.select (IntOp.andi (BitVec.ofBool (sgn a != 1#32)) (BitVec.ofBool (a.srem c != 0#32)))
    (a.sdiv c - 1#32) (a.sdiv c) = _
  rw [WordArith.andi_ofBool, select_ofBool]
  have h1 := sgn_ne_one_iff a
  have h2 := toInt_ne_zero_iff (a.srem c)
  by_cases hp : a.toInt ≤ 0 ∧ (a.srem c).toInt ≠ 0
  · rw [if_pos hp, if_pos]
    rw [Bool.and_eq_true]; exact ⟨h1.mpr hp.1, h2.mpr hp.2⟩
  · rw [if_neg hp, if_neg]
    intro h; rw [Bool.and_eq_true] at h; exact hp ⟨h1.mp h.1, h2.mp h.2⟩

/-- Floor remainder by a positive word: the truncated remainder, plus the divisor when it is negative. -/
theorem frem_of_pos (a c : BitVec 32) (hc : 0 < c.toInt) :
    frem a c = if (a.srem c).toInt < 0 then a.srem c + c else a.srem c := by
  have hsel : Scalar.select (IntOp.cmpi .eq c 0#32) 1#32 c = c := by
    show Scalar.select (BitVec.ofBool (c == 0#32)) 1#32 c = c
    rw [select_ofBool, if_neg]
    rw [beq_iff_eq]; exact ne_zero_of_pos c hc
  have h0 : (0#32 : BitVec 32).toInt = 0 := by decide
  have hslt : IntOp.cmpi .slt c 0#32 = 0#1 := by
    show BitVec.ofBool (c.slt 0#32) = 0#1
    have : c.slt 0#32 = false := by
      rw [Bool.eq_false_iff]; intro h; rw [BitVec.slt_iff_toInt_lt, h0] at h; omega
    rw [this]; rfl
  simp only [frem]
  rw [hsel, remsi_of_pos a c hc, hslt]
  generalize a.srem c = r
  show Scalar.select (IntOp.andi (BitVec.ofBool (BitVec.ofBool (r.slt 0#32) != 0#1)) (BitVec.ofBool (r != 0#32)))
    (r + c) r = _
  rw [WordArith.andi_ofBool, select_ofBool]
  by_cases hr : r.toInt < 0
  · have h1 : r.slt 0#32 = true := BitVec.slt_iff_toInt_lt.mpr (by rw [h0]; exact hr)
    have h2 : (r != 0#32) = true := (toInt_ne_zero_iff r).mpr (by omega)
    rw [h1, h2, if_pos hr, if_pos (by decide)]
  · have h1 : r.slt 0#32 = false := by
      rw [Bool.eq_false_iff]; intro h; rw [BitVec.slt_iff_toInt_lt, h0] at h; exact hr h
    have h3 : (BitVec.ofBool false != 0#1) = false := by decide
    rw [h1, h3, Bool.false_and, if_neg hr, if_neg Bool.false_ne_true]

/-! ## Floor division by 1, 2^18 and 2^9: the identity and the arithmetic shifts -/

theorem fdiv_one (a : BitVec 32) : fdiv a 1#32 = a := by
  rw [fdiv_of_pos a 1#32 (by decide), BitVec.srem_one, BitVec.sdiv_one, if_neg]
  rintro ⟨_, h⟩; exact h (by decide)

theorem fdiv_pow18 (a : BitVec 32) : fdiv a 262144#32 = a.sshiftRight 18 := by
  have hc : (262144#32 : BitVec 32).toInt = 262144 := by decide
  have h1 : (1#32 : BitVec 32).toInt = 1 := by decide
  obtain ⟨q, r, hq, hr, hqr, hl, hu, hn, hp⟩ := sdiv_srem_spec a 262144#32 (by decide)
  rw [hc] at hqr hl hu
  have ha := toInt_cases a
  apply BitVec.eq_of_toInt_eq
  rw [fdiv_of_pos a _ (by decide), BitVec.toInt_sshiftRight, Int.shiftRight_eq_div_pow, hr]
  split
  · rename_i h
    rw [WordArith.toInt_sub_of_bounds _ _ (by rw [hq, h1]; omega) (by rw [hq, h1]; omega), hq, h1]
    omega
  · rename_i h
    rw [hq]; omega

theorem fdiv_pow9 (a : BitVec 32) : fdiv a 512#32 = a.sshiftRight 9 := by
  have hc : (512#32 : BitVec 32).toInt = 512 := by decide
  have h1 : (1#32 : BitVec 32).toInt = 1 := by decide
  obtain ⟨q, r, hq, hr, hqr, hl, hu, hn, hp⟩ := sdiv_srem_spec a 512#32 (by decide)
  rw [hc] at hqr hl hu
  have ha := toInt_cases a
  apply BitVec.eq_of_toInt_eq
  rw [fdiv_of_pos a _ (by decide), BitVec.toInt_sshiftRight, Int.shiftRight_eq_div_pow, hr]
  split
  · rename_i h
    rw [WordArith.toInt_sub_of_bounds _ _ (by rw [hq, h1]; omega) (by rw [hq, h1]; omega), hq, h1]
    omega
  · rename_i h
    rw [hq]; omega

/-! ## Floor remainder by 2^4, 2^18, 2^22 and 2^9: the masks -/

theorem frem_16 (a : BitVec 32) : frem a 16#32 = a &&& 15#32 := by
  have hc : (16#32 : BitVec 32).toInt = 16 := by decide
  obtain ⟨q, r, hq, hr, hqr, hl, hu, hn, hp⟩ := sdiv_srem_spec a 16#32 (by decide)
  rw [hc] at hqr hl hu
  have hm := toNat_and_mask a 15#32 4 (by decide)
  have ha := toInt_cases a
  have hx := toInt_cases (a &&& 15#32)
  apply BitVec.eq_of_toInt_eq
  rw [frem_of_pos a _ (by decide), hr]
  split
  · rename_i h
    rw [WordArith.toInt_add_of_bounds _ _ (by rw [hr, hc]; omega) (by rw [hr, hc]; omega), hr, hc]
    omega
  · rename_i h
    rw [hr]; omega

theorem frem_pow18 (a : BitVec 32) : frem a 262144#32 = a &&& 262143#32 := by
  have hc : (262144#32 : BitVec 32).toInt = 262144 := by decide
  obtain ⟨q, r, hq, hr, hqr, hl, hu, hn, hp⟩ := sdiv_srem_spec a 262144#32 (by decide)
  rw [hc] at hqr hl hu
  have hm := toNat_and_mask a 262143#32 18 (by decide)
  have ha := toInt_cases a
  have hx := toInt_cases (a &&& 262143#32)
  apply BitVec.eq_of_toInt_eq
  rw [frem_of_pos a _ (by decide), hr]
  split
  · rename_i h
    rw [WordArith.toInt_add_of_bounds _ _ (by rw [hr, hc]; omega) (by rw [hr, hc]; omega), hr, hc]
    omega
  · rename_i h
    rw [hr]; omega

theorem frem_pow22 (a : BitVec 32) : frem a 4194304#32 = a &&& 4194303#32 := by
  have hc : (4194304#32 : BitVec 32).toInt = 4194304 := by decide
  obtain ⟨q, r, hq, hr, hqr, hl, hu, hn, hp⟩ := sdiv_srem_spec a 4194304#32 (by decide)
  rw [hc] at hqr hl hu
  have hm := toNat_and_mask a 4194303#32 22 (by decide)
  have ha := toInt_cases a
  have hx := toInt_cases (a &&& 4194303#32)
  apply BitVec.eq_of_toInt_eq
  rw [frem_of_pos a _ (by decide), hr]
  split
  · rename_i h
    rw [WordArith.toInt_add_of_bounds _ _ (by rw [hr, hc]; omega) (by rw [hr, hc]; omega), hr, hc]
    omega
  · rename_i h
    rw [hr]; omega

theorem frem_512 (a : BitVec 32) : frem a 512#32 = a &&& 511#32 := by
  have hc : (512#32 : BitVec 32).toInt = 512 := by decide
  obtain ⟨q, r, hq, hr, hqr, hl, hu, hn, hp⟩ := sdiv_srem_spec a 512#32 (by decide)
  rw [hc] at hqr hl hu
  have hm := toNat_and_mask a 511#32 9 (by decide)
  have ha := toInt_cases a
  have hx := toInt_cases (a &&& 511#32)
  apply BitVec.eq_of_toInt_eq
  rw [frem_of_pos a _ (by decide), hr]
  split
  · rename_i h
    rw [WordArith.toInt_add_of_bounds _ _ (by rw [hr, hc]; omega) (by rw [hr, hc]; omega), hr, hc]
    omega
  · rename_i h
    rw [hr]; omega

/-! ## The three bit fields, read by floor division and floor remainder -/

theorem msb_and_mask18 (w : BitVec 32) : (w &&& 262143#32).msb = false := by
  have h : (262143#32 : BitVec 32).msb = false := by decide
  rw [BitVec.msb_and, h, Bool.and_false]

theorem msb_and_mask22 (w : BitVec 32) : (w &&& 4194303#32).msb = false := by
  have h : (4194303#32 : BitVec 32).msb = false := by decide
  rw [BitVec.msb_and, h, Bool.and_false]

theorem ref_b (w : BitVec 32) : frem (fdiv w 262144#32) 16#32 = Cert.Spec.bOf w := by
  rw [fdiv_pow18, frem_16]; rfl

theorem ref_x (w : BitVec 32) : fdiv (frem (fdiv w 1#32) 262144#32) 512#32 = Cert.Spec.xOf w := by
  rw [fdiv_one, frem_pow18, fdiv_pow9, BitVec.sshiftRight_eq_of_msb_false (msb_and_mask18 w)]; rfl

theorem ref_y (w : BitVec 32) : frem (frem (fdiv w 1#32) 262144#32) 512#32 = Cert.Spec.yOf w := by
  have h : (262143#32 &&& 511#32 : BitVec 32) = 511#32 := by decide
  rw [fdiv_one, frem_pow18, frem_512, BitVec.and_assoc, h]; rfl

/-! ## The same fields after a reduction modulo 2^22 and a clamp at zero, read by shift and mask -/

/-- The word reduced modulo 2^22 by floor remainder. -/
def kidx (w : BitVec 32) : BitVec 32 := frem (fdiv w 1#32) 4194304#32

theorem kidx_eq (w : BitVec 32) : kidx w = w &&& 4194303#32 := by
  unfold kidx; rw [fdiv_one, frem_pow22]

/-- The signed maximum with zero leaves a word whose top bit is clear. -/
theorem maxsi_zero_of_msb_false (x : BitVec 32) (h : x.msb = false) : IntOp.maxsi x 0#32 = x := by
  have h0 : (0#32 : BitVec 32).toInt = 0 := by decide
  unfold IntOp.maxsi
  by_cases hs : (0#32 : BitVec 32).slt x = true
  · rw [if_pos hs]
  · rw [if_neg hs]
    rw [BitVec.slt_iff_toInt_lt, h0] at hs
    rw [BitVec.msb_eq_toInt] at h
    have h2 := of_decide_eq_false h
    apply BitVec.eq_of_toInt_eq; rw [h0]; omega

/-- The vector unit's arithmetic shift by an amount below the width is the arithmetic shift. -/
theorem shrsi_vector (x : BitVec 32) (n : Nat) (hn : n < 32) :
    IntOp.shrsi .vector x (BitVec.ofNat 32 n) = x.sshiftRight n := by
  have e : (BitVec.ofNat 32 n).toNat = n := by rw [BitVec.toNat_ofNat]; omega
  unfold IntOp.shrsi
  rw [if_pos (by rw [e]; exact hn), BitVec.sshiftRight_eq', e]

theorem ker_b (w : BitVec 32) : IntOp.shrsi .vector (IntOp.maxsi (kidx w) 0#32) 18#32 = Cert.Spec.bOf w := by
  rw [kidx_eq, maxsi_zero_of_msb_false _ (msb_and_mask22 w), shrsi_vector _ 18 (by decide)]
  unfold Cert.Spec.bOf
  have hm := toNat_and_mask w 4194303#32 22 (by decide)
  have hx := toInt_cases (w &&& 4194303#32)
  have hs := BitVec.toInt_sshiftRight (x := w) (n := 18)
  rw [Int.shiftRight_eq_div_pow] at hs
  have hy := toNat_and_mask (w.sshiftRight 18) 15#32 4 (by decide)
  have h1 := toInt_cases (w.sshiftRight 18)
  have h2 := toInt_cases (w.sshiftRight 18 &&& 15#32)
  have hw := toInt_cases w
  apply BitVec.eq_of_toInt_eq
  rw [BitVec.toInt_sshiftRight, Int.shiftRight_eq_div_pow]
  omega

theorem ker_x (w : BitVec 32) :
    IntOp.shrsi .vector (IntOp.andi (IntOp.maxsi (kidx w) 0#32) 262143#32) 9#32 = Cert.Spec.xOf w := by
  have h : (4194303#32 &&& 262143#32 : BitVec 32) = 262143#32 := by decide
  rw [kidx_eq, maxsi_zero_of_msb_false _ (msb_and_mask22 w)]
  unfold IntOp.andi
  rw [BitVec.and_assoc, h, shrsi_vector _ 9 (by decide), BitVec.sshiftRight_eq_of_msb_false (msb_and_mask18 w)]; rfl

theorem ker_y (w : BitVec 32) :
    IntOp.andi (IntOp.andi (IntOp.maxsi (kidx w) 0#32) 262143#32) 511#32 = Cert.Spec.yOf w := by
  have h : (262143#32 &&& 511#32 : BitVec 32) = 511#32 := by decide
  have h' : (4194303#32 &&& 511#32 : BitVec 32) = 511#32 := by decide
  rw [kidx_eq, maxsi_zero_of_msb_false _ (msb_and_mask22 w)]
  unfold IntOp.andi
  rw [BitVec.and_assoc, h, BitVec.and_assoc, h']; rfl

/-! ## Two comparisons -/

/-- The bit of a signed "less than" is one exactly when the comparison holds. -/
theorem slt_eq_one_iff (a b : BitVec 32) : IntOp.cmpi .slt a b = 1#1 ↔ a.slt b = true :=
  WordArith.ofBool_eq_one_iff (a.slt b)

/-- The bit of a signed "at least" is one exactly when the bit of "less than" is not. -/
theorem sge_iff_not_slt (a b : BitVec 32) : IntOp.cmpi .sge a b = 1#1 ↔ ¬ (IntOp.cmpi .slt a b = 1#1) := by
  rw [slt_eq_one_iff]
  show BitVec.ofBool (b.sle a) = 1#1 ↔ _
  rw [WordArith.ofBool_eq_one_iff, BitVec.sle_iff_toInt_le, BitVec.slt_iff_toInt_lt]; omega

end Cert.WordMath

end
-- ==== Proof.KEntry.lean ====
/-
  What the region finds when it is entered: its two inputs as functions of the argument.

  Before the region the program forms, from the mask `x : f32[16,512,512]`, the hit bits, their running sum clipped
  and normalised, its histogram and the histogram's running sum (the compaction's word array `W x`), floor-divides
  every word by one and reduces it modulo 4194304 (both spelled as the truncated quotient and remainder with a sign
  correction), and puts zero at every position at or past the number of hits (compared signed): that is the index
  array, which the region reads laid out as [8, 524288]. The prefetched table is the number of hits, summed over the
  [16, 262144] array of bits, as a one-entry array.

  The operations are read in two stretches over an arbitrary state of the buffers: the first ends at the word array and
  is read in three runs (up to the first running sum; the clip, the normalisation and the histogram; the second running
  sum), the second goes from the word array and the hit bits to the two arrays the region reads. Each run is the fold
  of its operations evaluated at one buffer; the two stretches are then joined at the state the first one leaves.
  Last, the index array is read at a position: the select, the broadcasts of scalars and the iota are read at the
  position, and the two composites are the word functions `fdiv · 1` and `frem · 4194304`.
-/
import proofs.«422792_j8924942041139_3_alg».proof.Proof.Gen.KernelIdeal.Frame
import proofs.«422792_j8924942041139_3_alg».proof.Proof.KSpec
import proofs.«422792_j8924942041139_3_alg».proof.Proof.WordMath
import Idealize.ShloMosaic.Lib.IdealHost
import Idealize.ShloMosaic.Lib.StableHlo.Run
import Idealize.ShloMosaic.Lib.Pipeline.Value
import Idealize.ShloMosaic.Lib.ValueIdx

noncomputable section

namespace Cert.KernelIdeal.Hand

open Idealize.ShloMosaic Idealize.ShloMosaic.TcCoe
open Cert.KernelIdeal Cert.KernelIdeal.Facts₀

variable {F : FTy → Type} [FloatOps F]
variable (m : (ℓ : Loc nD τ sig) → Buf (Elt F) ℓ)

/-- A scalar word spread over the flat array. -/
abbrev spread {w : Nat} (v : IVec S_ w) : IVec S4194304 w := broadcastInDim S4194304 ![] bcast_S_S4194304 v

/-- Floor division of every entry by the scalar one, as the program composes it: the truncated quotient, less one where
the signs differ and the truncated remainder is not zero. -/
def fdivArr (w : IVec S4194304 32) : IVec S4194304 32 :=
  select
    (andi (cmpi .ne (signi w) (spread (signi (constantI S_ 32 1#32))))
      (cmpi .ne (Host.remsi w (spread (constantI S_ 32 1#32))) (spread (constantI S_ 32 0#32))))
    (subi (Host.divsi w (spread (constantI S_ 32 1#32))) (spread (constantI S_ 32 1#32)))
    (Host.divsi w (spread (constantI S_ 32 1#32)))

/-- The divisor of the floor remainder: the scalar 4194304, replaced by one were it zero. -/
def remDiv : IVec S_ 32 :=
  select (cmpi .eq (id (constantI S_ 32 4194304#32)) (constantI S_ 32 0#32)) (constantI S_ 32 1#32) (id (constantI S_ 32 4194304#32))

/-- Floor remainder of every entry by the scalar 4194304, as the program composes it: the truncated remainder, plus the
divisor where it is not zero and its sign differs from the divisor's. -/
def fremArr (w : IVec S4194304 32) : IVec S4194304 32 :=
  select
    (andi
      (cmpi .ne (cmpi .slt (Host.remsi w (spread remDiv)) (spread (constantI S_ 32 0#32)))
        (spread (cmpi .slt remDiv (constantI S_ 32 0#32))))
      (cmpi .ne (Host.remsi w (spread remDiv)) (spread (constantI S_ 32 0#32))))
    (addi (Host.remsi w (spread remDiv)) (spread remDiv))
    (Host.remsi w (spread remDiv))

/-- The region's index array from the compaction's word array and the count: zero at a position at or past the count
(read signed), else the word floor-divided by one and reduced modulo 4194304. -/
def idxOf (w : IVec S4194304 32) (cnt : IVec S_ 32) : IVec S4194304 32 :=
  select (cmpi .sge (iotaInDim S4194304 32 0) (spread cnt)) (spread (id (constantI S_ 32 0#32))) (fremArr (fdivArr w))

/-- The index array the region reads, as a function of the argument. -/
def idxArr (x : FVec F S16x512x512 .f32) : IVec S4194304 32 := idxOf (Cert.Spec.W x) (Cert.Spec.cnt1 x)

/-- The running sum clipped below at zero, a negative entry moved up by the length. -/
def binOf (r : IVec S4194304 32) : IVec S4194304 32 :=
  select (cmpi .slt (maxsi (spread (id (constantI S_ 32 0#32))) r) (spread (constantI S_ 32 0#32)))
    (addi (maxsi (spread (id (constantI S_ 32 0#32))) r) (spread (constantI S_ 32 4194304#32)))
    (maxsi (spread (id (constantI S_ 32 0#32))) r)

/-- The histogram of an array of bin indices: one added at each entry's bin. -/
def histOf (b : IVec S4194304 32) : IVec S4194304 32 :=
  Host.scatter scatter_S4194304_S4194304x1_S4194304_n_0_0_1 IntOp.addi (spread (constantI S_ 32 0#32))
    (broadcastInDim S4194304x1 ![0] bcast_S4194304_S4194304x1_0 b) (spread (constantI S_ 32 1#32))

/-! ## The host operations before the region, in two stretches -/

/-- The operations up to the compaction's word array. -/
abbrev headOps : List (HloOp τ sig (Elt F)) :=
  Gen.hostOps0 ++ Gen.hostOps0_1 ++ Gen.hostOps0_2 ++ Gen.hostOps0_3 ++ Gen.hostOps0_4 ++ Gen.hostOps0_5

/-- The operations from there to the region. -/
abbrev tailOps : List (HloOp τ sig (Elt F)) :=
  Gen.hostOps0_6 ++ Gen.hostOps0_7 ++ Gen.hostOps0_8 ++ Gen.hostOps0_9 ++ Gen.hostOps0_10 ++ Gen.hostOps0_11 ++ Gen.hostOps0_12

/-- The first operations leave the running sum of the hit bits of the argument. -/
theorem g0_v4 (V : Valuation τ sig (Elt F)) :
    (StableHlo.after (Gen.hostOps0 ++ Gen.hostOps0_1) V (Proc.devRef .tc main_v4) : IVec S4194304 32)
      = Cert.Spec.runSum (extui 32 (Cert.Spec.hits1 (V (Proc.devRef .tc main_arg0))) natLt_1_32) := by
  simp only [Gen.hostOps0, Gen.hostOps0_1, List.append_nil, List.cons_append, List.nil_append]
  after_results_simp
  simp only [StableHlo.TRef.ofBuf, StableHlo.TRef.toBuf, cast_eq]
  rfl

/-- The next operations leave the histogram of the clipped running sum they found. -/
theorem g1_v14 (V : Valuation τ sig (Elt F)) :
    (StableHlo.after (Gen.hostOps0_2 ++ Gen.hostOps0_3 ++ Gen.hostOps0_4) V (Proc.devRef .tc main_v14) : IVec S4194304 32)
      = histOf (binOf (V (Proc.devRef .tc main_v4))) := by
  simp only [Gen.hostOps0_2, Gen.hostOps0_3, Gen.hostOps0_4, List.append_nil, List.cons_append, List.nil_append]
  after_results_simp
  simp only [StableHlo.TRef.ofBuf, StableHlo.TRef.toBuf, cast_eq]
  rfl

/-- The last operations of the first stretch leave the running sum of the histogram they found. -/
theorem g2_v15 (V : Valuation τ sig (Elt F)) :
    (StableHlo.after Gen.hostOps0_5 V (Proc.devRef .tc main_v15) : IVec S4194304 32)
      = Cert.Spec.runSum (V (Proc.devRef .tc main_v14)) := by
  simp only [Gen.hostOps0_5, List.append_nil, List.cons_append, List.nil_append]
  after_results_simp
  simp only [StableHlo.TRef.ofBuf, StableHlo.TRef.toBuf, cast_eq]
  rfl

/-- The compaction's word array is the running sum of the histogram of the clipped running sum of the hit bits. -/
theorem W_eq (x : FVec F S16x512x512 .f32) :
    Cert.Spec.W x = Cert.Spec.runSum (histOf (binOf (Cert.Spec.runSum (extui 32 (Cert.Spec.hits1 x) natLt_1_32)))) := by
  unfold Cert.Spec.W Cert.Spec.binIdx histOf binOf spread
  rfl

/-- The first stretch, grouped as the three runs of operations above. -/
theorem headOps_split : (headOps : List (HloOp τ sig (Elt F)))
    = (Gen.hostOps0 ++ Gen.hostOps0_1) ++ ((Gen.hostOps0_2 ++ Gen.hostOps0_3 ++ Gen.hostOps0_4) ++ Gen.hostOps0_5) := by
  simp only [headOps, List.append_assoc]

/-- After the first stretch the compaction's word array is that of the argument. -/
theorem head_W (V : Valuation τ sig (Elt F)) :
    (StableHlo.after headOps V (Proc.devRef .tc main_v15) : IVec S4194304 32) = Cert.Spec.W (V (Proc.devRef .tc main_arg0)) := by
  rw [headOps_split, StableHlo.after_append, StableHlo.after_append, g2_v15, g1_v14, g0_v4, W_eq]

/-- After the first stretch the hit bits are those of the argument. -/
theorem head_hits2 (V : Valuation τ sig (Elt F)) :
    (StableHlo.after headOps V (Proc.devRef .tc main_v2) : IVec S16x262144 1) = Cert.Spec.hits2 (V (Proc.devRef .tc main_arg0)) := by
  simp only [headOps, Gen.hostOps0, Gen.hostOps0_1, Gen.hostOps0_2, Gen.hostOps0_3, Gen.hostOps0_4, Gen.hostOps0_5, List.append_nil, List.cons_append, List.nil_append]
  after_results_simp
  rfl

/-- And so are the flattened hit bits. -/
theorem head_hits1 (V : Valuation τ sig (Elt F)) :
    (StableHlo.after headOps V (Proc.devRef .tc main_v3) : IVec S4194304 1) = Cert.Spec.hits1 (V (Proc.devRef .tc main_arg0)) := by
  simp only [headOps, Gen.hostOps0, Gen.hostOps0_1, Gen.hostOps0_2, Gen.hostOps0_3, Gen.hostOps0_4, Gen.hostOps0_5, List.append_nil, List.cons_append, List.nil_append]
  after_results_simp
  rfl

/-- The second stretch leaves, as the region's input array, the index array of the word array and the flattened hit
bits it found. -/
theorem tail_idx (V : Valuation τ sig (Elt F)) :
    (StableHlo.after tailOps V (Proc.devRef .tc main_v27) : IVec S8x524288 32)
      = shapeCast S8x524288 (idxOf (V (Proc.devRef .tc main_v15) : IVec S4194304 32)
          (Host.reduce IntOp.addi (extui 32 (V (Proc.devRef .tc main_v3) : IVec S4194304 1) natLt_1_32) (constantI S_ 32 0#32) reducesTo_S4194304_S_d0 h_S_)) shapeCasts_S4194304_S8x524288 := by
  simp only [tailOps, Gen.hostOps0_6, Gen.hostOps0_7, Gen.hostOps0_8, Gen.hostOps0_9, Gen.hostOps0_10, Gen.hostOps0_11, Gen.hostOps0_12, List.append_nil, List.cons_append, List.nil_append]
  after_results_simp
  simp only [StableHlo.TRef.ofBuf, StableHlo.TRef.toBuf, cast_eq]
  rfl

/-- The second stretch leaves, as the prefetched table, the sum of the hit bits it found. -/
theorem tail_cnt (V : Valuation τ sig (Elt F)) :
    (StableHlo.after tailOps V (Proc.devRef .tc main_v26) : IVec S1 32)
      = shapeCast S1 (Host.reduce IntOp.addi (extui 32 (V (Proc.devRef .tc main_v2) : IVec S16x262144 1) natLt_1_32) (constantI S_ 32 0#32) reducesTo_S16x262144_S_d0_1 h_S_) shapeCasts_S_S1 := by
  simp only [tailOps, Gen.hostOps0_6, Gen.hostOps0_7, Gen.hostOps0_8, Gen.hostOps0_9, Gen.hostOps0_10, Gen.hostOps0_11, Gen.hostOps0_12, List.append_nil, List.cons_append, List.nil_append]
  after_results_simp
  rfl

/-! ## What the region finds -/

/-- All the operations before the region are the first stretch followed by the second. -/
theorem ops_split : List.flatten [Gen.hostOps0 (F := F), Gen.hostOps0_1, Gen.hostOps0_2, Gen.hostOps0_3, Gen.hostOps0_4, Gen.hostOps0_5, Gen.hostOps0_6,
      Gen.hostOps0_7, Gen.hostOps0_8, Gen.hostOps0_9, Gen.hostOps0_10, Gen.hostOps0_11, Gen.hostOps0_12] = headOps ++ tailOps := by
  simp only [headOps, tailOps, List.flatten_cons, List.flatten_nil, List.append_nil, List.append_assoc]

/-- The region's input array is the index array of the argument, laid out as [8, 524288]. -/
theorem entry_idx (c : Dev nD) :
    (Gen.V m c main_v27 : IVec S8x524288 32)
      = shapeCast S8x524288 (idxArr (m ((c : Thread nD τ).loc main_arg0))) shapeCasts_S4194304_S8x524288 := by
  show StableHlo.after (List.flatten [Gen.hostOps0 (F := F), Gen.hostOps0_1, Gen.hostOps0_2, Gen.hostOps0_3, Gen.hostOps0_4, Gen.hostOps0_5, Gen.hostOps0_6,
      Gen.hostOps0_7, Gen.hostOps0_8, Gen.hostOps0_9, Gen.hostOps0_10, Gen.hostOps0_11, Gen.hostOps0_12]) (fun b => m (c, b)) (Proc.devRef .tc main_v27) = _
  rw [ops_split, StableHlo.after_append, tail_idx, head_W, head_hits1]
  rfl

/-- The prefetched table is the number of hits of the argument, as a one-entry array. -/
theorem entry_cnt :
    (Gen.tbl m 0 : IVec S1 32)
      = shapeCast S1 (Cert.Spec.cnt2 (m (((0 : Dev nD) : Thread nD τ).loc main_arg0))) shapeCasts_S_S1 := by
  show StableHlo.after (List.flatten [Gen.hostOps0 (F := F), Gen.hostOps0_1, Gen.hostOps0_2, Gen.hostOps0_3, Gen.hostOps0_4, Gen.hostOps0_5, Gen.hostOps0_6,
      Gen.hostOps0_7, Gen.hostOps0_8, Gen.hostOps0_9, Gen.hostOps0_10, Gen.hostOps0_11, Gen.hostOps0_12]) (fun b => m ((0 : Dev nD), b)) (Proc.devRef .tc main_v26) = _
  rw [ops_split, StableHlo.after_append, tail_cnt, head_hits2]
  rfl

/-! ## The index array at a position -/

/-- The floor division by one at a position is the word's. -/
theorem fdivArr_apply (w : IVec S4194304 32) (j : S4194304.Idx) : fdivArr w j = Cert.WordMath.fdiv (w j) 1#32 := by
  unfold fdivArr
  simp only [ValueIdx.select_apply, andi, subi, cmpi, Host.divsi, Host.remsi, signi, spread, ValueIdx.broadcastInDim_scalar_apply, constantI]
  rfl

/-- The floor remainder by 4194304 at a position is the word's. -/
theorem fremArr_apply (w : IVec S4194304 32) (j : S4194304.Idx) : fremArr w j = Cert.WordMath.frem (w j) 4194304#32 := by
  unfold fremArr
  simp only [ValueIdx.select_apply, andi, addi, cmpi, Host.remsi, spread, ValueIdx.broadcastInDim_scalar_apply, constantI, remDiv, id]
  rfl

/-- The index array at position `k`: zero at or past the count (read signed), else the word at `k` floor-divided by one
and reduced modulo 4194304. -/
theorem idxArr_apply (x : FVec F S16x512x512 .f32) (k : Fin 4194304) :
    idxArr x (ValueIdx.ix1 k)
      = Scalar.select (IntOp.cmpi .sge (BitVec.ofNat 32 k.val) (Cert.Spec.cnt1 x ValueIdx.ix0)) 0#32
          (Cert.WordMath.kidx (Cert.Spec.W x (ValueIdx.ix1 k))) := by
  unfold idxArr idxOf
  rw [ValueIdx.select_apply, fremArr_apply, fdivArr_apply]
  simp only [cmpi, spread, ValueIdx.broadcastInDim_scalar_apply, ValueIdx.iotaInDim_apply, constantI, id]
  rfl

end Cert.KernelIdeal.Hand

end
-- ==== Proof.KWord.lean ====
/-
  The kernel program's result is the shared specification.

  Entry `(k, c, d)` of the kernel's result is plane `planeOf c d` of the five-plane array at flat position `k`; the
  plane is a field of the index word the region was handed at position `k`, which is the compaction word `W k` reduced
  modulo 2^22 on a live row (the fill writes zero only on rows at or past the count, and those rows are `-1`
  whatever the word). The fields of the reduced, clamped word are the bit fields of `W k` itself; the count used by the
  fill (a sum over the flattened hits) and the count the region compares with (a sum over both axes) are equal.
-/
import proofs.«422792_j8924942041139_3_alg».proof.Proof.KSpec
import proofs.«422792_j8924942041139_3_alg».proof.Proof.WordMath

noncomputable section

namespace Cert.KernelIdeal.Hand

open Idealize.ShloMosaic

/-- On a live word the five planes are the entries of a row: the shift-and-mask fields of the word reduced modulo
    2^22 and clamped at zero are the bit fields of the word. -/
theorem planeLive_kidx (w : BitVec 32) (c : Fin 2) (d : Fin 3) :
    Cert.Spec.planeLive (Cert.Spec.planeOf c d) (Cert.WordMath.kidx w) = Cert.Spec.entry w c d := by
  match c, d with
  | ⟨0, _⟩, ⟨0, _⟩ => exact Cert.WordMath.ker_b w
  | ⟨1, _⟩, ⟨0, _⟩ => exact Cert.WordMath.ker_b w
  | ⟨0, _⟩, ⟨1, _⟩ =>
    show IntOp.subi (IntOp.shrsi .vector (IntOp.andi (IntOp.maxsi (Cert.WordMath.kidx w) 0#32) 262143#32) 9#32) 16#32 = Cert.Spec.xOf w - 16#32
    rw [Cert.WordMath.ker_x]; rfl
  | ⟨0, _⟩, ⟨2, _⟩ =>
    show IntOp.subi (IntOp.andi (IntOp.andi (IntOp.maxsi (Cert.WordMath.kidx w) 0#32) 262143#32) 511#32) 16#32 = Cert.Spec.yOf w - 16#32
    rw [Cert.WordMath.ker_y]; rfl
  | ⟨1, _⟩, ⟨1, _⟩ =>
    show IntOp.addi (IntOp.addi (IntOp.shrsi .vector (IntOp.andi (IntOp.maxsi (Cert.WordMath.kidx w) 0#32) 262143#32) 9#32) 16#32) 0#32 = Cert.Spec.xOf w + 16#32
    rw [Cert.WordMath.ker_x]; exact BitVec.add_zero _
  | ⟨1, _⟩, ⟨2, _⟩ =>
    show IntOp.addi (IntOp.addi (IntOp.andi (IntOp.andi (IntOp.maxsi (Cert.WordMath.kidx w) 0#32) 262143#32) 511#32) 16#32) 0#32 = Cert.Spec.yOf w + 16#32
    rw [Cert.WordMath.ker_y]; exact BitVec.add_zero _

/-- A plane at position `k` of the index word the region was handed (zero on a row the fill cleared, else the word
    reduced modulo 2^22) is the row's entry: both are `-1` at or past the count, and below it the fill is off. -/
theorem planeWord_eq_rowWord (w cnt : BitVec 32) (k : Nat) (c : Fin 2) (d : Fin 3) :
    Cert.Spec.planeWord (Cert.Spec.planeOf c d)
        (Scalar.select (IntOp.cmpi .sge (BitVec.ofNat 32 k) cnt) 0#32 (Cert.WordMath.kidx w)) cnt k
      = Cert.Spec.rowWord w cnt k c d := by
  unfold Cert.Spec.planeWord Cert.Spec.rowWord
  by_cases h : (BitVec.ofNat 32 k).slt cnt = true
  · have h1 : IntOp.cmpi .slt (BitVec.ofNat 32 k) cnt = (1 : BitVec 1) := (Cert.WordMath.slt_eq_one_iff _ _).mpr h
    have h2 : ¬ IntOp.cmpi .sge (BitVec.ofNat 32 k) cnt = (1 : BitVec 1) := fun hh => (Cert.WordMath.sge_iff_not_slt _ _).mp hh h1
    rw [if_pos h]
    unfold Scalar.select
    rw [if_pos h1, if_neg h2]
    exact planeLive_kidx w c d
  · have h1 : ¬ IntOp.cmpi .slt (BitVec.ofNat 32 k) cnt = (1 : BitVec 1) := fun hh => h ((Cert.WordMath.slt_eq_one_iff _ _).mp hh)
    rw [if_neg h]
    unfold Scalar.select
    rw [if_neg h1]

end Cert.KernelIdeal.Hand

end
-- ==== Proof.SumFlat.lean ====
/-
  The number of hits does not depend on whether the 0/1 words are summed over the [16, 262144] array or over its
  row-major flattening: addition of 32-bit words is commutative and associative, so a sum over every element is a
  fold over the set of all indices, and the flattening is a bijection between the two index sets.
-/
import proofs.«422792_j8924942041139_3_alg».proof.Proof.Spec
import Idealize.ShloMosaic.PureOps.Reduce
import Mathlib.Algebra.BigOperators.Group.Finset.Basic

namespace Cert.SumFlat

open Idealize.ShloMosaic Cert.Spec

/-- A reduction into the rank-zero shape runs over every index of its operand: a rank-zero shape has one index. -/
theorem filter_drop_eq_univ {s : Shape} {axes : List (Fin s.rank)} (h : s.ReducesTo axes S_) (j : S_.Idx) :
    (Finset.univ.filter fun i => h.drop i = j) = Finset.univ :=
  Finset.filter_true_of_mem fun i _ => funext fun a => a.elim0

/-- A commutative and associative reduction over all axes of an array is the same reduction over the one axis of
    its row-major flattening: both fold the operation over all elements, and the flattening's index map is a
    bijection. -/
theorem reduce_shapeCast_all {α : Type} (f : α → α → α) [Std.Commutative f] [Std.Associative f]
    (y : S16x262144.Idx → α) (init : S_.Idx → α) :
    Host.reduce f (shapeCast S4194304 y shapeCasts_b) init red1 h_S_ = Host.reduce f y init red2 h_S_ := by
  funext j
  rw [Host.reduce_eq_fold, Host.reduce_eq_fold, filter_drop_eq_univ, filter_drop_eq_univ]
  have e : (Finset.univ : Finset S16x262144.Idx)
      = (Finset.univ : Finset S4194304.Idx).map (Shape.reshapeEquiv shapeCasts_b).toEmbedding :=
    (Finset.map_univ_equiv _).symm
  rw [e, Finset.fold_map]
  rfl

/-- Widening the bits to words commutes with the flattening: both act element by element. -/
theorem extui_hits1 {F : FTy → Type} [FloatOps F] (x : FVec F S16x512x512 .f32) :
    extui 32 (hits1 x) (by decide) = shapeCast S4194304 (extui 32 (hits2 x) (by decide)) shapeCasts_b := rfl

/-- The number of hits counted over the flattened array is the number counted over the [16, 262144] array. -/
theorem cnt1_eq_cnt2 {F : FTy → Type} [FloatOps F] (x : FVec F S16x512x512 .f32) : cnt1 x = cnt2 x := by
  unfold cnt1 cnt2
  rw [extui_hits1]
  exact reduce_shapeCast_all IntOp.addi _ _

end Cert.SumFlat
-- ==== Proof.KValue.lean ====
/-
  The kernel program's result array is the shared specification, entry by entry.

  After the region the output array is the five planes `kArr` of the index array the region was handed and of the count;
  the host's reshape, gather of rows 0, 1, 2, 0, 3, 4, transpose and reshape read entry `(k, c, d)` from plane
  `planeOf c d` at flat position `k = (k / 524288) * 524288 + k % 524288`; the index array is the [8, 524288] layout of
  the filled, reduced compaction words, so its entry there is the word at position `k`; the table's one word is the
  count; and a plane of that word at position `k` is the row's entry.
-/
import proofs.«422792_j8924942041139_3_alg».proof.Proof.KBody
import proofs.«422792_j8924942041139_3_alg».proof.Proof.KArray
import proofs.«422792_j8924942041139_3_alg».proof.Proof.KTail
import proofs.«422792_j8924942041139_3_alg».proof.Proof.KEntry
import proofs.«422792_j8924942041139_3_alg».proof.Proof.KWord
import proofs.«422792_j8924942041139_3_alg».proof.Proof.SumFlat

noncomputable section

namespace Cert.KernelIdeal.Hand

open Idealize.ShloMosaic Idealize.ShloMosaic.TcCoe Idealize.SL.Sem
open Cert.KernelIdeal Cert.KernelIdeal.Gen
open ValueIdx

variable {F : FTy → Type} [FloatOps F]

/-- The [8, 524288] layout of a flat array, read at `(a, b)`, is the flat array at `a * 524288 + b`. -/
theorem layout_apply (v : IVec S4194304 32) (h : S4194304.ShapeCasts S8x524288) (a : Fin 8) (b : Fin 524288) (k : Fin 4194304)
    (hk : k.val = a.val * 524288 + b.val) : shapeCast S8x524288 v h (ix2 a b) = v (ix1 k) := by
  refine shapeCast_apply v h (ix2 a b) (ix1 k) ?_
  rw [Shape.rowMajor_val_two, Shape.rowMajor_val_one]
  exact hk

/-- The one-word table read at its entry is the scalar. -/
theorem scalar_apply (v : IVec S_ 32) (h : S_.ShapeCasts S1) : shapeCast S1 v h (ix1 (0 : Fin 1)) = v ValueIdx.ix0 := by
  refine shapeCast_apply v h (ix1 (0 : Fin 1)) ValueIdx.ix0 ?_
  rfl

/-- The planes of the handed index array, gathered and regrouped, are the specification. -/
theorem planes_eq_out (x : FVec F S16x512x512 .f32) (A : IVec S8x524288 32) (T : IVec S1 32)
    (hA : A = shapeCast S8x524288 (idxArr x) Facts₀.shapeCasts_S4194304_S8x524288)
    (hT : T = shapeCast S1 (Cert.Spec.cnt2 x) Facts₀.shapeCasts_S_S1) :
    kOut (Cert.Spec.kArr A T) = Cert.Spec.out x := by
  funext j
  obtain ⟨k, c, d, rfl⟩ : ∃ (k : Fin 4194304) (c : Fin 2) (d : Fin 3), j = ix3 k c d := ⟨j 0, j 1, j 2, eq_ix3 j⟩
  rw [kOut_apply]
  show Cert.Spec.planeWord (Cert.Spec.planeOf c d)
      (A (ix2 (⟨k.val / 524288, by have := k.isLt; omega⟩ : Fin 8) (⟨k.val % 524288, Nat.mod_lt _ (by decide)⟩ : Fin 524288)))
      (T (ix1 (0 : Fin 1))) (k.val / 524288 * 524288 + k.val % 524288)
    = Cert.Spec.rowWord (Cert.Spec.W x (ix1 k)) (Cert.Spec.cnt2 x ValueIdx.ix0) k.val c d
  rw [hA, hT, layout_apply (idxArr x) _ _ _ k (by show k.val = k.val / 524288 * 524288 + k.val % 524288; omega), scalar_apply,
    idxArr_apply, Cert.SumFlat.cnt1_eq_cnt2, Nat.div_add_mod' k.val 524288]
  exact planeWord_eq_rowWord _ _ _ c d

/-- The kernel program runs, ends with its result at the specification of its argument, and leaves the argument
    unchanged: the generated frame run, its output array opened (`arr_final` over the per-point planes), the host
    tail read (`tail_eq`), and what the region was handed (`entry_idx`, `entry_cnt`). -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v38) = Cert.Spec.out (m ((c.tc : Thread nD τ).loc main_arg0))
      ∧ r.2.mem ((c.tc : Thread nD τ).loc main_arg0) = m ((c.tc : Thread nD τ).loc main_arg0)) := by
  have hO : Ok m := trivial
  refine (θ_run defs _ _).mono (fun r h c => ⟨?_, ?_⟩) (run_main m ρ hO)
  · have h38 := (h c).2 main_v38 (by decide : main_v38 ∈ Pipeline.restRefs sig spec0)
    rw [h38, tail_eq m hO c, arr_final m hO c (outs_apply m hO c)]
    obtain rfl : c = 0 := Subsingleton.elim _ _
    exact planes_eq_out (m (((0 : Dev nD) : Thread nD τ).loc main_arg0)) (V m 0 main_v27) (tbl m 0) (entry_idx m 0) (entry_cnt m)
  · exact ((h c).2 main_arg0 (by decide : main_arg0 ∈ Pipeline.restRefs sig spec0)).trans (W_main_arg0 m hO (dats m hO) c)

end Cert.KernelIdeal.Hand

end
-- ==== Proof.RefTerm.lean ====
/-
  The reference program's result as ONE composed term of its argument, and that term read entry by entry.

  The program forms the hit bits of the mask, the compaction's index array `W` (a running sum, clipped and
  normalised, scattered as a histogram, summed again) and the number of hits; from a word `w = W k` it takes
  the image index `floor(w / 2^18) mod 16` and the pixel `p = floor(w / 1) mod 2^18`, splits the pixel as
  `floor(p / 512)` and `p mod 512`, offsets both by 16 down and up, and assembles the [N, 2, 3] array of rows
  `[b, x - 16, y - 16], [b, x + 16, y + 16]`; a row at or past the count is `-1` throughout.

  `refOut` spells that chain operation by operation, in the program's own shapes and shape relations; the floor
  division and the floor remainder are the composites the program calls (a truncating division corrected by one
  where the signs differ and the remainder is not zero; a truncating remainder moved up by the divisor where its
  sign differs from the divisor's). `refOut_eq` reads the term at an index `(k, c, d)` and finds the row word.
-/
import proofs.«422792_j8924942041139_3_alg».proof.ReferenceIdeal
import proofs.«422792_j8924942041139_3_alg».proof.Proof.Gen.ReferenceIdeal
import proofs.«422792_j8924942041139_3_alg».proof.Proof.Spec
import proofs.«422792_j8924942041139_3_alg».proof.Proof.WordMath
import Idealize.ShloMosaic.Lib.ValueIdx
import Idealize.ShloMosaic.Lib.Pipeline.Value
import Idealize.ShloMosaic.Lib.ValueLayout
import Idealize.ShloMosaic.Lib.IdealHost

noncomputable section

namespace Cert.ReferenceIdeal.Hand

open Idealize.ShloMosaic
open Cert.ReferenceIdeal Cert.ReferenceIdeal.Facts₀

variable {F : FTy → Type} [FloatOps F]

/-! ## The shared prefix, in the program's spelling -/

/-- The hit bits `x > 1/2` as a [16, 262144] array. -/
def pHits (x : FVec F S16x512x512 .f32) : IVec S16x262144 1 :=
  cmpf .ogt (shapeCast S16x262144 x shapeCasts_S16x512x512_S16x262144)
    (broadcastInDim S16x262144 ![] bcast_S_S16x262144 (constant S_ .f32 0x3F000000#32))

/-- A running sum along the one axis. -/
def pRun (a : IVec S4194304 32) : IVec S4194304 32 :=
  Host.reduceWindow IntOp.addi ![4194304] ![1] ![4194303] ![0] a
    (broadcastInDim S_ ![] bcast_S_S_ (constantI S_ 32 0#32))
    reduceWindows_S4194304_S4194304_w4194304s1p4194303_0 h_S_

/-- The compaction's index array: the running sum of the histogram of the clipped, normalised running sum of the
    flattened hit bits. -/
def pW (x : FVec F S16x512x512 .f32) : IVec S4194304 32 :=
  let v3 := pRun (extui 32 (shapeCast S4194304 (pHits x) shapeCasts_S16x262144_S4194304) natLt_1_32)
  let v5 := maxsi (broadcastInDim S4194304 ![] bcast_S_S4194304 (id (constantI S_ 32 0#32))) v3
  let v10 := select (cmpi .slt v5 (broadcastInDim S4194304 ![] bcast_S_S4194304 (constantI S_ 32 0#32)))
    (addi v5 (broadcastInDim S4194304 ![] bcast_S_S4194304 (constantI S_ 32 4194304#32))) v5
  pRun (Host.scatter scatter_S4194304_S4194304x1_S4194304_n_0_0_1 IntOp.addi
    (broadcastInDim S4194304 ![] bcast_S_S4194304 (constantI S_ 32 0#32))
    (broadcastInDim S4194304x1 ![0] bcast_S4194304_S4194304x1_0 v10)
    (broadcastInDim S4194304 ![] bcast_S_S4194304 (constantI S_ 32 1#32)))

/-- The number of hits. -/
def pCnt (x : FVec F S16x512x512 .f32) : IVec S_ 32 :=
  Host.reduce IntOp.addi (extui 32 (pHits x) natLt_1_32) (constantI S_ 32 0#32) reducesTo_S16x262144_S_d0_1 h_S_

theorem pHits_eq (x : FVec F S16x512x512 .f32) : pHits x = Cert.Spec.hits2 x := rfl
theorem pW_eq (x : FVec F S16x512x512 .f32) : pW x = Cert.Spec.W x := rfl
theorem pCnt_eq (x : FVec F S16x512x512 .f32) : pCnt x = Cert.Spec.cnt2 x := rfl

/-! ## The three composites -/

/-- Floor division of an array by a scalar: the truncating quotient, less one where the signs of dividend and
    divisor differ and the truncating remainder is not zero. -/
def floorDiv (a : IVec S4194304 32) (c : IVec S_ 32) : IVec S4194304 32 :=
  let q := Host.divsi a (broadcastInDim S4194304 ![] bcast_S_S4194304 c)
  select
    (andi (cmpi .ne (signi a) (broadcastInDim S4194304 ![] bcast_S_S4194304 (signi c)))
      (cmpi .ne (Host.remsi a (broadcastInDim S4194304 ![] bcast_S_S4194304 c))
        (broadcastInDim S4194304 ![] bcast_S_S4194304 (constantI S_ 32 0#32))))
    (subi q (broadcastInDim S4194304 ![] bcast_S_S4194304 (constantI S_ 32 1#32)))
    q

/-- The same floor division, its divisor first passed through a conversion of a word to a word. -/
def floorDiv4 (a : IVec S4194304 32) (c : IVec S_ 32) : IVec S4194304 32 := floorDiv a (id c)

/-- Floor remainder of an array by a scalar (a zero divisor replaced by one): the truncating remainder, plus the
    divisor where the remainder is not zero and its sign differs from the divisor's. -/
def floorRem (a : IVec S4194304 32) (c : IVec S_ 32) : IVec S4194304 32 :=
  let d : IVec S_ 32 := select (cmpi .eq (id c) (constantI S_ 32 0#32)) (constantI S_ 32 1#32) (id c)
  let r := Host.remsi a (broadcastInDim S4194304 ![] bcast_S_S4194304 d)
  select
    (andi
      (cmpi .ne (cmpi .slt r (broadcastInDim S4194304 ![] bcast_S_S4194304 (constantI S_ 32 0#32)))
        (broadcastInDim S4194304 ![] bcast_S_S4194304 (cmpi .slt d (constantI S_ 32 0#32))))
      (cmpi .ne r (broadcastInDim S4194304 ![] bcast_S_S4194304 (constantI S_ 32 0#32))))
    (addi r (broadcastInDim S4194304 ![] bcast_S_S4194304 d))
    r

/-- `where(m, c, a)` with a scalar in the taken branch. -/
def whereS (m : IVec S4194304 1) (c : IVec S_ 32) (a : IVec S4194304 32) : IVec S4194304 32 :=
  select m (broadcastInDim S4194304 ![] bcast_S_S4194304 (id c)) a

/-! ## The result -/

/-- The image index per row, zero at and past the count. -/
def imgCol (x : FVec F S16x512x512 .f32) : IVec S4194304 32 :=
  whereS (cmpi .sge (iotaInDim S4194304 32 0) (broadcastInDim S4194304 ![] bcast_S_S4194304 (pCnt x)))
    (constantI S_ 32 0#32)
    (floorRem (floorDiv (pW x) (constantI S_ 32 262144#32)) (constantI S_ 32 16#32))

/-- The pixel index per row, zero at and past the count. -/
def pixCol (x : FVec F S16x512x512 .f32) : IVec S4194304 32 :=
  whereS (cmpi .sge (iotaInDim S4194304 32 0) (broadcastInDim S4194304 ![] bcast_S_S4194304 (pCnt x)))
    (constantI S_ 32 0#32)
    (floorRem (floorDiv (pW x) (constantI S_ 32 1#32)) (constantI S_ 32 262144#32))

/-- The pixel's row and column side by side: [N, 2]. -/
def xyCols (x : FVec F S16x512x512 .f32) : IVec S4194304x2 32 :=
  concatenate S4194304x2 1
    [⟨S4194304x1, broadcastInDim S4194304x1 ![0] bcast_S4194304_S4194304x1_0 (floorDiv4 (pixCol x) (constantI S_ 32 512#32))⟩,
     ⟨S4194304x1, broadcastInDim S4194304x1 ![0] bcast_S4194304_S4194304x1_0 (floorRem (pixCol x) (constantI S_ 32 512#32))⟩]
    concatenates_S4194304x1_S4194304x1_S4194304x2_d1

/-- The two corners: [N, 2, 2]. -/
def corners (x : FVec F S16x512x512 .f32) : IVec S4194304x2x2 32 :=
  concatenate S4194304x2x2 1
    [⟨S4194304x1x2, broadcastInDim S4194304x1x2 ![0, 2] bcast_S4194304x2_S4194304x1x2_0_2
        (subi (xyCols x) (broadcastInDim S4194304x2 ![] bcast_S_S4194304x2 (constantI S_ 32 16#32)))⟩,
     ⟨S4194304x1x2, broadcastInDim S4194304x1x2 ![0, 2] bcast_S4194304x2_S4194304x1x2_0_2
        (addi (addi (xyCols x) (broadcastInDim S4194304x2 ![] bcast_S_S4194304x2 (constantI S_ 32 16#32)))
          (broadcastInDim S4194304x2 ![] bcast_S_S4194304x2 (constantI S_ 32 0#32)))⟩]
    concatenates_S4194304x1x2_S4194304x1x2_S4194304x2x2_d1

/-- The image index twice: [N, 2, 1]. -/
def imgPair (x : FVec F S16x512x512 .f32) : IVec S4194304x2x1 32 :=
  concatenate S4194304x2x1 1
    [⟨S4194304x1x1, broadcastInDim S4194304x1x1 ![0, 2] bcast_S4194304x1_S4194304x1x1_0_2
        (broadcastInDim S4194304x1 ![0] bcast_S4194304_S4194304x1_0 (imgCol x))⟩,
     ⟨S4194304x1x1, broadcastInDim S4194304x1x1 ![0, 2] bcast_S4194304x1_S4194304x1x1_0_2
        (broadcastInDim S4194304x1 ![0] bcast_S4194304_S4194304x1_0 (imgCol x))⟩]
    concatenates_S4194304x1x1_S4194304x1x1_S4194304x2x1_d1

/-- The rows before the fill: [N, 2, 3]. -/
def rows (x : FVec F S16x512x512 .f32) : IVec S4194304x2x3 32 :=
  concatenate S4194304x2x3 2 [⟨S4194304x2x1, imgPair x⟩, ⟨S4194304x2x2, corners x⟩]
    concatenates_S4194304x2x1_S4194304x2x2_S4194304x2x3_d2

/-- The program's result as a term of its argument. -/
def refOut (x : FVec F S16x512x512 .f32) : IVec S4194304x2x3 32 :=
  select
    (broadcastInDim S4194304x2x3 ![0, 1, 2] bcast_S4194304x1x1_S4194304x2x3_0_1_2
      (broadcastInDim S4194304x1x1 ![0] bcast_S4194304_S4194304x1x1_0
        (cmpi .slt (iotaInDim S4194304 32 0) (broadcastInDim S4194304 ![] bcast_S_S4194304 (pCnt x)))))
    (rows x)
    (broadcastInDim S4194304x2x3 ![] bcast_S_S4194304x2x3 (id (constantI S_ 32 4294967295#32)))

/-! ## The composites at an element -/

open Idealize.ShloMosaic.ValueIdx

theorem floorDiv_apply (a : IVec S4194304 32) (v : BitVec 32) (i : S4194304.Idx) :
    floorDiv a (constantI S_ 32 v) i = Cert.WordMath.fdiv (a i) v := rfl

theorem floorDiv4_apply (a : IVec S4194304 32) (v : BitVec 32) (i : S4194304.Idx) :
    floorDiv4 a (constantI S_ 32 v) i = Cert.WordMath.fdiv (a i) v := rfl

theorem floorRem_apply (a : IVec S4194304 32) (v : BitVec 32) (i : S4194304.Idx) :
    floorRem a (constantI S_ 32 v) i = Cert.WordMath.frem (a i) v := rfl

/-! ## The columns at a row -/

/-- The image column at row `k`: zero at or past the count, else the floor-division composite of the word. -/
theorem imgCol_apply (x : FVec F S16x512x512 .f32) (k : Fin 4194304) :
    imgCol x (ix1 k) = Scalar.select (IntOp.cmpi .sge (BitVec.ofNat 32 k.val) (pCnt x ix0)) 0#32
      (Cert.WordMath.frem (Cert.WordMath.fdiv (pW x (ix1 k)) 262144#32) 16#32) := by
  have h := broadcastInDim_scalar_apply bcast_S_S4194304 (pCnt x) (ix1 k)
  show Scalar.select (IntOp.cmpi .sge (BitVec.ofNat 32 k.val)
    (broadcastInDim S4194304 ![] bcast_S_S4194304 (pCnt x) (ix1 k))) 0#32 _ = _
  rw [h]
  rfl

/-- The pixel column at row `k`. -/
theorem pixCol_apply (x : FVec F S16x512x512 .f32) (k : Fin 4194304) :
    pixCol x (ix1 k) = Scalar.select (IntOp.cmpi .sge (BitVec.ofNat 32 k.val) (pCnt x ix0)) 0#32
      (Cert.WordMath.frem (Cert.WordMath.fdiv (pW x (ix1 k)) 1#32) 262144#32) := by
  have h := broadcastInDim_scalar_apply bcast_S_S4194304 (pCnt x) (ix1 k)
  show Scalar.select (IntOp.cmpi .sge (BitVec.ofNat 32 k.val)
    (broadcastInDim S4194304 ![] bcast_S_S4194304 (pCnt x) (ix1 k))) 0#32 _ = _
  rw [h]
  rfl

/-! ## The assembled arrays at an index -/

/-- The pixel's row at row `k`: the floor quotient of the pixel by 512. -/
theorem xyCols_zero (x : FVec F S16x512x512 .f32) (k : Fin 4194304) :
    xyCols x (ix2 k (0 : Fin 2)) = Cert.WordMath.fdiv (pixCol x (ix1 k)) 512#32 := by
  unfold xyCols
  refine (concatenate_pair_apply_left (1 : Fin S4194304x2.rank) _ _ concatenates_S4194304x1_S4194304x1_S4194304x2_d1
    (ix2 k (0 : Fin 2)) rfl (ix2 k (0 : Fin 1)) (fun b => match b with | ⟨0, _⟩ => rfl | ⟨1, _⟩ => rfl)).trans ?_
  refine (broadcastInDim_apply _ _ _ _ (ix1 k) (fun a => match a with | ⟨0, _⟩ => rfl)).trans ?_
  exact floorDiv4_apply _ _ _

/-- The pixel's column at row `k`: the floor remainder of the pixel by 512. -/
theorem xyCols_one (x : FVec F S16x512x512 .f32) (k : Fin 4194304) :
    xyCols x (ix2 k (1 : Fin 2)) = Cert.WordMath.frem (pixCol x (ix1 k)) 512#32 := by
  unfold xyCols
  refine (concatenate_pair_apply_right (1 : Fin S4194304x2.rank) _ _ concatenates_S4194304x1_S4194304x1_S4194304x2_d1
    (ix2 k (1 : Fin 2)) rfl rfl (ix2 k (0 : Fin 1))
    (fun b hb => match b, hb with | ⟨0, _⟩, _ => rfl | ⟨1, _⟩, hb => (hb rfl).elim) rfl).trans ?_
  refine (broadcastInDim_apply _ _ _ _ (ix1 k) (fun a => match a with | ⟨0, _⟩ => rfl)).trans ?_
  exact floorRem_apply _ _ _

/-- The lower corner: 16 less. -/
theorem corners_lo (x : FVec F S16x512x512 .f32) (k : Fin 4194304) (e : Fin 2) :
    corners x (ix3 k (0 : Fin 2) e) = IntOp.subi (xyCols x (ix2 k e)) 16#32 := by
  unfold corners
  refine (concatenate_pair_apply_left (1 : Fin S4194304x2x2.rank) _ _ concatenates_S4194304x1x2_S4194304x1x2_S4194304x2x2_d1
    (ix3 k (0 : Fin 2) e) rfl (ix3 k (0 : Fin 1) e)
    (fun b => match b with | ⟨0, _⟩ => rfl | ⟨1, _⟩ => rfl | ⟨2, _⟩ => rfl)).trans ?_
  exact broadcastInDim_apply _ _ _ _ (ix2 k e) (fun a => match a with | ⟨0, _⟩ => rfl | ⟨1, _⟩ => rfl)

/-- The upper corner: 16 more (and a zero added). -/
theorem corners_hi (x : FVec F S16x512x512 .f32) (k : Fin 4194304) (e : Fin 2) :
    corners x (ix3 k (1 : Fin 2) e) = IntOp.addi (IntOp.addi (xyCols x (ix2 k e)) 16#32) 0#32 := by
  unfold corners
  refine (concatenate_pair_apply_right (1 : Fin S4194304x2x2.rank) _ _ concatenates_S4194304x1x2_S4194304x1x2_S4194304x2x2_d1
    (ix3 k (1 : Fin 2) e) rfl rfl (ix3 k (0 : Fin 1) e)
    (fun b hb => match b, hb with | ⟨0, _⟩, _ => rfl | ⟨1, _⟩, hb => (hb rfl).elim | ⟨2, _⟩, _ => rfl) rfl).trans ?_
  exact broadcastInDim_apply _ _ _ _ (ix2 k e) (fun a => match a with | ⟨0, _⟩ => rfl | ⟨1, _⟩ => rfl)

/-- Either copy of the image index. -/
theorem imgPair_apply (x : FVec F S16x512x512 .f32) (k : Fin 4194304) (c : Fin 2) :
    imgPair x (ix3 k c (0 : Fin 1)) = imgCol x (ix1 k) := by
  unfold imgPair
  match c with
  | ⟨0, _⟩ =>
    refine (concatenate_pair_apply_left (1 : Fin S4194304x2x1.rank) _ _ concatenates_S4194304x1x1_S4194304x1x1_S4194304x2x1_d1
      (ix3 k (⟨0, _⟩ : Fin 2) (0 : Fin 1)) rfl (ix3 k (0 : Fin 1) (0 : Fin 1))
      (fun b => match b with | ⟨0, _⟩ => rfl | ⟨1, _⟩ => rfl | ⟨2, _⟩ => rfl)).trans ?_
    refine (broadcastInDim_apply _ _ _ _ (ix2 k (0 : Fin 1)) (fun a => match a with | ⟨0, _⟩ => rfl | ⟨1, _⟩ => rfl)).trans ?_
    exact broadcastInDim_apply _ _ _ _ (ix1 k) (fun a => match a with | ⟨0, _⟩ => rfl)
  | ⟨1, _⟩ =>
    refine (concatenate_pair_apply_right (1 : Fin S4194304x2x1.rank) _ _ concatenates_S4194304x1x1_S4194304x1x1_S4194304x2x1_d1
      (ix3 k (⟨1, _⟩ : Fin 2) (0 : Fin 1)) rfl rfl (ix3 k (0 : Fin 1) (0 : Fin 1))
      (fun b hb => match b, hb with | ⟨0, _⟩, _ => rfl | ⟨1, _⟩, hb => (hb rfl).elim | ⟨2, _⟩, _ => rfl) rfl).trans ?_
    refine (broadcastInDim_apply _ _ _ _ (ix2 k (0 : Fin 1)) (fun a => match a with | ⟨0, _⟩ => rfl | ⟨1, _⟩ => rfl)).trans ?_
    exact broadcastInDim_apply _ _ _ _ (ix1 k) (fun a => match a with | ⟨0, _⟩ => rfl)

/-- Column 0 of a row is the image index. -/
theorem rows_zero (x : FVec F S16x512x512 .f32) (k : Fin 4194304) (c : Fin 2) :
    rows x (ix3 k c (0 : Fin 3)) = imgCol x (ix1 k) := by
  unfold rows
  refine (concatenate_pair_apply_left (2 : Fin S4194304x2x3.rank) _ _ concatenates_S4194304x2x1_S4194304x2x2_S4194304x2x3_d2
    (ix3 k c (0 : Fin 3)) rfl (ix3 k c (0 : Fin 1))
    (fun b => match b with | ⟨0, _⟩ => rfl | ⟨1, _⟩ => rfl | ⟨2, _⟩ => rfl)).trans ?_
  exact imgPair_apply x k c

/-- Columns 1 and 2 of a row are the corner's two coordinates. -/
theorem rows_succ (x : FVec F S16x512x512 .f32) (k : Fin 4194304) (c : Fin 2) (e : Fin 2) :
    rows x (ix3 k c (⟨e.val + 1, by omega⟩ : Fin 3)) = corners x (ix3 k c e) := by
  unfold rows
  exact concatenate_pair_apply_right (2 : Fin S4194304x2x3.rank) _ _ concatenates_S4194304x2x1_S4194304x2x2_S4194304x2x3_d2
    (ix3 k c (⟨e.val + 1, by omega⟩ : Fin 3)) rfl rfl (ix3 k c e)
    (fun b hb => match b, hb with | ⟨0, _⟩, _ => rfl | ⟨1, _⟩, _ => rfl | ⟨2, _⟩, hb => (hb rfl).elim) rfl

/-! ## The result at an index -/

/-- The result at `(k, c, d)`: the row's entry while `k` is below the count (signed), else `-1`. -/
theorem refOut_apply (x : FVec F S16x512x512 .f32) (k : Fin 4194304) (c : Fin 2) (d : Fin 3) :
    refOut x (ix3 k c d) = Scalar.select (IntOp.cmpi .slt (BitVec.ofNat 32 k.val) (pCnt x ix0))
      (rows x (ix3 k c d)) 4294967295#32 := by
  have h1 : broadcastInDim S4194304x2x3 ![0, 1, 2] bcast_S4194304x1x1_S4194304x2x3_0_1_2
      (broadcastInDim S4194304x1x1 ![0] bcast_S4194304_S4194304x1x1_0
        (cmpi .slt (iotaInDim S4194304 32 0) (broadcastInDim S4194304 ![] bcast_S_S4194304 (pCnt x)))) (ix3 k c d)
      = IntOp.cmpi .slt (BitVec.ofNat 32 k.val) (pCnt x ix0) := by
    refine (broadcastInDim_apply _ _ _ _ (ix3 k (0 : Fin 1) (0 : Fin 1))
      (fun a => match a with | ⟨0, _⟩ => rfl | ⟨1, _⟩ => rfl | ⟨2, _⟩ => rfl)).trans ?_
    refine (broadcastInDim_apply _ _ _ _ (ix1 k) (fun a => match a with | ⟨0, _⟩ => rfl)).trans ?_
    show IntOp.cmpi .slt (BitVec.ofNat 32 k.val) (broadcastInDim S4194304 ![] bcast_S_S4194304 (pCnt x) (ix1 k)) = _
    rw [broadcastInDim_scalar_apply]
  unfold refOut
  rw [select_apply, h1, broadcastInDim_scalar_apply]
  rfl

/-- A live row's entries are the bit fields of its word, offset by 16 down and up. -/
theorem rows_live (x : FVec F S16x512x512 .f32) (k : Fin 4194304) (c : Fin 2) (d : Fin 3)
    (h : IntOp.cmpi .slt (BitVec.ofNat 32 k.val) (pCnt x ix0) = 1#1) :
    rows x (ix3 k c d) = Cert.Spec.entry (pW x (ix1 k)) c d := by
  have hs : ¬ IntOp.cmpi .sge (BitVec.ofNat 32 k.val) (pCnt x ix0) = 1#1 :=
    fun hs => (Cert.WordMath.sge_iff_not_slt _ _).mp hs h
  have hi : imgCol x (ix1 k) = Cert.Spec.bOf (pW x (ix1 k)) := by
    rw [imgCol_apply, eq_zero_of_ne_one hs, select_zero]; exact Cert.WordMath.ref_b _
  have hp : pixCol x (ix1 k) = Cert.WordMath.frem (Cert.WordMath.fdiv (pW x (ix1 k)) 1#32) 262144#32 := by
    rw [pixCol_apply, eq_zero_of_ne_one hs, select_zero]
  have hx : xyCols x (ix2 k (0 : Fin 2)) = Cert.Spec.xOf (pW x (ix1 k)) := by
    rw [xyCols_zero, hp]; exact Cert.WordMath.ref_x _
  have hy : xyCols x (ix2 k (1 : Fin 2)) = Cert.Spec.yOf (pW x (ix1 k)) := by
    rw [xyCols_one, hp]; exact Cert.WordMath.ref_y _
  match c, d with
  | ⟨0, _⟩, ⟨0, _⟩ => exact (rows_zero x k _).trans hi
  | ⟨1, _⟩, ⟨0, _⟩ => exact (rows_zero x k _).trans hi
  | ⟨0, _⟩, ⟨1, _⟩ => exact (rows_succ x k _ 0).trans ((corners_lo x k 0).trans (by rw [hx]; rfl))
  | ⟨0, _⟩, ⟨2, _⟩ => exact (rows_succ x k _ 1).trans ((corners_lo x k 1).trans (by rw [hy]; rfl))
  | ⟨1, _⟩, ⟨1, _⟩ =>
    exact (rows_succ x k _ 0).trans ((corners_hi x k 0).trans (by rw [hx]; exact BitVec.add_zero _))
  | ⟨1, _⟩, ⟨2, _⟩ =>
    exact (rows_succ x k _ 1).trans ((corners_hi x k 1).trans (by rw [hy]; exact BitVec.add_zero _))

/-- The program's composed term is the shared row-word array. -/
theorem refOut_eq (x : FVec F S16x512x512 .f32) : refOut x = Cert.Spec.out x := by
  funext j
  obtain ⟨k, c, d, rfl⟩ : ∃ (k : Fin 4194304) (c : Fin 2) (d : Fin 3), j = ix3 k c d :=
    ⟨j 0, j 1, j 2, eq_ix3 j⟩
  rw [refOut_apply]
  show _ = Cert.Spec.rowWord (Cert.Spec.W x (ix1 k)) (Cert.Spec.cnt2 x ix0) k.val c d
  rw [← pW_eq x, ← pCnt_eq x]
  unfold Cert.Spec.rowWord
  by_cases hl : (BitVec.ofNat 32 k.val).slt (pCnt x ix0) = true
  · have h1 := (Cert.WordMath.slt_eq_one_iff (BitVec.ofNat 32 k.val) (pCnt x ix0)).mpr hl
    rw [if_pos hl, h1, select_one]
    exact rows_live x k c d h1
  · have h0 : ¬ IntOp.cmpi .slt (BitVec.ofNat 32 k.val) (pCnt x ix0) = 1#1 :=
      fun h => hl ((Cert.WordMath.slt_eq_one_iff _ _).mp h)
    rw [if_neg hl, eq_zero_of_ne_one h0, select_zero]

end Cert.ReferenceIdeal.Hand

end
-- ==== Proof.RefOps.lean ====
/- The reference program's @main as consecutive LISTS of its 194 operations, each func.call's body written out at
   the call site over that call's buffer record (a transcription of proof/ReferenceIdeal.lean, no proof step), with,
   per list, the fact that each operation touches TensorCore references only. The lists are cut before every
   concatenate, at the end of each printed window of @main, and after each value a later stretch reads more than once
   (the two running sums and the histogram between them, each floor quotient and floor remainder, the filled columns):
   main_v3, main_v13, main_v14, main_v15, main_v16, main_v17, main_v18, main_v25, main_v26. -/
import proofs.«422792_j8924942041139_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- Operations 1 … 9 of 194, in order. -/
abbrev ops0 : List (HloOp τ sig (Elt F)) :=
  [ StableHlo.reshape main_arg0 main_v0 rfl shapeCasts_S16x512x512_S16x262144,
    StableHlo.nullary main_cst (constant S_ .f32 0x3F000000#32),
    StableHlo.unary main_cst main_v1 (broadcastInDim S16x262144 ![] bcast_S_S16x262144 : (⟨S_, .f32⟩ : BufTy).Contents (Elt F) → (⟨S16x262144, .f32⟩ : BufTy).Contents (Elt F)),
    StableHlo.binary main_v0 main_v1 main_v2 (cmpf .ogt : (⟨S16x262144, .f32⟩ : BufTy).Contents (Elt F) → (⟨S16x262144, .f32⟩ : BufTy).Contents (Elt F) → (⟨S16x262144, .i1⟩ : BufTy).Contents (Elt F)),
    StableHlo.TRef.reshape (.of main_v2 : StableHlo.TRef sig ⟨S16x262144, .i1⟩) (.of main_call0_v0 : StableHlo.TRef sig ⟨S4194304, .i1⟩) rfl shapeCasts_S16x262144_S4194304,
    StableHlo.TRef.unary (.of main_call0_v0 : StableHlo.TRef sig ⟨S4194304, .i1⟩) (.of main_call0_v1 : StableHlo.TRef sig ⟨S4194304, .i32⟩) (extui 32 · natLt_1_32),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_call0_v1 : StableHlo.TRef sig ⟨S4194304, .i32⟩) (.of main_call0_call0_v0 : StableHlo.TRef sig ⟨S_, .i32⟩) (.of main_v3 : StableHlo.TRef sig ⟨S4194304, .i32⟩) (fun x v => Host.reduceWindow IntOp.addi ![4194304] ![1] ![4194303] ![0] x v reduceWindows_S4194304_S4194304_w4194304s1p4194303_0 h_S_) ]
theorem ops0_sub : (ops0 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub ..⟩

/-- Operations 10 … 26 of 194, in order. -/
abbrev ops1 : List (HloOp τ sig (Elt F)) :=
  [ StableHlo.nullary main_c (constantI S_ 32 0#32),
    StableHlo.unary main_c main_v4 (broadcastInDim S4194304 ![] bcast_S_S4194304 : (⟨S_, .i32⟩ : BufTy).Contents (Elt F) → (⟨S4194304, .i32⟩ : BufTy).Contents (Elt F)),
    StableHlo.nullary main_c_0 (constantI S_ 32 0#32),
    StableHlo.TRef.unary (.of main_c_0 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S4194304, .i32⟩) (broadcastInDim S4194304 ![] bcast_S_S4194304),
    StableHlo.TRef.binary (.of main_call1_v1 : StableHlo.TRef sig ⟨S4194304, .i32⟩) (.of main_v3 : StableHlo.TRef sig ⟨S4194304, .i32⟩) (.of main_v5 : StableHlo.TRef sig ⟨S4194304, .i32⟩) maxsi,
    StableHlo.nullary main_c_1 (constantI S_ 32 0#32),
    StableHlo.unary main_c_1 main_v6 (broadcastInDim S4194304 ![] bcast_S_S4194304 : (⟨S_, .i32⟩ : BufTy).Contents (Elt F) → (⟨S4194304, .i32⟩ : BufTy).Contents (Elt F)),
    StableHlo.binary main_v5 main_v6 main_v7 (cmpi .slt : (⟨S4194304, .i32⟩ : BufTy).Contents (Elt F) → (⟨S4194304, .i32⟩ : BufTy).Contents (Elt F) → (⟨S4194304, .i1⟩ : BufTy).Contents (Elt F)),
    StableHlo.nullary main_c_2 (constantI S_ 32 4194304#32),
    StableHlo.unary main_c_2 main_v8 (broadcastInDim S4194304 ![] bcast_S_S4194304 : (⟨S_, .i32⟩ : BufTy).Contents (Elt F) → (⟨S4194304, .i32⟩ : BufTy).Contents (Elt F)),
    StableHlo.binary main_v5 main_v8 main_v9 (addi : (⟨S4194304, .i32⟩ : BufTy).Contents (Elt F) → (⟨S4194304, .i32⟩ : BufTy).Contents (Elt F) → (⟨S4194304, .i32⟩ : BufTy).Contents (Elt F)),
    StableHlo.ternary main_v7 main_v9 main_v5 main_v10 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v10 main_v11 (broadcastInDim S4194304x1 ![0] bcast_S4194304_S4194304x1_0 : (⟨S4194304, .i32⟩ : BufTy).Contents (Elt F) → (⟨S4194304x1, .i32⟩ : BufTy).Contents (Elt F)),
    StableHlo.nullary main_c_3 (constantI S_ 32 1#32),
    StableHlo.unary main_c_3 main_v12 (broadcastInDim S4194304 ![] bcast_S_S4194304 : (⟨S_, .i32⟩ : BufTy).Contents (Elt F) → (⟨S4194304, .i32⟩ : BufTy).Contents (Elt F)),
    StableHlo.ternary main_v4 main_v11 main_v12 main_v13 ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)) ]
theorem ops1_sub : (ops1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩

/-- Operations 27 … 29 of 194, in order. -/
abbrev ops2 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v13 : StableHlo.TRef sig ⟨S4194304, .i32⟩) (.of main_call2_call0_v0 : StableHlo.TRef sig ⟨S_, .i32⟩) (.of main_v14 : StableHlo.TRef sig ⟨S4194304, .i32⟩) (fun x v => Host.reduceWindow IntOp.addi ![4194304] ![1] ![4194303] ![0] x v reduceWindows_S4194304_S4194304_w4194304s1p4194303_0 h_S_) ]
theorem ops2_sub : (ops2 : List (HloOp τ sig (Elt F))).Forall fun op => op.bufs ⊆ StableHlo.tcRefs τ sig :=
  ⟨StableHlo.nullary_bufs_sub .., StableHlo.unary_bufs_sub .., StableHlo.binary_bufs_sub ..⟩

/-- Operations 30 … 46 of 194, in order. -/
abbrev ops3 : List (HloOp τ sig (Elt F)) :=
  [ StableHlo.nullary main_c_4 (constantI S_ 32 262144#32),
    StableHlo.TRef.unary (.of main_c_4 : StableHlo.TRef sig ⟨S_, .i32⟩) (.of main_call3_v0 : StableHlo.TRef sig ⟨S4194304, .i32⟩) (broadcastInDim S4194304 ![] bcast_S_S4194304),
    StableHlo.TRef.binary (.of main_v14 : StableHlo.TRef sig ⟨S4194304, .i32⟩) (.of main_call3_v0 : StableHlo.TRef sig ⟨S4194304, .i32⟩) (.of main_call3_v1 : StableHlo.TRef sig ⟨S4194304, .i32⟩) Host.divsi,
    StableHlo.TRef.unary (.of main_v14 : StableHlo.TRef sig ⟨S4194304, .i32⟩) (.of main_call3_v2 : StableHlo.TRef sig ⟨S4194304, .i32⟩) signi,
    StableHlo.TRef.unary (.of main_c_4 : StableHlo.TRef sig ⟨S_, .i32⟩) (.of main_call3_v3 : StableHlo.TRef sig ⟨S_, .i32⟩) signi,
    StableHlo.TRef.unary (.of main_call3_v3 : StableHlo.TRef sig ⟨S_, .i32⟩) (.of main_call3_v4 : StableHlo.TRef sig ⟨S4194304, .i32⟩) (broadcastInDim S4194304 ![] bcast_S_S4194304),
    StableHlo.TRef.binary (.of main_call3_v2 : StableHlo.TRef sig ⟨S4194304, .i32⟩) (.of main_call3_v4 : StableHlo.TRef sig ⟨S4194304, .i32⟩) (.of main_call3_v5 : StableHlo.TRef sig ⟨S4194304, .i1⟩) (cmpi .ne),
    StableHlo.TRef.unary (.of main_c_4 : StableHlo.TRef sig ⟨S_, .i32⟩) (.of main_call3_v6 : StableHlo.TRef sig ⟨S4194304, .i32⟩) (broadcastInDim S4194304 ![] bcast_S_S4194304),
    StableHlo.TRef.binary (.of main_v14 : StableHlo.TRef sig ⟨S4194304, .i32⟩) (.of main_call3_v6 : StableHlo.TRef sig ⟨S4194304, .i32⟩) (.of main_call3_v7 : StableHlo.TRef sig ⟨S4194304, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v8 : StableHlo.TRef sig ⟨S4194304, .i32⟩) (broadcastInDim S4194304 ![] bcast_S_S4194304),
    StableHlo.TRef.binary (.of main_call3_v7 : StableHlo.TRef sig ⟨S4194304, .i32⟩) (.of main_call3_v8 : StableHlo.TRef sig ⟨S4194304, .i32⟩) (.of main_call3_v9 : StableHlo.TRef sig ⟨S4194304, .i1⟩) (cmpi .ne),
    StableHlo.TRef.binary (.of main_call3_v5 : StableHlo.TRef sig ⟨S4194304, .i1⟩) (.of main_call3_v9 : StableHlo.TRef sig ⟨S4194304, .i1⟩) (.of main_call3_v10 : StableHlo.TRef sig ⟨S4194304, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v11 : StableHlo.TRef sig ⟨S4194304, .i32⟩) (broadcastInDim S4194304 ![] bcast_S_S4194304),
    StableHlo.TRef.binary (.of main_call3_v1 : StableHlo.TRef sig ⟨S4194304, .i32⟩) (.of main_call3_v11 : StableHlo.TRef sig ⟨S4194304, .i32⟩) (.of main_call3_v12 : StableHlo.TRef sig ⟨S4194304, .i32⟩) subi,
    StableHlo.TRef.ternary (.of main_call3_v10 : StableHlo.TRef sig ⟨S4194304, .i1⟩) (.of main_call3_v12 : StableHlo.TRef sig ⟨S4194304, .i32⟩) (.of main_call3_v1 : StableHlo.TRef sig ⟨S4194304, .i32⟩) (.of main_v15 : StableHlo.TRef sig ⟨S4194304, .i32⟩) select ]
theorem ops3_sub : (ops3 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- Operations 47 … 68 of 194, in order. -/
abbrev ops4 : List (HloOp τ sig (Elt F)) :=
  [ StableHlo.nullary main_c_5 (constantI S_ 32 16#32),
    StableHlo.TRef.unary (.of main_c_5 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary (.of main_call4_v2 : StableHlo.TRef sig ⟨S_, .i32⟩) (.of main_call4_v3 : StableHlo.TRef sig ⟨S4194304, .i32⟩) (broadcastInDim S4194304 ![] bcast_S_S4194304),
    StableHlo.TRef.binary (.of main_v15 : StableHlo.TRef sig ⟨S4194304, .i32⟩) (.of main_call4_v3 : StableHlo.TRef sig ⟨S4194304, .i32⟩) (.of main_call4_v4 : StableHlo.TRef sig ⟨S4194304, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S4194304, .i32⟩) (broadcastInDim S4194304 ![] bcast_S_S4194304),
    StableHlo.TRef.binary (.of main_call4_v4 : StableHlo.TRef sig ⟨S4194304, .i32⟩) (.of main_call4_v5 : StableHlo.TRef sig ⟨S4194304, .i32⟩) (.of main_call4_v6 : StableHlo.TRef sig ⟨S4194304, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S4194304, .i32⟩) (broadcastInDim S4194304 ![] bcast_S_S4194304),
    StableHlo.TRef.binary (.of main_call4_v4 : StableHlo.TRef sig ⟨S4194304, .i32⟩) (.of main_call4_v7 : StableHlo.TRef sig ⟨S4194304, .i32⟩) (.of main_call4_v8 : StableHlo.TRef sig ⟨S4194304, .i1⟩) (cmpi .slt),
    StableHlo.TRef.nullary (.of main_call4_c_3 : StableHlo.TRef sig ⟨S_, .i32⟩) (constantI S_ 32 0#32),
    StableHlo.TRef.binary (.of main_call4_v2 : StableHlo.TRef sig ⟨S_, .i32⟩) (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S4194304, .i1⟩) (broadcastInDim S4194304 ![] bcast_S_S4194304),
    StableHlo.TRef.binary (.of main_call4_v8 : StableHlo.TRef sig ⟨S4194304, .i1⟩) (.of main_call4_v10 : StableHlo.TRef sig ⟨S4194304, .i1⟩) (.of main_call4_v11 : StableHlo.TRef sig ⟨S4194304, .i1⟩) (cmpi .ne),
    StableHlo.TRef.binary (.of main_call4_v11 : StableHlo.TRef sig ⟨S4194304, .i1⟩) (.of main_call4_v6 : StableHlo.TRef sig ⟨S4194304, .i1⟩) (.of main_call4_v12 : StableHlo.TRef sig ⟨S4194304, .i1⟩) andi,
    StableHlo.TRef.unary (.of main_call4_v2 : StableHlo.TRef sig ⟨S_, .i32⟩) (.of main_call4_v13 : StableHlo.TRef sig ⟨S4194304, .i32⟩) (broadcastInDim S4194304 ![] bcast_S_S4194304),
    StableHlo.TRef.binary (.of main_call4_v4 : StableHlo.TRef sig ⟨S4194304, .i32⟩) (.of main_call4_v13 : StableHlo.TRef sig ⟨S4194304, .i32⟩) (.of main_call4_v14 : StableHlo.TRef sig ⟨S4194304, .i32⟩) addi,
    StableHlo.TRef.ternary (.of main_call4_v12 : StableHlo.TRef sig ⟨S4194304, .i1⟩) (.of main_call4_v14 : StableHlo.TRef sig ⟨S4194304, .i32⟩) (.of main_call4_v4 : StableHlo.TRef sig ⟨S4194304, .i32⟩) (.of main_v16 : StableHlo.TRef sig ⟨S4194304, .i32⟩) select ]
theorem ops4_sub : (ops4 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- Operations 69 … 85 of 194, in order. -/
abbrev ops5 : List (HloOp τ sig (Elt F)) :=
  [ StableHlo.nullary main_c_6 (constantI S_ 32 1#32),
    StableHlo.TRef.unary (.of main_c_6 : StableHlo.TRef sig ⟨S_, .i32⟩) (.of main_call5_v0 : StableHlo.TRef sig ⟨S4194304, .i32⟩) (broadcastInDim S4194304 ![] bcast_S_S4194304),
    StableHlo.TRef.binary (.of main_v14 : StableHlo.TRef sig ⟨S4194304, .i32⟩) (.of main_call5_v0 : StableHlo.TRef sig ⟨S4194304, .i32⟩) (.of main_call5_v1 : StableHlo.TRef sig ⟨S4194304, .i32⟩) Host.divsi,
    StableHlo.TRef.unary (.of main_v14 : StableHlo.TRef sig ⟨S4194304, .i32⟩) (.of main_call5_v2 : StableHlo.TRef sig ⟨S4194304, .i32⟩) signi,
    StableHlo.TRef.unary (.of main_c_6 : StableHlo.TRef sig ⟨S_, .i32⟩) (.of main_call5_v3 : StableHlo.TRef sig ⟨S_, .i32⟩) signi,
    StableHlo.TRef.unary (.of main_call5_v3 : StableHlo.TRef sig ⟨S_, .i32⟩) (.of main_call5_v4 : StableHlo.TRef sig ⟨S4194304, .i32⟩) (broadcastInDim S4194304 ![] bcast_S_S4194304),
    StableHlo.TRef.binary (.of main_call5_v2 : StableHlo.TRef sig ⟨S4194304, .i32⟩) (.of main_call5_v4 : StableHlo.TRef sig ⟨S4194304, .i32⟩) (.of main_call5_v5 : StableHlo.TRef sig ⟨S4194304, .i1⟩) (cmpi .ne),
    StableHlo.TRef.unary (.of main_c_6 : StableHlo.TRef sig ⟨S_, .i32⟩) (.of main_call5_v6 : StableHlo.TRef sig ⟨S4194304, .i32⟩) (broadcastInDim S4194304 ![] bcast_S_S4194304),
    StableHlo.TRef.binary (.of main_v14 : StableHlo.TRef sig ⟨S4194304, .i32⟩) (.of main_call5_v6 : StableHlo.TRef sig ⟨S4194304, .i32⟩) (.of main_call5_v7 : StableHlo.TRef sig ⟨S4194304, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v8 : StableHlo.TRef sig ⟨S4194304, .i32⟩) (broadcastInDim S4194304 ![] bcast_S_S4194304),
    StableHlo.TRef.binary (.of main_call5_v7 : StableHlo.TRef sig ⟨S4194304, .i32⟩) (.of main_call5_v8 : StableHlo.TRef sig ⟨S4194304, .i32⟩) (.of main_call5_v9 : StableHlo.TRef sig ⟨S4194304, .i1⟩) (cmpi .ne),
    StableHlo.TRef.binary (.of main_call5_v5 : StableHlo.TRef sig ⟨S4194304, .i1⟩) (.of main_call5_v9 : StableHlo.TRef sig ⟨S4194304, .i1⟩) (.of main_call5_v10 : StableHlo.TRef sig ⟨S4194304, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v11 : StableHlo.TRef sig ⟨S4194304, .i32⟩) (broadcastInDim S4194304 ![] bcast_S_S4194304),
    StableHlo.TRef.binary (.of main_call5_v1 : StableHlo.TRef sig ⟨S4194304, .i32⟩) (.of main_call5_v11 : StableHlo.TRef sig ⟨S4194304, .i32⟩) (.of main_call5_v12 : StableHlo.TRef sig ⟨S4194304, .i32⟩) subi,
    StableHlo.TRef.ternary (.of main_call5_v10 : StableHlo.TRef sig ⟨S4194304, .i1⟩) (.of main_call5_v12 : StableHlo.TRef sig ⟨S4194304, .i32⟩) (.of main_call5_v1 : StableHlo.TRef sig ⟨S4194304, .i32⟩) (.of main_v17 : StableHlo.TRef sig ⟨S4194304, .i32⟩) select ]
theorem ops5_sub : (ops5 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- Operations 86 … 107 of 194, in order. -/
abbrev ops6 : List (HloOp τ sig (Elt F)) :=
  [ StableHlo.nullary main_c_7 (constantI S_ 32 262144#32),
    StableHlo.TRef.unary (.of main_c_7 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary (.of main_call6_v2 : StableHlo.TRef sig ⟨S_, .i32⟩) (.of main_call6_v3 : StableHlo.TRef sig ⟨S4194304, .i32⟩) (broadcastInDim S4194304 ![] bcast_S_S4194304),
    StableHlo.TRef.binary (.of main_v17 : StableHlo.TRef sig ⟨S4194304, .i32⟩) (.of main_call6_v3 : StableHlo.TRef sig ⟨S4194304, .i32⟩) (.of main_call6_v4 : StableHlo.TRef sig ⟨S4194304, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S4194304, .i32⟩) (broadcastInDim S4194304 ![] bcast_S_S4194304),
    StableHlo.TRef.binary (.of main_call6_v4 : StableHlo.TRef sig ⟨S4194304, .i32⟩) (.of main_call6_v5 : StableHlo.TRef sig ⟨S4194304, .i32⟩) (.of main_call6_v6 : StableHlo.TRef sig ⟨S4194304, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S4194304, .i32⟩) (broadcastInDim S4194304 ![] bcast_S_S4194304),
    StableHlo.TRef.binary (.of main_call6_v4 : StableHlo.TRef sig ⟨S4194304, .i32⟩) (.of main_call6_v7 : StableHlo.TRef sig ⟨S4194304, .i32⟩) (.of main_call6_v8 : StableHlo.TRef sig ⟨S4194304, .i1⟩) (cmpi .slt),
    StableHlo.TRef.nullary (.of main_call6_c_3 : StableHlo.TRef sig ⟨S_, .i32⟩) (constantI S_ 32 0#32),
    StableHlo.TRef.binary (.of main_call6_v2 : StableHlo.TRef sig ⟨S_, .i32⟩) (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S4194304, .i1⟩) (broadcastInDim S4194304 ![] bcast_S_S4194304),
    StableHlo.TRef.binary (.of main_call6_v8 : StableHlo.TRef sig ⟨S4194304, .i1⟩) (.of main_call6_v10 : StableHlo.TRef sig ⟨S4194304, .i1⟩) (.of main_call6_v11 : StableHlo.TRef sig ⟨S4194304, .i1⟩) (cmpi .ne),
    StableHlo.TRef.binary (.of main_call6_v11 : StableHlo.TRef sig ⟨S4194304, .i1⟩) (.of main_call6_v6 : StableHlo.TRef sig ⟨S4194304, .i1⟩) (.of main_call6_v12 : StableHlo.TRef sig ⟨S4194304, .i1⟩) andi,
    StableHlo.TRef.unary (.of main_call6_v2 : StableHlo.TRef sig ⟨S_, .i32⟩) (.of main_call6_v13 : StableHlo.TRef sig ⟨S4194304, .i32⟩) (broadcastInDim S4194304 ![] bcast_S_S4194304),
    StableHlo.TRef.binary (.of main_call6_v4 : StableHlo.TRef sig ⟨S4194304, .i32⟩) (.of main_call6_v13 : StableHlo.TRef sig ⟨S4194304, .i32⟩) (.of main_call6_v14 : StableHlo.TRef sig ⟨S4194304, .i32⟩) addi,
    StableHlo.TRef.ternary (.of main_call6_v12 : StableHlo.TRef sig ⟨S4194304, .i1⟩) (.of main_call6_v14 : StableHlo.TRef sig ⟨S4194304, .i32⟩) (.of main_call6_v4 : StableHlo.TRef sig ⟨S4194304, .i32⟩) (.of main_v18 : StableHlo.TRef sig ⟨S4194304, .i32⟩) select ]
theorem ops6_sub : (ops6 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- Operations 108 … 121 of 194, in order. -/
abbrev ops7 : List (HloOp τ sig (Elt F)) :=
  [ StableHlo.nullary main_v19 (iotaInDim S4194304 32 0),
    StableHlo.unary main_v2 main_v20 ((extui 32 · natLt_1_32) : (⟨S16x262144, .i1⟩ : BufTy).Contents (Elt F) → (⟨S16x262144, .i32⟩ : BufTy).Contents (Elt F)),
    StableHlo.nullary main_c_8 (constantI S_ 32 0#32),
    StableHlo.binary main_v20 main_c_8 main_v21 ((fun x v => Host.reduce IntOp.addi x v reducesTo_S16x262144_S_d0_1 h_S_) : (⟨S16x262144, .i32⟩ : BufTy).Contents (Elt F) → (⟨S_, .i32⟩ : BufTy).Contents (Elt F) → (⟨S_, .i32⟩ : BufTy).Contents (Elt F)),
    StableHlo.unary main_v21 main_v22 (broadcastInDim S4194304 ![] bcast_S_S4194304 : (⟨S_, .i32⟩ : BufTy).Contents (Elt F) → (⟨S4194304, .i32⟩ : BufTy).Contents (Elt F)),
    StableHlo.binary main_v19 main_v22 main_v23 (cmpi .sge : (⟨S4194304, .i32⟩ : BufTy).Contents (Elt F) → (⟨S4194304, .i32⟩ : BufTy).Contents (Elt F) → (⟨S4194304, .i1⟩ : BufTy).Contents (Elt F)),
    StableHlo.nullary main_c_9 (constantI S_ 32 0#32),
    StableHlo.TRef.unary (.of main_c_9 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S4194304, .i32⟩) (broadcastInDim S4194304 ![] bcast_S_S4194304),
    StableHlo.TRef.ternary (.of main_v23 : StableHlo.TRef sig ⟨S4194304, .i1⟩) (.of main_call7_v1 : StableHlo.TRef sig ⟨S4194304, .i32⟩) (.of main_v16 : StableHlo.TRef sig ⟨S4194304, .i32⟩) (.of main_v24 : StableHlo.TRef sig ⟨S4194304, .i32⟩) select,
    StableHlo.nullary main_c_10 (constantI S_ 32 0#32),
    StableHlo.TRef.unary (.of main_c_10 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S4194304, .i32⟩) (broadcastInDim S4194304 ![] bcast_S_S4194304),
    StableHlo.TRef.ternary (.of main_v23 : StableHlo.TRef sig ⟨S4194304, .i1⟩) (.of main_call8_v1 : StableHlo.TRef sig ⟨S4194304, .i32⟩) (.of main_v18 : StableHlo.TRef sig ⟨S4194304, .i32⟩) (.of main_v25 : StableHlo.TRef sig ⟨S4194304, .i32⟩) select ]
theorem ops7_sub : (ops7 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub ..⟩

/-- Operations 122 … 139 of 194, in order. -/
abbrev ops8 : List (HloOp τ sig (Elt F)) :=
  [ StableHlo.nullary main_c_11 (constantI S_ 32 512#32),
    StableHlo.TRef.unary (.of main_c_11 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S4194304, .i32⟩) (broadcastInDim S4194304 ![] bcast_S_S4194304),
    StableHlo.TRef.binary (.of main_v25 : StableHlo.TRef sig ⟨S4194304, .i32⟩) (.of main_call9_v1 : StableHlo.TRef sig ⟨S4194304, .i32⟩) (.of main_call9_v2 : StableHlo.TRef sig ⟨S4194304, .i32⟩) Host.divsi,
    StableHlo.TRef.unary (.of main_v25 : StableHlo.TRef sig ⟨S4194304, .i32⟩) (.of main_call9_v3 : StableHlo.TRef sig ⟨S4194304, .i32⟩) signi,
    StableHlo.TRef.unary (.of main_call9_v0 : StableHlo.TRef sig ⟨S_, .i32⟩) (.of main_call9_v4 : StableHlo.TRef sig ⟨S_, .i32⟩) signi,
    StableHlo.TRef.unary (.of main_call9_v4 : StableHlo.TRef sig ⟨S_, .i32⟩) (.of main_call9_v5 : StableHlo.TRef sig ⟨S4194304, .i32⟩) (broadcastInDim S4194304 ![] bcast_S_S4194304),
    StableHlo.TRef.binary (.of main_call9_v3 : StableHlo.TRef sig ⟨S4194304, .i32⟩) (.of main_call9_v5 : StableHlo.TRef sig ⟨S4194304, .i32⟩) (.of main_call9_v6 : StableHlo.TRef sig ⟨S4194304, .i1⟩) (cmpi .ne),
    StableHlo.TRef.unary (.of main_call9_v0 : StableHlo.TRef sig ⟨S_, .i32⟩) (.of main_call9_v7 : StableHlo.TRef sig ⟨S4194304, .i32⟩) (broadcastInDim S4194304 ![] bcast_S_S4194304),
    StableHlo.TRef.binary (.of main_v25 : StableHlo.TRef sig ⟨S4194304, .i32⟩) (.of main_call9_v7 : StableHlo.TRef sig ⟨S4194304, .i32⟩) (.of main_call9_v8 : StableHlo.TRef sig ⟨S4194304, .i32⟩) Host.remsi,
    StableHlo.TRef.nullary (.of main_call9_c : StableHlo.TRef sig ⟨S_, .i32⟩) (constantI S_ 32 0#32),
    StableHlo.TRef.unary (.of main_call9_c : StableHlo.TRef sig ⟨S_, .i32⟩) (.of main_call9_v9 : StableHlo.TRef sig ⟨S4194304, .i32⟩) (broadcastInDim S4194304 ![] bcast_S_S4194304),
    StableHlo.TRef.binary (.of main_call9_v8 : StableHlo.TRef sig ⟨S4194304, .i32⟩) (.of main_call9_v9 : StableHlo.TRef sig ⟨S4194304, .i32⟩) (.of main_call9_v10 : StableHlo.TRef sig ⟨S4194304, .i1⟩) (cmpi .ne),
    StableHlo.TRef.binary (.of main_call9_v6 : StableHlo.TRef sig ⟨S4194304, .i1⟩) (.of main_call9_v10 : StableHlo.TRef sig ⟨S4194304, .i1⟩) (.of main_call9_v11 : StableHlo.TRef sig ⟨S4194304, .i1⟩) andi,
    StableHlo.TRef.nullary (.of main_call9_c_0 : StableHlo.TRef sig ⟨S_, .i32⟩) (constantI S_ 32 1#32),
    StableHlo.TRef.unary (.of main_call9_c_0 : StableHlo.TRef sig ⟨S_, .i32⟩) (.of main_call9_v12 : StableHlo.TRef sig ⟨S4194304, .i32⟩) (broadcastInDim S4194304 ![] bcast_S_S4194304),
    StableHlo.TRef.binary (.of main_call9_v2 : StableHlo.TRef sig ⟨S4194304, .i32⟩) (.of main_call9_v12 : StableHlo.TRef sig ⟨S4194304, .i32⟩) (.of main_call9_v13 : StableHlo.TRef sig ⟨S4194304, .i32⟩) subi,
    StableHlo.TRef.ternary (.of main_call9_v11 : StableHlo.TRef sig ⟨S4194304, .i1⟩) (.of main_call9_v13 : StableHlo.TRef sig ⟨S4194304, .i32⟩) (.of main_call9_v2 : StableHlo.TRef sig ⟨S4194304, .i32⟩) (.of main_v26 : StableHlo.TRef sig ⟨S4194304, .i32⟩) select ]
theorem ops8_sub : (ops8 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- Operations 140 … 163 of 194, in order. -/
abbrev ops9 : List (HloOp τ sig (Elt F)) :=
  [ StableHlo.nullary main_c_12 (constantI S_ 32 512#32),
    StableHlo.TRef.unary (.of main_c_12 : StableHlo.TRef sig ⟨S_, .i32⟩) (.of main_call10_v0 : StableHlo.TRef sig ⟨S_, .i32⟩) id,
    StableHlo.TRef.nullary (.of main_call10_c : StableHlo.TRef sig ⟨S_, .i32⟩) (constantI S_ 32 0#32),
    StableHlo.TRef.binary (.of main_call10_v0 : StableHlo.TRef sig ⟨S_, .i32⟩) (.of main_call10_c : StableHlo.TRef sig ⟨S_, .i32⟩) (.of main_call10_v1 : StableHlo.TRef sig ⟨S_, .i1⟩) (cmpi .eq),
    StableHlo.TRef.nullary (.of main_call10_c_0 : StableHlo.TRef sig ⟨S_, .i32⟩) (constantI S_ 32 1#32),
    StableHlo.TRef.ternary (.of main_call10_v1 : StableHlo.TRef sig ⟨S_, .i1⟩) (.of main_call10_c_0 : StableHlo.TRef sig ⟨S_, .i32⟩) (.of main_call10_v0 : StableHlo.TRef sig ⟨S_, .i32⟩) (.of main_call10_v2 : StableHlo.TRef sig ⟨S_, .i32⟩) select,
    StableHlo.TRef.unary (.of main_call10_v2 : StableHlo.TRef sig ⟨S_, .i32⟩) (.of main_call10_v3 : StableHlo.TRef sig ⟨S4194304, .i32⟩) (broadcastInDim S4194304 ![] bcast_S_S4194304),
    StableHlo.TRef.binary (.of main_v25 : StableHlo.TRef sig ⟨S4194304, .i32⟩) (.of main_call10_v3 : StableHlo.TRef sig ⟨S4194304, .i32⟩) (.of main_call10_v4 : StableHlo.TRef sig ⟨S4194304, .i32⟩) Host.remsi,
    StableHlo.TRef.nullary (.of main_call10_c_1 : StableHlo.TRef sig ⟨S_, .i32⟩) (constantI S_ 32 0#32),
    StableHlo.TRef.unary (.of main_call10_c_1 : StableHlo.TRef sig ⟨S_, .i32⟩) (.of main_call10_v5 : StableHlo.TRef sig ⟨S4194304, .i32⟩) (broadcastInDim S4194304 ![] bcast_S_S4194304),
    StableHlo.TRef.binary (.of main_call10_v4 : StableHlo.TRef sig ⟨S4194304, .i32⟩) (.of main_call10_v5 : StableHlo.TRef sig ⟨S4194304, .i32⟩) (.of main_call10_v6 : StableHlo.TRef sig ⟨S4194304, .i1⟩) (cmpi .ne),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v7 : StableHlo.TRef sig ⟨S4194304, .i32⟩) (broadcastInDim S4194304 ![] bcast_S_S4194304),
    StableHlo.TRef.binary (.of main_call10_v4 : StableHlo.TRef sig ⟨S4194304, .i32⟩) (.of main_call10_v7 : StableHlo.TRef sig ⟨S4194304, .i32⟩) (.of main_call10_v8 : StableHlo.TRef sig ⟨S4194304, .i1⟩) (cmpi .slt),
    StableHlo.TRef.nullary (.of main_call10_c_3 : StableHlo.TRef sig ⟨S_, .i32⟩) (constantI S_ 32 0#32),
    StableHlo.TRef.binary (.of main_call10_v2 : StableHlo.TRef sig ⟨S_, .i32⟩) (.of main_call10_c_3 : StableHlo.TRef sig ⟨S_, .i32⟩) (.of main_call10_v9 : StableHlo.TRef sig ⟨S_, .i1⟩) (cmpi .slt),
    StableHlo.TRef.unary (.of main_call10_v9 : StableHlo.TRef sig ⟨S_, .i1⟩) (.of main_call10_v10 : StableHlo.TRef sig ⟨S4194304, .i1⟩) (broadcastInDim S4194304 ![] bcast_S_S4194304),
    StableHlo.TRef.binary (.of main_call10_v8 : StableHlo.TRef sig ⟨S4194304, .i1⟩) (.of main_call10_v10 : StableHlo.TRef sig ⟨S4194304, .i1⟩) (.of main_call10_v11 : StableHlo.TRef sig ⟨S4194304, .i1⟩) (cmpi .ne),
    StableHlo.TRef.binary (.of main_call10_v11 : StableHlo.TRef sig ⟨S4194304, .i1⟩) (.of main_call10_v6 : StableHlo.TRef sig ⟨S4194304, .i1⟩) (.of main_call10_v12 : StableHlo.TRef sig ⟨S4194304, .i1⟩) andi,
    StableHlo.TRef.unary (.of main_call10_v2 : StableHlo.TRef sig ⟨S_, .i32⟩) (.of main_call10_v13 : StableHlo.TRef sig ⟨S4194304, .i32⟩) (broadcastInDim S4194304 ![] bcast_S_S4194304),
    StableHlo.TRef.binary (.of main_call10_v4 : StableHlo.TRef sig ⟨S4194304, .i32⟩) (.of main_call10_v13 : StableHlo.TRef sig ⟨S4194304, .i32⟩) (.of main_call10_v14 : StableHlo.TRef sig ⟨S4194304, .i32⟩) addi,
    StableHlo.TRef.ternary (.of main_call10_v12 : StableHlo.TRef sig ⟨S4194304, .i1⟩) (.of main_call10_v14 : StableHlo.TRef sig ⟨S4194304, .i32⟩) (.of main_call10_v4 : StableHlo.TRef sig ⟨S4194304, .i32⟩) (.of main_v27 : StableHlo.TRef sig ⟨S4194304, .i32⟩) select,
    StableHlo.unary main_v26 main_v28 (broadcastInDim S4194304x1 ![0] bcast_S4194304_S4194304x1_0 : (⟨S4194304, .i32⟩ : BufTy).Contents (Elt F) → (⟨S4194304x1, .i32⟩ : BufTy).Contents (Elt F)),
    StableHlo.unary main_v27 main_v29 (broadcastInDim S4194304x1 ![0] bcast_S4194304_S4194304x1_0 : (⟨S4194304, .i32⟩ : BufTy).Contents (Elt F) → (⟨S4194304x1, .i32⟩ : BufTy).Contents (Elt F)) ]
theorem ops9_sub : (ops9 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.unary_bufs_sub .., StableHlo.unary_bufs_sub ..⟩

/-- Operations 164 … 175 of 194, in order. -/
abbrev ops10 : List (HloOp τ sig (Elt F)) :=
  [ StableHlo.binary main_v28 main_v29 main_v30 ((fun a b => concatenate S4194304x2 1 [⟨S4194304x1, a⟩, ⟨S4194304x1, b⟩] concatenates_S4194304x1_S4194304x1_S4194304x2_d1) : (⟨S4194304x1, .i32⟩ : BufTy).Contents (Elt F) → (⟨S4194304x1, .i32⟩ : BufTy).Contents (Elt F) → (⟨S4194304x2, .i32⟩ : BufTy).Contents (Elt F)),
    StableHlo.nullary main_c_13 (constantI S_ 32 16#32),
    StableHlo.unary main_c_13 main_v31 (broadcastInDim S4194304x2 ![] bcast_S_S4194304x2 : (⟨S_, .i32⟩ : BufTy).Contents (Elt F) → (⟨S4194304x2, .i32⟩ : BufTy).Contents (Elt F)),
    StableHlo.binary main_v30 main_v31 main_v32 (subi : (⟨S4194304x2, .i32⟩ : BufTy).Contents (Elt F) → (⟨S4194304x2, .i32⟩ : BufTy).Contents (Elt F) → (⟨S4194304x2, .i32⟩ : BufTy).Contents (Elt F)),
    StableHlo.nullary main_c_14 (constantI S_ 32 16#32),
    StableHlo.unary main_c_14 main_v33 (broadcastInDim S4194304x2 ![] bcast_S_S4194304x2 : (⟨S_, .i32⟩ : BufTy).Contents (Elt F) → (⟨S4194304x2, .i32⟩ : BufTy).Contents (Elt F)),
    StableHlo.binary main_v30 main_v33 main_v34 (addi : (⟨S4194304x2, .i32⟩ : BufTy).Contents (Elt F) → (⟨S4194304x2, .i32⟩ : BufTy).Contents (Elt F) → (⟨S4194304x2, .i32⟩ : BufTy).Contents (Elt F)),
    StableHlo.nullary main_c_15 (constantI S_ 32 0#32),
    StableHlo.unary main_c_15 main_v35 (broadcastInDim S4194304x2 ![] bcast_S_S4194304x2 : (⟨S_, .i32⟩ : BufTy).Contents (Elt F) → (⟨S4194304x2, .i32⟩ : BufTy).Contents (Elt F)),
    StableHlo.binary main_v34 main_v35 main_v36 (addi : (⟨S4194304x2, .i32⟩ : BufTy).Contents (Elt F) → (⟨S4194304x2, .i32⟩ : BufTy).Contents (Elt F) → (⟨S4194304x2, .i32⟩ : BufTy).Contents (Elt F)),
    StableHlo.unary main_v32 main_v37 (broadcastInDim S4194304x1x2 ![0, 2] bcast_S4194304x2_S4194304x1x2_0_2 : (⟨S4194304x2, .i32⟩ : BufTy).Contents (Elt F) → (⟨S4194304x1x2, .i32⟩ : BufTy).Contents (Elt F)),
    StableHlo.unary main_v36 main_v38 (broadcastInDim S4194304x1x2 ![0, 2] bcast_S4194304x2_S4194304x1x2_0_2 : (⟨S4194304x2, .i32⟩ : BufTy).Contents (Elt F) → (⟨S4194304x1x2, .i32⟩ : BufTy).Contents (Elt F)) ]
theorem ops10_sub : (ops10 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub ..⟩

/-- Operations 176 … 178 of 194, in order. -/
abbrev ops11 : List (HloOp τ sig (Elt F)) :=
  [ StableHlo.binary main_v37 main_v38 main_v39 ((fun a b => concatenate S4194304x2x2 1 [⟨S4194304x1x2, a⟩, ⟨S4194304x1x2, b⟩] concatenates_S4194304x1x2_S4194304x1x2_S4194304x2x2_d1) : (⟨S4194304x1x2, .i32⟩ : BufTy).Contents (Elt F) → (⟨S4194304x1x2, .i32⟩ : BufTy).Contents (Elt F) → (⟨S4194304x2x2, .i32⟩ : BufTy).Contents (Elt F)),
    StableHlo.unary main_v24 main_v40 (broadcastInDim S4194304x1 ![0] bcast_S4194304_S4194304x1_0 : (⟨S4194304, .i32⟩ : BufTy).Contents (Elt F) → (⟨S4194304x1, .i32⟩ : BufTy).Contents (Elt F)),
    StableHlo.unary main_v24 main_v41 (broadcastInDim S4194304x1 ![0] bcast_S4194304_S4194304x1_0 : (⟨S4194304, .i32⟩ : BufTy).Contents (Elt F) → (⟨S4194304x1, .i32⟩ : BufTy).Contents (Elt F)) ]
theorem ops11_sub : (ops11 : List (HloOp τ sig (Elt F))).Forall fun op => op.bufs ⊆ StableHlo.tcRefs τ sig :=
  ⟨StableHlo.binary_bufs_sub .., StableHlo.unary_bufs_sub .., StableHlo.unary_bufs_sub ..⟩

/-- Operations 179 … 180 of 194, in order. -/
abbrev ops12 : List (HloOp τ sig (Elt F)) :=
  [ StableHlo.unary main_v40 main_v42 (broadcastInDim S4194304x1x1 ![0, 2] bcast_S4194304x1_S4194304x1x1_0_2 : (⟨S4194304x1, .i32⟩ : BufTy).Contents (Elt F) → (⟨S4194304x1x1, .i32⟩ : BufTy).Contents (Elt F)),
    StableHlo.unary main_v41 main_v43 (broadcastInDim S4194304x1x1 ![0, 2] bcast_S4194304x1_S4194304x1x1_0_2 : (⟨S4194304x1, .i32⟩ : BufTy).Contents (Elt F) → (⟨S4194304x1x1, .i32⟩ : BufTy).Contents (Elt F)) ]
theorem ops12_sub : (ops12 : List (HloOp τ sig (Elt F))).Forall fun op => op.bufs ⊆ StableHlo.tcRefs τ sig :=
  ⟨StableHlo.unary_bufs_sub .., StableHlo.unary_bufs_sub ..⟩

/-- Operations 181 … 181 of 194, in order. -/
abbrev ops13 : List (HloOp τ sig (Elt F)) :=
  [ StableHlo.binary main_v42 main_v43 main_v44 ((fun a b => concatenate S4194304x2x1 1 [⟨S4194304x1x1, a⟩, ⟨S4194304x1x1, b⟩] concatenates_S4194304x1x1_S4194304x1x1_S4194304x2x1_d1) : (⟨S4194304x1x1, .i32⟩ : BufTy).Contents (Elt F) → (⟨S4194304x1x1, .i32⟩ : BufTy).Contents (Elt F) → (⟨S4194304x2x1, .i32⟩ : BufTy).Contents (Elt F)) ]
theorem ops13_sub : (ops13 : List (HloOp τ sig (Elt F))).Forall fun op => op.bufs ⊆ StableHlo.tcRefs τ sig :=
  StableHlo.binary_bufs_sub ..

/-- Operations 182 … 194 of 194, in order. -/
abbrev ops14 : List (HloOp τ sig (Elt F)) :=
  [ StableHlo.binary main_v44 main_v39 main_v45 ((fun a b => concatenate S4194304x2x3 2 [⟨S4194304x2x1, a⟩, ⟨S4194304x2x2, b⟩] concatenates_S4194304x2x1_S4194304x2x2_S4194304x2x3_d2) : (⟨S4194304x2x1, .i32⟩ : BufTy).Contents (Elt F) → (⟨S4194304x2x2, .i32⟩ : BufTy).Contents (Elt F) → (⟨S4194304x2x3, .i32⟩ : BufTy).Contents (Elt F)),
    StableHlo.unary main_v2 main_v46 ((extui 32 · natLt_1_32) : (⟨S16x262144, .i1⟩ : BufTy).Contents (Elt F) → (⟨S16x262144, .i32⟩ : BufTy).Contents (Elt F)),
    StableHlo.nullary main_c_16 (constantI S_ 32 0#32),
    StableHlo.binary main_v46 main_c_16 main_v47 ((fun x v => Host.reduce IntOp.addi x v reducesTo_S16x262144_S_d0_1 h_S_) : (⟨S16x262144, .i32⟩ : BufTy).Contents (Elt F) → (⟨S_, .i32⟩ : BufTy).Contents (Elt F) → (⟨S_, .i32⟩ : BufTy).Contents (Elt F)),
    StableHlo.nullary main_v48 (iotaInDim S4194304 32 0),
    StableHlo.unary main_v47 main_v49 (broadcastInDim S4194304 ![] bcast_S_S4194304 : (⟨S_, .i32⟩ : BufTy).Contents (Elt F) → (⟨S4194304, .i32⟩ : BufTy).Contents (Elt F)),
    StableHlo.binary main_v48 main_v49 main_v50 (cmpi .slt : (⟨S4194304, .i32⟩ : BufTy).Contents (Elt F) → (⟨S4194304, .i32⟩ : BufTy).Contents (Elt F) → (⟨S4194304, .i1⟩ : BufTy).Contents (Elt F)),
    StableHlo.unary main_v50 main_v51 (broadcastInDim S4194304x1x1 ![0] bcast_S4194304_S4194304x1x1_0 : (⟨S4194304, .i1⟩ : BufTy).Contents (Elt F) → (⟨S4194304x1x1, .i1⟩ : BufTy).Contents (Elt F)),
    StableHlo.nullary main_c_17 (constantI S_ 32 4294967295#32),
    StableHlo.TRef.unary (.of main_c_17 : StableHlo.TRef sig ⟨S_, .i32⟩) (.of main_call11_v0 : StableHlo.TRef sig ⟨S_, .i32⟩) id,
    StableHlo.TRef.unary (.of main_v51 : StableHlo.TRef sig ⟨S4194304x1x1, .i1⟩) (.of main_call11_v1 : StableHlo.TRef sig ⟨S4194304x2x3, .i1⟩) (broadcastInDim S4194304x2x3 ![0, 1, 2] bcast_S4194304x1x1_S4194304x2x3_0_1_2),
    StableHlo.TRef.unary (.of main_call11_v0 : StableHlo.TRef sig ⟨S_, .i32⟩) (.of main_call11_v2 : StableHlo.TRef sig ⟨S4194304x2x3, .i32⟩) (broadcastInDim S4194304x2x3 ![] bcast_S_S4194304x2x3),
    StableHlo.TRef.ternary (.of main_call11_v1 : StableHlo.TRef sig ⟨S4194304x2x3, .i1⟩) (.of main_v45 : StableHlo.TRef sig ⟨S4194304x2x3, .i32⟩) (.of main_call11_v2 : StableHlo.TRef sig ⟨S4194304x2x3, .i32⟩) (.of main_v52 : StableHlo.TRef sig ⟨S4194304x2x3, .i32⟩) select ]
theorem ops14_sub : (ops14 : List (HloOp τ sig (Elt F))).Forall fun op => op.bufs ⊆ StableHlo.tcRefs τ sig :=
  ⟨StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub ..⟩

end Cert.ReferenceIdeal.HandRun

end
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.RefRead.lean ====
/-
  The reference program's operations, read back one list at a time.

  @main is a straight line of 194 operations once each call is replaced by its callee's body over that call's own
  buffers (the lists `ops0 … ops14` of RefOps.lean, in order). Both printed windows of @main are those lists run one
  after the other, by computation; so every execution terminates and each buffer ends at the fold of the operations'
  results over the launch contents.

  The fold is read one list at a time, over an arbitrary valuation: what a list leaves at the buffers later lists
  read, as a term of what it found at the buffers it reads. A value that later operations read more than once (the
  first running sum, the histogram, the word array, each floor quotient and remainder, the filled columns) ends a
  list, so that the next list's term mentions it as one variable and never as a copy of the chain that made it. A
  callee's operations move their operands and results between a value's type and its buffer's own type and back;
  stored and read back through the same reference such a pair is the identity, and at a literal reference a single
  transport is the identity by computation. (RefRun.lean substitutes list after list and states the run.)
-/
import proofs.«422792_j8924942041139_3_alg».proof.Proof.RefOps
import proofs.«422792_j8924942041139_3_alg».proof.Proof.RefTerm
import proofs.«422792_j8924942041139_3_alg».proof.Proof.LibTRefCast
import Idealize.ShloMosaic.Lib.StableHlo.Run
import Idealize.ShloMosaic.Lib.Pipeline.Frame
import Mathlib.Data.List.Basic

noncomputable section

namespace Cert.ReferenceIdeal.HandRun

open Cert.ReferenceIdeal Cert.ReferenceIdeal.Gen Idealize.ShloMosaic Idealize.ShloMosaic.TcCoe Idealize.SL.Sem
open Idealize.ShloMosaic.StableHlo Cert.ReferenceIdeal.Hand

variable {F : FTy → Type} [FloatOps F]

/-! ## @main is the straight line -/

/-- The operations of @main's first window. -/
abbrev opsA : List (HloOp τ sig (Elt F)) :=
  ops0 ++ ops1 ++ ops2 ++ ops3 ++ ops4 ++ ops5 ++ ops6 ++ ops7 ++ ops8 ++ ops9 ++ ops10 ++ ops11
/-- The operations of @main's second window. -/
abbrev opsB : List (HloOp τ sig (Elt F)) := ops12 ++ ops13 ++ ops14
/-- All of @main's operations, in order. -/
abbrev allOps : List (HloOp τ sig (Elt F)) := opsA ++ opsB

set_option maxRecDepth 8192 in
/-- The first window: each call's body unfolds at its call site and sequencing reassociates, by computation. -/
theorem main_part0_eq (c : Dev nD) : main_part0 (F := F) c = seq opsA := rfl

/-- The second window likewise. -/
theorem main_part1_eq (c : Dev nD) : main_part1 (F := F) c = seq opsB := rfl

/-- @main runs its two windows in order: the straight line of all its operations. -/
theorem main_eq (c : Dev nD) : main (F := F) c = seq allOps :=
  (show main (F := F) c = (main_part0 c >>= fun _ => main_part1 c) from rfl).trans
    (by rw [main_part0_eq, main_part1_eq]; exact (seq_append _ _).symm)

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its result -/

theorem sub_append {l₁ l₂ : List (HloOp τ sig (Elt F))}
    (h₁ : l₁.Forall fun op => op.bufs ⊆ tcRefs τ sig) (h₂ : l₂.Forall fun op => op.bufs ⊆ tcRefs τ sig) :
    (l₁ ++ l₂).Forall fun op => op.bufs ⊆ tcRefs τ sig := List.forall_append.2 ⟨h₁, h₂⟩

theorem allOps_sub : (allOps : List (HloOp τ sig (Elt F))).Forall fun op => op.bufs ⊆ tcRefs τ sig :=
  sub_append
    (sub_append (sub_append (sub_append (sub_append (sub_append (sub_append (sub_append (sub_append (sub_append (sub_append
      (sub_append ops0_sub ops1_sub) ops2_sub) ops3_sub) ops4_sub) ops5_sub) ops6_sub) ops7_sub) ops8_sub) ops9_sub)
      ops10_sub) ops11_sub)
    (sub_append (sub_append ops12_sub ops13_sub) ops14_sub)

theorem fresh_append {l₁ l₂ : List (HloOp τ sig (Elt F))}
    (h₁ : ∀ op ∈ l₁, op.fresh = ∅) (h₂ : ∀ op ∈ l₂, op.fresh = ∅) : ∀ op ∈ l₁ ++ l₂, op.fresh = ∅ :=
  fun op h => (List.mem_append.1 h).elim (h₁ op) (h₂ op)

/-- Membership in a literal list, one element at a time: none of these operations leaves a result undetermined. -/
local macro "fresh_peel" : tactic =>
  `(tactic| (intro _ h; (repeat (cases h with | head => rfl | tail _ h => ?_)); exact nomatch h))

theorem ops0_fresh : ∀ op ∈ (ops0 : List (HloOp τ sig (Elt F))), op.fresh = ∅ := by fresh_peel
theorem ops1_fresh : ∀ op ∈ (ops1 : List (HloOp τ sig (Elt F))), op.fresh = ∅ := by fresh_peel
theorem ops2_fresh : ∀ op ∈ (ops2 : List (HloOp τ sig (Elt F))), op.fresh = ∅ := by fresh_peel
theorem ops3_fresh : ∀ op ∈ (ops3 : List (HloOp τ sig (Elt F))), op.fresh = ∅ := by fresh_peel
theorem ops4_fresh : ∀ op ∈ (ops4 : List (HloOp τ sig (Elt F))), op.fresh = ∅ := by fresh_peel
theorem ops5_fresh : ∀ op ∈ (ops5 : List (HloOp τ sig (Elt F))), op.fresh = ∅ := by fresh_peel
theorem ops6_fresh : ∀ op ∈ (ops6 : List (HloOp τ sig (Elt F))), op.fresh = ∅ := by fresh_peel
theorem ops7_fresh : ∀ op ∈ (ops7 : List (HloOp τ sig (Elt F))), op.fresh = ∅ := by fresh_peel
theorem ops8_fresh : ∀ op ∈ (ops8 : List (HloOp τ sig (Elt F))), op.fresh = ∅ := by fresh_peel
theorem ops9_fresh : ∀ op ∈ (ops9 : List (HloOp τ sig (Elt F))), op.fresh = ∅ := by fresh_peel
theorem ops10_fresh : ∀ op ∈ (ops10 : List (HloOp τ sig (Elt F))), op.fresh = ∅ := by fresh_peel
theorem ops11_fresh : ∀ op ∈ (ops11 : List (HloOp τ sig (Elt F))), op.fresh = ∅ := by fresh_peel
theorem ops12_fresh : ∀ op ∈ (ops12 : List (HloOp τ sig (Elt F))), op.fresh = ∅ := by fresh_peel
theorem ops13_fresh : ∀ op ∈ (ops13 : List (HloOp τ sig (Elt F))), op.fresh = ∅ := by fresh_peel
theorem ops14_fresh : ∀ op ∈ (ops14 : List (HloOp τ sig (Elt F))), op.fresh = ∅ := by fresh_peel

theorem allOps_fresh : ∀ op ∈ (allOps : List (HloOp τ sig (Elt F))), op.fresh = ∅ :=
  fresh_append
    (fresh_append (fresh_append (fresh_append (fresh_append (fresh_append (fresh_append (fresh_append (fresh_append (fresh_append (fresh_append
      (fresh_append ops0_fresh ops1_fresh) ops2_fresh) ops3_fresh) ops4_fresh) ops5_fresh) ops6_fresh) ops7_fresh) ops8_fresh) ops9_fresh)
      ops10_fresh) ops11_fresh)
    (fresh_append (fresh_append ops12_fresh ops13_fresh) ops14_fresh)

/-! ## What each list leaves

The sums, the histogram and the concatenations are never opened: only which value each is applied to is read. -/

attribute [local irreducible] Host.reduce Host.reduceWindow Host.scatter concatenate

/-- Reads a fold at one buffer: each operation's result at its own buffer and what was there at any other; a value
    stored and read back through one typed reference is itself; what is left is equal by computation. -/
local macro "read_fold" : tactic =>
  `(tactic| (after_results_simp <;> (try simp only [TRef.ofBuf_toBuf, TRef.toBuf_ofBuf]) <;> (try rfl)))

/-- The histogram of a running sum `s`, clipped below at zero and with a negative entry moved up by the length. -/
def histOf (s : IVec S4194304 32) : IVec S4194304 32 :=
  let v5 := maxsi (broadcastInDim S4194304 ![] bcast_S_S4194304 (id (constantI S_ 32 0#32))) s
  let v10 := select (cmpi .slt v5 (broadcastInDim S4194304 ![] bcast_S_S4194304 (constantI S_ 32 0#32))) (addi v5 (broadcastInDim S4194304 ![] bcast_S_S4194304 (constantI S_ 32 4194304#32))) v5
  Host.scatter scatter_S4194304_S4194304x1_S4194304_n_0_0_1 IntOp.addi (broadcastInDim S4194304 ![] bcast_S_S4194304 (constantI S_ 32 0#32))
    (broadcastInDim S4194304x1 ![0] bcast_S4194304_S4194304x1_0 v10) (broadcastInDim S4194304 ![] bcast_S_S4194304 (constantI S_ 32 1#32))

/-- The number of set bits of a [16, 262144] array of bits. -/
def cntOf (h : IVec S16x262144 1) : IVec S_ 32 :=
  Host.reduce IntOp.addi (extui 32 h natLt_1_32) (constantI S_ 32 0#32) reducesTo_S16x262144_S_d0_1 h_S_

/-! ### The hit bits and the first running sum (operations 1 … 9) -/

theorem s0_v2 (V : Valuation τ sig (Elt F)) :
    after ops0 V (main_v2 : DevRef τ sig)
      = pHits (V (main_arg0 : DevRef τ sig)) := by read_fold

theorem s0_v3 (V : Valuation τ sig (Elt F)) :
    after ops0 V (main_v3 : DevRef τ sig)
      = pRun (extui 32 (shapeCast S4194304 (pHits (V (main_arg0 : DevRef τ sig))) shapeCasts_S16x262144_S4194304) natLt_1_32) := by read_fold

theorem s0_arg0 (V : Valuation τ sig (Elt F)) :
    after ops0 V (main_arg0 : DevRef τ sig) = V (main_arg0 : DevRef τ sig) := by read_fold

/-! ### The histogram (operations 10 … 26) -/

theorem s1_v13 (V : Valuation τ sig (Elt F)) :
    after ops1 V (main_v13 : DevRef τ sig)
      = histOf (V (main_v3 : DevRef τ sig)) := by read_fold

theorem s1_v2 (V : Valuation τ sig (Elt F)) :
    after ops1 V (main_v2 : DevRef τ sig) = V (main_v2 : DevRef τ sig) := by read_fold
theorem s1_arg0 (V : Valuation τ sig (Elt F)) :
    after ops1 V (main_arg0 : DevRef τ sig) = V (main_arg0 : DevRef τ sig) := by read_fold

/-! ### The word array (operations 27 … 29) -/

theorem s2_v14 (V : Valuation τ sig (Elt F)) :
    after ops2 V (main_v14 : DevRef τ sig)
      = pRun (V (main_v13 : DevRef τ sig)) := by read_fold

theorem s2_v2 (V : Valuation τ sig (Elt F)) :
    after ops2 V (main_v2 : DevRef τ sig) = V (main_v2 : DevRef τ sig) := by read_fold
theorem s2_arg0 (V : Valuation τ sig (Elt F)) :
    after ops2 V (main_arg0 : DevRef τ sig) = V (main_arg0 : DevRef τ sig) := by read_fold

/-! ### The word over 2^18, floored (operations 30 … 46) -/

theorem s3_v15 (V : Valuation τ sig (Elt F)) :
    after ops3 V (main_v15 : DevRef τ sig)
      = floorDiv (V (main_v14 : DevRef τ sig)) (constantI S_ 32 262144#32) := by read_fold

theorem s3_v14 (V : Valuation τ sig (Elt F)) :
    after ops3 V (main_v14 : DevRef τ sig) = V (main_v14 : DevRef τ sig) := by read_fold
theorem s3_v2 (V : Valuation τ sig (Elt F)) :
    after ops3 V (main_v2 : DevRef τ sig) = V (main_v2 : DevRef τ sig) := by read_fold
theorem s3_arg0 (V : Valuation τ sig (Elt F)) :
    after ops3 V (main_arg0 : DevRef τ sig) = V (main_arg0 : DevRef τ sig) := by read_fold

/-! ### … and that modulo 16: the image index (operations 47 … 68) -/

theorem s4_v16 (V : Valuation τ sig (Elt F)) :
    after ops4 V (main_v16 : DevRef τ sig)
      = floorRem (V (main_v15 : DevRef τ sig)) (constantI S_ 32 16#32) := by read_fold

theorem s4_v14 (V : Valuation τ sig (Elt F)) :
    after ops4 V (main_v14 : DevRef τ sig) = V (main_v14 : DevRef τ sig) := by read_fold
theorem s4_v2 (V : Valuation τ sig (Elt F)) :
    after ops4 V (main_v2 : DevRef τ sig) = V (main_v2 : DevRef τ sig) := by read_fold
theorem s4_arg0 (V : Valuation τ sig (Elt F)) :
    after ops4 V (main_arg0 : DevRef τ sig) = V (main_arg0 : DevRef τ sig) := by read_fold

/-! ### The word over 1, floored (operations 69 … 85) -/

theorem s5_v17 (V : Valuation τ sig (Elt F)) :
    after ops5 V (main_v17 : DevRef τ sig)
      = floorDiv (V (main_v14 : DevRef τ sig)) (constantI S_ 32 1#32) := by read_fold

theorem s5_v16 (V : Valuation τ sig (Elt F)) :
    after ops5 V (main_v16 : DevRef τ sig) = V (main_v16 : DevRef τ sig) := by read_fold
theorem s5_v2 (V : Valuation τ sig (Elt F)) :
    after ops5 V (main_v2 : DevRef τ sig) = V (main_v2 : DevRef τ sig) := by read_fold
theorem s5_arg0 (V : Valuation τ sig (Elt F)) :
    after ops5 V (main_arg0 : DevRef τ sig) = V (main_arg0 : DevRef τ sig) := by read_fold

/-! ### … and that modulo 2^18: the pixel index (operations 86 … 107) -/

theorem s6_v18 (V : Valuation τ sig (Elt F)) :
    after ops6 V (main_v18 : DevRef τ sig)
      = floorRem (V (main_v17 : DevRef τ sig)) (constantI S_ 32 262144#32) := by read_fold

theorem s6_v16 (V : Valuation τ sig (Elt F)) :
    after ops6 V (main_v16 : DevRef τ sig) = V (main_v16 : DevRef τ sig) := by read_fold
theorem s6_v2 (V : Valuation τ sig (Elt F)) :
    after ops6 V (main_v2 : DevRef τ sig) = V (main_v2 : DevRef τ sig) := by read_fold
theorem s6_arg0 (V : Valuation τ sig (Elt F)) :
    after ops6 V (main_arg0 : DevRef τ sig) = V (main_arg0 : DevRef τ sig) := by read_fold

/-! ### Both columns filled with zero at and past the count (operations 108 … 121) -/

theorem s7_v24 (V : Valuation τ sig (Elt F)) :
    after ops7 V (main_v24 : DevRef τ sig)
      = whereS (cmpi .sge (iotaInDim S4194304 32 0) (broadcastInDim S4194304 ![] bcast_S_S4194304 (cntOf (V (main_v2 : DevRef τ sig))))) (constantI S_ 32 0#32) (V (main_v16 : DevRef τ sig)) := by read_fold

theorem s7_v25 (V : Valuation τ sig (Elt F)) :
    after ops7 V (main_v25 : DevRef τ sig)
      = whereS (cmpi .sge (iotaInDim S4194304 32 0) (broadcastInDim S4194304 ![] bcast_S_S4194304 (cntOf (V (main_v2 : DevRef τ sig))))) (constantI S_ 32 0#32) (V (main_v18 : DevRef τ sig)) := by read_fold

theorem s7_v2 (V : Valuation τ sig (Elt F)) :
    after ops7 V (main_v2 : DevRef τ sig) = V (main_v2 : DevRef τ sig) := by read_fold
theorem s7_arg0 (V : Valuation τ sig (Elt F)) :
    after ops7 V (main_arg0 : DevRef τ sig) = V (main_arg0 : DevRef τ sig) := by read_fold

/-! ### The pixel's row (operations 122 … 139) -/

theorem s8_v26 (V : Valuation τ sig (Elt F)) :
    after ops8 V (main_v26 : DevRef τ sig)
      = floorDiv4 (V (main_v25 : DevRef τ sig)) (constantI S_ 32 512#32) := by read_fold

theorem s8_v25 (V : Valuation τ sig (Elt F)) :
    after ops8 V (main_v25 : DevRef τ sig) = V (main_v25 : DevRef τ sig) := by read_fold
theorem s8_v24 (V : Valuation τ sig (Elt F)) :
    after ops8 V (main_v24 : DevRef τ sig) = V (main_v24 : DevRef τ sig) := by read_fold
theorem s8_v2 (V : Valuation τ sig (Elt F)) :
    after ops8 V (main_v2 : DevRef τ sig) = V (main_v2 : DevRef τ sig) := by read_fold
theorem s8_arg0 (V : Valuation τ sig (Elt F)) :
    after ops8 V (main_arg0 : DevRef τ sig) = V (main_arg0 : DevRef τ sig) := by read_fold

/-! ### The pixel's column, and both as [N, 1] (operations 140 … 163) -/

theorem s9_v28 (V : Valuation τ sig (Elt F)) :
    after ops9 V (main_v28 : DevRef τ sig)
      = broadcastInDim S4194304x1 ![0] bcast_S4194304_S4194304x1_0 (V (main_v26 : DevRef τ sig)) := by read_fold

theorem s9_v29 (V : Valuation τ sig (Elt F)) :
    after ops9 V (main_v29 : DevRef τ sig)
      = broadcastInDim S4194304x1 ![0] bcast_S4194304_S4194304x1_0 (floorRem (V (main_v25 : DevRef τ sig)) (constantI S_ 32 512#32)) := by read_fold

theorem s9_v24 (V : Valuation τ sig (Elt F)) :
    after ops9 V (main_v24 : DevRef τ sig) = V (main_v24 : DevRef τ sig) := by read_fold
theorem s9_v2 (V : Valuation τ sig (Elt F)) :
    after ops9 V (main_v2 : DevRef τ sig) = V (main_v2 : DevRef τ sig) := by read_fold
theorem s9_arg0 (V : Valuation τ sig (Elt F)) :
    after ops9 V (main_arg0 : DevRef τ sig) = V (main_arg0 : DevRef τ sig) := by read_fold

/-! ### Side by side, offset down and up by 16 (operations 164 … 175) -/

theorem s10_v37 (V : Valuation τ sig (Elt F)) :
    after ops10 V (main_v37 : DevRef τ sig)
      = broadcastInDim S4194304x1x2 ![0, 2] bcast_S4194304x2_S4194304x1x2_0_2
          (subi (concatenate S4194304x2 1 [⟨S4194304x1, V (main_v28 : DevRef τ sig)⟩, ⟨S4194304x1, V (main_v29 : DevRef τ sig)⟩] concatenates_S4194304x1_S4194304x1_S4194304x2_d1) (broadcastInDim S4194304x2 ![] bcast_S_S4194304x2 (constantI S_ 32 16#32))) := by read_fold

theorem s10_v38 (V : Valuation τ sig (Elt F)) :
    after ops10 V (main_v38 : DevRef τ sig)
      = broadcastInDim S4194304x1x2 ![0, 2] bcast_S4194304x2_S4194304x1x2_0_2
          (addi (addi (concatenate S4194304x2 1 [⟨S4194304x1, V (main_v28 : DevRef τ sig)⟩, ⟨S4194304x1, V (main_v29 : DevRef τ sig)⟩] concatenates_S4194304x1_S4194304x1_S4194304x2_d1) (broadcastInDim S4194304x2 ![] bcast_S_S4194304x2 (constantI S_ 32 16#32))) (broadcastInDim S4194304x2 ![] bcast_S_S4194304x2 (constantI S_ 32 0#32))) := by read_fold

theorem s10_v24 (V : Valuation τ sig (Elt F)) :
    after ops10 V (main_v24 : DevRef τ sig) = V (main_v24 : DevRef τ sig) := by read_fold
theorem s10_v2 (V : Valuation τ sig (Elt F)) :
    after ops10 V (main_v2 : DevRef τ sig) = V (main_v2 : DevRef τ sig) := by read_fold
theorem s10_arg0 (V : Valuation τ sig (Elt F)) :
    after ops10 V (main_arg0 : DevRef τ sig) = V (main_arg0 : DevRef τ sig) := by read_fold

/-! ### The two corners, and the image index as [N, 1] twice (operations 176 … 178) -/

theorem s11_v39 (V : Valuation τ sig (Elt F)) :
    after ops11 V (main_v39 : DevRef τ sig)
      = concatenate S4194304x2x2 1 [⟨S4194304x1x2, V (main_v37 : DevRef τ sig)⟩, ⟨S4194304x1x2, V (main_v38 : DevRef τ sig)⟩]
          concatenates_S4194304x1x2_S4194304x1x2_S4194304x2x2_d1 := by read_fold

theorem s11_v40 (V : Valuation τ sig (Elt F)) :
    after ops11 V (main_v40 : DevRef τ sig)
      = broadcastInDim S4194304x1 ![0] bcast_S4194304_S4194304x1_0 (V (main_v24 : DevRef τ sig)) := by read_fold

theorem s11_v41 (V : Valuation τ sig (Elt F)) :
    after ops11 V (main_v41 : DevRef τ sig)
      = broadcastInDim S4194304x1 ![0] bcast_S4194304_S4194304x1_0 (V (main_v24 : DevRef τ sig)) := by read_fold

theorem s11_v2 (V : Valuation τ sig (Elt F)) :
    after ops11 V (main_v2 : DevRef τ sig) = V (main_v2 : DevRef τ sig) := by read_fold
theorem s11_arg0 (V : Valuation τ sig (Elt F)) :
    after ops11 V (main_arg0 : DevRef τ sig) = V (main_arg0 : DevRef τ sig) := by read_fold

/-! ### … as [N, 1, 1] (operations 179 … 180) -/

theorem s12_v42 (V : Valuation τ sig (Elt F)) :
    after ops12 V (main_v42 : DevRef τ sig)
      = broadcastInDim S4194304x1x1 ![0, 2] bcast_S4194304x1_S4194304x1x1_0_2 (V (main_v40 : DevRef τ sig)) := by read_fold

theorem s12_v43 (V : Valuation τ sig (Elt F)) :
    after ops12 V (main_v43 : DevRef τ sig)
      = broadcastInDim S4194304x1x1 ![0, 2] bcast_S4194304x1_S4194304x1x1_0_2 (V (main_v41 : DevRef τ sig)) := by read_fold

theorem s12_v39 (V : Valuation τ sig (Elt F)) :
    after ops12 V (main_v39 : DevRef τ sig) = V (main_v39 : DevRef τ sig) := by read_fold
theorem s12_v2 (V : Valuation τ sig (Elt F)) :
    after ops12 V (main_v2 : DevRef τ sig) = V (main_v2 : DevRef τ sig) := by read_fold
theorem s12_arg0 (V : Valuation τ sig (Elt F)) :
    after ops12 V (main_arg0 : DevRef τ sig) = V (main_arg0 : DevRef τ sig) := by read_fold

/-! ### … one above the other (operation 181) -/

theorem s13_v44 (V : Valuation τ sig (Elt F)) :
    after ops13 V (main_v44 : DevRef τ sig)
      = concatenate S4194304x2x1 1 [⟨S4194304x1x1, V (main_v42 : DevRef τ sig)⟩, ⟨S4194304x1x1, V (main_v43 : DevRef τ sig)⟩]
          concatenates_S4194304x1x1_S4194304x1x1_S4194304x2x1_d1 := by read_fold

theorem s13_v39 (V : Valuation τ sig (Elt F)) :
    after ops13 V (main_v39 : DevRef τ sig) = V (main_v39 : DevRef τ sig) := by read_fold
theorem s13_v2 (V : Valuation τ sig (Elt F)) :
    after ops13 V (main_v2 : DevRef τ sig) = V (main_v2 : DevRef τ sig) := by read_fold
theorem s13_arg0 (V : Valuation τ sig (Elt F)) :
    after ops13 V (main_arg0 : DevRef τ sig) = V (main_arg0 : DevRef τ sig) := by read_fold

/-! ### The rows, and `-1` at and past the count (operations 182 … 194) -/

theorem s14_v52 (V : Valuation τ sig (Elt F)) :
    after ops14 V (main_v52 : DevRef τ sig)
      = select
          (broadcastInDim S4194304x2x3 ![0, 1, 2] bcast_S4194304x1x1_S4194304x2x3_0_1_2
            (broadcastInDim S4194304x1x1 ![0] bcast_S4194304_S4194304x1x1_0
              (cmpi .slt (iotaInDim S4194304 32 0) (broadcastInDim S4194304 ![] bcast_S_S4194304 (cntOf (V (main_v2 : DevRef τ sig)))))))
          (concatenate S4194304x2x3 2 [⟨S4194304x2x1, V (main_v44 : DevRef τ sig)⟩, ⟨S4194304x2x2, V (main_v39 : DevRef τ sig)⟩]
            concatenates_S4194304x2x1_S4194304x2x2_S4194304x2x3_d2)
          (broadcastInDim S4194304x2x3 ![] bcast_S_S4194304x2x3 (id (constantI S_ 32 4294967295#32))) := by read_fold

theorem s14_arg0 (V : Valuation τ sig (Elt F)) :
    after ops14 V (main_arg0 : DevRef τ sig) = V (main_arg0 : DevRef τ sig) := by read_fold

end Cert.ReferenceIdeal.HandRun

end
-- ==== Proof.RefRun.lean ====
/-
  The reference program's run.

  RefRead.lean shows @main to be the straight line of its 194 operations and reads, list by list, what each list
  leaves at the buffers later lists read. Here the lists are put end to end: the fold over all the operations is the
  fold over the last list of the fold over those before it, so substituting each list's term into the next, from the
  last list back to the first, leaves the result buffer at a term of the argument alone, which is the composed term
  `refOut` once its stages are unfolded; no operation writes the argument's buffer. Every weakly fair execution
  therefore terminates with the result at `refOut` of the argument's launch contents and the argument unchanged.
-/
import proofs.«422792_j8924942041139_3_alg».proof.Proof.RefRead

noncomputable section

namespace Cert.ReferenceIdeal.HandRun

open Cert.ReferenceIdeal Cert.ReferenceIdeal.Gen Idealize.ShloMosaic Idealize.ShloMosaic.TcCoe Idealize.SL.Sem
open Idealize.ShloMosaic.StableHlo Cert.ReferenceIdeal.Hand

variable {F : FTy → Type} [FloatOps F]

-- the sums, the histogram and the concatenations stay closed while two terms are compared
attribute [local irreducible] Host.reduce Host.reduceWindow Host.scatter concatenate

/-! ## The whole line

The fold over all the operations is the fold over the last list of the fold over those before it; each list's value
at a buffer is its term of the previous fold's values, so substituting from the last list back to the first leaves a
term of the argument alone. -/

/-- The result buffer ends at the composed term of the argument. -/
theorem res_v52 (V : Valuation τ sig (Elt F)) :
    after allOps V (main_v52 : DevRef τ sig) = refOut (V (main_arg0 : DevRef τ sig)) := by
  simp only [allOps, opsA, opsB, StableHlo.after_append]
  rw [s14_v52, s13_v44, s13_v39, s13_v2, s12_v42, s12_v43, s12_v39, s12_v2, s11_v39, s11_v40, s11_v41,
    s11_v2, s10_v37, s10_v38, s10_v24, s10_v2, s9_v28, s9_v29, s9_v24, s9_v2, s8_v26, s8_v25, s8_v24,
    s8_v2, s7_v24, s7_v25, s7_v2, s6_v18, s6_v16, s6_v2, s5_v17, s5_v16, s5_v2, s4_v16, s4_v14, s4_v2,
    s3_v15, s3_v14, s3_v2, s2_v14, s2_v2, s1_v13, s1_v2, s0_v2, s0_v3]
  rfl

/-- No operation writes the argument's buffer. -/
theorem res_arg0 (V : Valuation τ sig (Elt F)) :
    after allOps V (main_arg0 : DevRef τ sig) = V (main_arg0 : DevRef τ sig) := by
  simp only [allOps, opsA, opsB, StableHlo.after_append]
  rw [s14_arg0, s13_arg0, s12_arg0, s11_arg0, s10_arg0, s9_arg0, s8_arg0, s7_arg0, s6_arg0, s5_arg0,
    s4_arg0, s3_arg0, s2_arg0, s1_arg0, s0_arg0]

/-! ## The run -/

/-- On every device, for any float values, from any memory with zero counters: every weakly fair execution of @main
    terminates with the result buffer at the composed term of the argument's launch contents and the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = Cert.ReferenceIdeal.Hand.refOut (m ((c.tc : Thread nD τ).loc main_arg0))
      ∧ r.2.mem ((c.tc : Thread nD τ).loc main_arg0) = m ((c.tc : Thread nD τ).loc main_arg0) :=
  (θ_run defs _ _).mono (fun _ h c => ⟨(h c main_v52).trans (res_v52 _), (h c main_arg0).trans (res_arg0 _)⟩)
    (run_seq scopedRefs_eq scopedSems_eq defs main (fun _ => allOps) main_eq (fun _ => allOps_sub) m ρ
      (fun _ => allOps_fresh))

end Cert.ReferenceIdeal.HandRun

end
-- ==== Proof.lean ====
/- The proof of `Cert.Claim` (proofs.«422792_j8924942041139_3_alg».proof.Defs).

   Both programs turn a mask `x : f32[16,512,512]` into the [4194304, 2, 3] table of boxes around its hits. Each forms the hit
   bits `x > 1/2`, compacts their flat indices into a word array `W` (running sum, clip, histogram scatter, running sum) and
   counts the hits. The reference splits `W k` into image, row and column by floor division and remainder, stacks
   `(b, x - 16, y - 16)` and `(b, x + 16, y + 16)`, and writes `-1` on rows at or past the count. The kernel program reduces
   `W k` modulo 2^22 on the host, hands the words as an [8, 524288] array and the count as a one-word table to a region of
   16 grid points, each of which writes five planes (image; row and column less 16; row and column plus 16; `-1` past the
   count) by shifts and masks, and then gathers planes 0, 1, 2, 0, 3, 4 and transposes. Floor division and remainder by a
   power of two are the arithmetic shift and the mask on every 32-bit word, so both results are ONE function of
   `W`, the count and the position (`Cert.Spec.out`); no property of `W` is used beyond its being the same array in both.
   The frames of the two kernel programs are the generated ones (their side condition on the prefetched table is
   empty); the reference's frame is its run with the result dropped; the idealization rewrote nothing. -/
import proofs.«422792_j8924942041139_3_alg».proof.Defs
import proofs.«422792_j8924942041139_3_alg».proof.Proof.Gen.Kernel
import proofs.«422792_j8924942041139_3_alg».proof.Proof.Gen.Kernel.Frame
import proofs.«422792_j8924942041139_3_alg».proof.Proof.Gen.KernelIdeal
import proofs.«422792_j8924942041139_3_alg».proof.Proof.Gen.KernelIdeal.Frame
import proofs.«422792_j8924942041139_3_alg».proof.Proof.Gen.ReferenceIdeal
import proofs.«422792_j8924942041139_3_alg».proof.Proof.Gen.Pre_finite_inputs
import proofs.«422792_j8924942041139_3_alg».proof.Proof.KValue
import proofs.«422792_j8924942041139_3_alg».proof.Proof.RefTerm
import proofs.«422792_j8924942041139_3_alg».proof.Proof.RefRun
import Idealize.ShloMosaic.Adequacy
import Idealize.ShloMosaic.Init

noncomputable section

namespace Cert.Proof

open Idealize.ShloMosaic Idealize.SL.Sem

/-- The word-level kernel program's frame: the generated one, its side condition on the table being empty. -/
theorem frame_kernel : Cert.frame_Kernel := fun m ρ _ => Cert.Kernel.Gen.frame m ρ trivial

/-- The same for the idealized kernel program. -/
theorem frame_kernelIdeal : Cert.frame_KernelIdeal := fun m ρ _ => Cert.KernelIdeal.Gen.frame m ρ trivial

/-- The reference's frame: its run, the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- Both programs end at the specification of the mask; the masks agree. -/
theorem algebraic : Cert.algebraic_KernelIdeal_ReferenceIdeal := by
  intro m ρ m' ρ' _ hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.HandRun.run (F := Ideal) m' ρ')
  exact (Cert.ReferenceIdeal.Hand.refOut_eq _).trans (congrArg Cert.Spec.out (hagree c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
